-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_dt" .f32 0x42C80000#32 ((536870912 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2 : Shape := ⟨2, ![4000000, 2]⟩
abbrev S2x8000000 : Shape := ⟨2, ![2, 8000000]⟩
abbrev S8000000x1 : Shape := ⟨2, ![8000000, 1]⟩
abbrev S4000000x1 : Shape := ⟨2, ![4000000, 1]⟩
abbrev S_ : Shape := ⟨0, ![]⟩

class Facts : Prop where
  bcast_S_S4000000x2 : S_.BroadcastsInDim S4000000x2 (![] : Fin 0 → Fin S4000000x2.rank)
  reducesTo_S4000000x2_S_d0_1 : S4000000x2.ReducesTo [0, 1] S_
  h_S_ : 0 < S_.numel
  bcast_S_S8000000x1 : S_.BroadcastsInDim S8000000x1 (![] : Fin 0 → Fin S8000000x1.rank)
  reducesTo_S8000000x1_S_d0_1 : S8000000x1.ReducesTo [0, 1] S_
  bcast_S_S4000000x1 : S_.BroadcastsInDim S4000000x1 (![] : Fin 0 → Fin S4000000x1.rank)
  reducesTo_S4000000x1_S_d0_1 : S4000000x1.ReducesTo [0, 1] S_
  bcast_S_S2x8000000 : S_.BroadcastsInDim S2x8000000 (![] : Fin 0 → Fin S2x8000000.rank)
  reducesTo_S2x8000000_S_d0_1 : S2x8000000.ReducesTo [0, 1] S_

variable [Facts]

def fn_part1 {F : FTy → Type} [FloatOps F] (main_arg2 : IVec S2x8000000 32) (main_v13 : IVec S_ 1) (main_v16 : IVec S4000000x1 1) : IVec S_ 1 :=
  let main_c_5 : IVec S_ 1 := constantI S_ 1 1#1
  let main_v17 : IVec S_ 1 := (fun x v => Host.reduce IntOp.andi x v reducesTo_S4000000x1_S_d0_1 h_S_) main_v16 main_c_5
  let main_v18 : IVec S_ 1 := andi main_v13 main_v17
  let main_c_6 : IVec S_ 32 := constantI S_ 32 0#32
  let main_v19 : IVec S2x8000000 32 := broadcastInDim S2x8000000 ![] bcast_S_S2x8000000 main_c_6
  let main_v20 : IVec S2x8000000 1 := cmpi .sge main_arg2 main_v19
  let main_c_7 : IVec S_ 1 := constantI S_ 1 1#1
  let main_v21 : IVec S_ 1 := (fun x v => Host.reduce IntOp.andi x v reducesTo_S2x8000000_S_d0_1 h_S_) main_v20 main_c_7
  let main_v22 : IVec S_ 1 := andi main_v18 main_v21
  let main_c_8 : IVec S_ 32 := constantI S_ 32 4000000#32
  let main_v23 : IVec S2x8000000 32 := broadcastInDim S2x8000000 ![] bcast_S_S2x8000000 main_c_8
  let main_v24 : IVec S2x8000000 1 := cmpi .slt main_arg2 main_v23
  let main_c_9 : IVec S_ 1 := constantI S_ 1 1#1
  let main_v25 : IVec S_ 1 := (fun x v => Host.reduce IntOp.andi x v reducesTo_S2x8000000_S_d0_1 h_S_) main_v24 main_c_9
  let main_v26 : IVec S_ 1 := andi main_v22 main_v25
  main_v26

def fn {F : FTy → Type} [FloatOps F] (main_arg0 : FVec F S4000000x2 .f32) (main_arg1 : FVec F S4000000x2 .f32) (main_arg2 : IVec S2x8000000 32) (main_arg3 : FVec F S8000000x1 .f32) (main_arg4 : FVec F S4000000x1 .f32) : IVec S_ 1 :=
  let main_v0 : FVec F S4000000x2 .f32 := Host.absf main_arg0
  let main_cst : FVec F S_ .f32 := constant S_ .f32 0x7F800000#32
  let main_v1 : FVec F S4000000x2 .f32 := broadcastInDim S4000000x2 ![] bcast_S_S4000000x2 main_cst
  let main_v2 : IVec S4000000x2 1 := cmpf .olt main_v0 main_v1
  let main_c : IVec S_ 1 := constantI S_ 1 1#1
  let main_v3 : IVec S_ 1 := (fun x v => Host.reduce IntOp.andi x v reducesTo_S4000000x2_S_d0_1 h_S_) main_v2 main_c
  let main_v4 : FVec F S4000000x2 .f32 := Host.absf main_arg1
  let main_cst_0 : FVec F S_ .f32 := constant S_ .f32 0x7F800000#32
  let main_v5 : FVec F S4000000x2 .f32 := broadcastInDim S4000000x2 ![] bcast_S_S4000000x2 main_cst_0
  let main_v6 : IVec S4000000x2 1 := cmpf .olt main_v4 main_v5
  let main_c_1 : IVec S_ 1 := constantI S_ 1 1#1
  let main_v7 : IVec S_ 1 := (fun x v => Host.reduce IntOp.andi x v reducesTo_S4000000x2_S_d0_1 h_S_) main_v6 main_c_1
  let main_v8 : IVec S_ 1 := andi main_v3 main_v7
  let main_v9 : FVec F S8000000x1 .f32 := Host.absf main_arg3
  let main_cst_2 : FVec F S_ .f32 := constant S_ .f32 0x7F800000#32
  let main_v10 : FVec F S8000000x1 .f32 := broadcastInDim S8000000x1 ![] bcast_S_S8000000x1 main_cst_2
  let main_v11 : IVec S8000000x1 1 := cmpf .olt main_v9 main_v10
  let main_c_3 : IVec S_ 1 := constantI S_ 1 1#1
  let main_v12 : IVec S_ 1 := (fun x v => Host.reduce IntOp.andi x v reducesTo_S8000000x1_S_d0_1 h_S_) main_v11 main_c_3
  let main_v13 : IVec S_ 1 := andi main_v8 main_v12
  let main_v14 : FVec F S4000000x1 .f32 := Host.absf main_arg4
  let main_cst_4 : FVec F S_ .f32 := constant S_ .f32 0x7F800000#32
  let main_v15 : FVec F S4000000x1 .f32 := broadcastInDim S4000000x1 ![] bcast_S_S4000000x1 main_cst_4
  let main_v16 : IVec S4000000x1 1 := cmpf .olt main_v14 main_v15
  fn_part1 (F := F) main_arg2 main_v13 main_v16
-- ==== Kernel.lean ====
abbrev S4000000x2 : Shape := ⟨2, ![4000000, 2]⟩
abbrev S2x8000000 : Shape := ⟨2, ![2, 8000000]⟩
abbrev S8000000x1 : Shape := ⟨2, ![8000000, 1]⟩
abbrev S4000000x1 : Shape := ⟨2, ![4000000, 1]⟩
abbrev S4000000 : Shape := ⟨1, ![4000000]⟩
abbrev S8000000 : Shape := ⟨1, ![8000000]⟩
abbrev S1x8000000 : Shape := ⟨2, ![1, 8000000]⟩
abbrev S_ : Shape := ⟨0, ![]⟩
abbrev S1 : Shape := ⟨1, ![1]⟩
abbrev S1x1 : Shape := ⟨2, ![1, 1]⟩
abbrev S62500x128 : Shape := ⟨2, ![62500, 128]⟩
abbrev S8192x128 : Shape := ⟨2, ![8192, 128]⟩
abbrev S31250x128 : Shape := ⟨2, ![31250, 128]⟩
abbrev S4096x128 : Shape := ⟨2, ![4096, 128]⟩

abbrev nBuf : Space → Nat
  | .hbm => 142
  | .vmem => 40
  | .smem => 0
  | _ => 0

abbrev hbmTy0_0 (i : Nat) : BufTy := match i % 128 with
  | 0 => ⟨S4000000x2, .f32⟩
  | 1 => ⟨S4000000x2, .f32⟩
  | 2 => ⟨S2x8000000, .i32⟩
  | 3 => ⟨S8000000x1, .f32⟩
  | 4 => ⟨S4000000x1, .f32⟩
  | 5 => ⟨S4000000x1, .f32⟩
  | 6 => ⟨S4000000, .f32⟩
  | 7 => ⟨S4000000x1, .f32⟩
  | 8 => ⟨S4000000, .f32⟩
  | 9 => ⟨S8000000, .f32⟩
  | 10 => ⟨S4000000, .f32⟩
  | 11 => ⟨S1x8000000, .i32⟩
  | 12 => ⟨S8000000, .i32⟩
  | 13 => ⟨S1x8000000, .i32⟩
  | 14 => ⟨S8000000, .i32⟩
  | 15 => ⟨S_, .f32⟩
  | 16 => ⟨S8000000, .f32⟩
  | 17 => ⟨S_, .f32⟩
  | 18 => ⟨S4000000, .f32⟩
  | 19 => ⟨S8000000x1, .i32⟩
  | 20 => ⟨S4000000, .f32⟩
  | 21 => ⟨S_, .i32⟩
  | 22 => ⟨S8000000, .i32⟩
  | 23 => ⟨S8000000, .i1⟩
  | 24 => ⟨S_, .i32⟩
  | 25 => ⟨S8000000, .i32⟩
  | 26 => ⟨S8000000, .i32⟩
  | 27 => ⟨S8000000, .i32⟩
  | 28 => ⟨S8000000x1, .i32⟩
  | 29 => ⟨S1, .i32⟩
  | 30 => ⟨S_, .i32⟩
  | 31 => ⟨S8000000x1, .i32⟩
  | 32 => ⟨S8000000x1, .i1⟩
  | 33 => ⟨S1x1, .i32⟩
  | 34 => ⟨S8000000x1, .i32⟩
  | 35 => ⟨S8000000x1, .i1⟩
  | 36 => ⟨S8000000x1, .i1⟩
  | 37 => ⟨S_, .i1⟩
  | 38 => ⟨S8000000, .i1⟩
  | 39 => ⟨S8000000, .f32⟩
  | 40 => ⟨S_, .f32⟩
  | 41 => ⟨S8000000, .f32⟩
  | 42 => ⟨S8000000, .f32⟩
  | 43 => ⟨S_, .i32⟩
  | 44 => ⟨S8000000, .i32⟩
  | 45 => ⟨S8000000, .i1⟩
  | 46 => ⟨S_, .i32⟩
  | 47 => ⟨S8000000, .i32⟩
  | 48 => ⟨S8000000, .i32⟩
  | 49 => ⟨S8000000, .i32⟩
  | 50 => ⟨S8000000x1, .i32⟩
  | 51 => ⟨S1, .i32⟩
  | 52 => ⟨S_, .i32⟩
  | 53 => ⟨S8000000x1, .i32⟩
  | 54 => ⟨S8000000x1, .i1⟩
  | 55 => ⟨S1x1, .i32⟩
  | 56 => ⟨S8000000x1, .i32⟩
  | 57 => ⟨S8000000x1, .i1⟩
  | 58 => ⟨S8000000x1, .i1⟩
  | 59 => ⟨S_, .i1⟩
  | 60 => ⟨S8000000, .i1⟩
  | 61 => ⟨S8000000, .f32⟩
  | 62 => ⟨S_, .f32⟩
  | 63 => ⟨S8000000, .f32⟩
  | 64 => ⟨S8000000, .f32⟩
  | 65 => ⟨S62500x128, .f32⟩
  | 66 => ⟨S62500x128, .f32⟩
  | 67 => ⟨S62500x128, .f32⟩
  | 68 => ⟨S62500x128, .f32⟩
  | 69 => ⟨S8000000, .f32⟩
  | 70 => ⟨S_, .f32⟩
  | 71 => ⟨S4000000, .f32⟩
  | 72 => ⟨S8000000x1, .i32⟩
  | 73 => ⟨S4000000, .f32⟩
  | 74 => ⟨S31250x128, .f32⟩
  | 75 => ⟨S31250x128, .f32⟩
  | 76 => ⟨S31250x128, .f32⟩
  | 77 => ⟨S4000000, .f32⟩
  | 78 => ⟨S_, .i32⟩
  | 79 => ⟨S8000000, .i32⟩
  | 80 => ⟨S8000000, .i1⟩
  | 81 => ⟨S_, .i32⟩
  | 82 => ⟨S8000000, .i32⟩
  | 83 => ⟨S8000000, .i32⟩
  | 84 => ⟨S8000000, .i32⟩
  | 85 => ⟨S8000000x1, .i32⟩
  | 86 => ⟨S1, .i32⟩
  | 87 => ⟨S_, .i32⟩
  | 88 => ⟨S8000000x1, .i32⟩
  | 89 => ⟨S8000000x1, .i1⟩
  | 90 => ⟨S1x1, .i32⟩
  | 91 => ⟨S8000000x1, .i32⟩
  | 92 => ⟨S8000000x1, .i1⟩
  | 93 => ⟨S8000000x1, .i1⟩
  | 94 => ⟨S_, .i1⟩
  | 95 => ⟨S8000000, .i1⟩
  | 96 => ⟨S8000000, .f32⟩
  | 97 => ⟨S_, .f32⟩
  | 98 => ⟨S8000000, .f32⟩
  | 99 => ⟨S8000000, .f32⟩
  | 100 => ⟨S_, .i32⟩
  | 101 => ⟨S8000000, .i32⟩
  | 102 => ⟨S8000000, .i1⟩
  | 103 => ⟨S_, .i32⟩
  | 104 => ⟨S8000000, .i32⟩
  | 105 => ⟨S8000000, .i32⟩
  | 106 => ⟨S8000000, .i32⟩
  | 107 => ⟨S8000000x1, .i32⟩
  | 108 => ⟨S1, .i32⟩
  | 109 => ⟨S_, .i32⟩
  | 110 => ⟨S8000000x1, .i32⟩
  | 111 => ⟨S8000000x1, .i1⟩
  | 112 => ⟨S1x1, .i32⟩
  | 113 => ⟨S8000000x1, .i32⟩
  | 114 => ⟨S8000000x1, .i1⟩
  | 115 => ⟨S8000000x1, .i1⟩
  | 116 => ⟨S_, .i1⟩
  | 117 => ⟨S8000000, .i1⟩
  | 118 => ⟨S8000000, .f32⟩
  | 119 => ⟨S_, .f32⟩
  | 120 => ⟨S8000000, .f32⟩
  | 121 => ⟨S8000000, .f32⟩
  | 122 => ⟨S62500x128, .f32⟩
  | 123 => ⟨S62500x128, .f32⟩
  | 124 => ⟨S62500x128, .f32⟩
  | 125 => ⟨S62500x128, .f32⟩
  | 126 => ⟨S8000000, .f32⟩
  | 127 => ⟨S_, .f32⟩
  | _ => ⟨S4000000x2, .f32⟩

abbrev hbmTy0_1 (i : Nat) : BufTy := match i % 128 with
  | 0 => ⟨S4000000, .f32⟩
  | 1 => ⟨S8000000x1, .i32⟩
  | 2 => ⟨S4000000, .f32⟩
  | 3 => ⟨S31250x128, .f32⟩
  | 4 => ⟨S31250x128, .f32⟩
  | 5 => ⟨S31250x128, .f32⟩
  | 6 => ⟨S4000000, .f32⟩
  | 7 => ⟨S31250x128, .f32⟩
  | 8 => ⟨S31250x128, .f32⟩
  | 9 => ⟨S31250x128, .f32⟩
  | 10 => ⟨S31250x128, .f32⟩
  | 11 => ⟨S31250x128, .f32⟩
  | 12 => ⟨S31250x128, .f32⟩
  | 13 => ⟨S4000000, .f32⟩
  | _ => ⟨S4000000x2, .f32⟩

abbrev hbmTy (i : Nat) : BufTy := match i / 128 with
  | 0 => hbmTy0_0 i
  | 1 => hbmTy0_1 i
  | _ => ⟨S4000000x2, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S4096x128, .f32⟩
  | .local _ .vmem, ⟨34, _⟩ => ⟨S4096x128, .f32⟩
  | .local _ .vmem, ⟨35, _⟩ => ⟨S4096x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | _, _ => ⟨S4000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v14 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v28 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_cst : Ref sig .tc := ⟨.hbm, 119, rfl⟩
abbrev main_call3_v14 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_cst_2 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4096x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S4000000x2_S4000000x1_0_0 : S4000000x2.Slices ![0, 0] S4000000x1
  shapeCasts_S4000000x1_S4000000 : S4000000x1.ShapeCasts S4000000
  shapeCasts_S8000000x1_S8000000 : S8000000x1.ShapeCasts S8000000
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S4000000 : S_.BroadcastsInDim S4000000 (![] : Fin 0 → Fin S4000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  shapeCasts_S8000000_S62500x128 : S8000000.ShapeCasts S62500x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S62500x128_S8000000 : S62500x128.ShapeCasts S8000000
  shapeCasts_S4000000_S31250x128 : S4000000.ShapeCasts S31250x128
  shapeCasts_S31250x128_S4000000 : S31250x128.ShapeCasts S4000000
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  scatter_S4000000_S8000000x1_S8000000_n_0_0_1_wf : ScatterDims.WF S4000000 S8000000x1 S8000000 [] [0] [0] 1
  gather_S4000000_S8000000x1_S8000000_n_0_n_n_0_1_1_wf : GatherDims.WF S4000000 S8000000x1 S8000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S62500x128.size a
  hwx0_0 : ∀ i : grid0.Coords, EltTy.bits .f32 = 32 ∨ (Rect.unit (s := S62500x128) (fun a => cc0_transform_0 i a * S8192x128.size a) (fun a => (Pipeline.Clip.of (cc0_transform_0 i a) (S8192x128.size a) (S62500x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S62500x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S62500x128.size a
  hwx0_1 : ∀ i : grid0.Coords, EltTy.bits .f32 = 32 ∨ (Rect.unit (s := S62500x128) (fun a => cc0_transform_1 i a * S8192x128.size a) (fun a => (Pipeline.Clip.of (cc0_transform_1 i a) (S8192x128.size a) (S62500x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S62500x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S62500x128.size a
  hwx0_2 : ∀ i : grid0.Coords, EltTy.bits .f32 = 32 ∨ (Rect.unit (s := S62500x128) (fun a => cc0_transform_2 i a * S8192x128.size a) (fun a => (Pipeline.Clip.of (cc0_transform_2 i a) (S8192x128.size a) (S62500x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S62500x128.size a)).extent (S8192x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x128.size a < S62500x128.size a
  hwx0_3 : ∀ i : grid0.Coords, EltTy.bits .f32 = 32 ∨ (Rect.unit (s := S62500x128) (fun a => cc0_transform_3 i a * S8192x128.size a) (fun a => (Pipeline.Clip.of (cc0_transform_3 i a) (S8192x128.size a) (S62500x128.size a)).extent (S8192x128.size a)) fun a => Pipeline.Clip.inb (Pipeline.Clip.ok_of (hstart0_3 i a))).WholeWords (EltTy.packing .f32)
  hwxs0_3 : ∀ i : grid0.Coords, EltTy.bits .f32 = 32 ∨ (Rect.unit (s := S8192x128) (fun _ => 0) (fun a => (Pipeline.Clip.of (cc0_transform_3 i a) (S8192x128.size a) (S62500x128.size a)).extent (S8192x128.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x128.size a < S31250x128.size a
  hwx1_0 : ∀ i : grid1.Coords, EltTy.bits .f32 = 32 ∨ (Rect.unit (s := S31250x128) (fun a => cc1_transform_0 i a * S8192x128.size a) (fun a => (Pipeline.Clip.of (cc1_transform_0 i a) (S8192x128.size a) (S31250x128.size a)).extent (S8192x128.size a)) fun a => Pipeline.Clip.inb (Pipeline.Clip.ok_of (hstart1_0 i a))).WholeWords (EltTy.packing .f32)
  hwxs1_0 : ∀ i : grid1.Coords, EltTy.bits .f32 = 32 ∨ (Rect.unit (s := S8192x128) (fun _ => 0) (fun a => (Pipeline.Clip.of (cc1_transform_0 i a) (S8192x128.size a) (S31250x128.size a)).extent (S8192x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x128.size a < S31250x128.size a
  hwx1_1 : ∀ i : grid1.Coords, EltTy.bits .f32 = 32 ∨ (Rect.unit (s := S31250x128) (fun a => cc1_transform_1 i a * S8192x128.size a) (fun a => (Pipeline.Clip.of (cc1_transform_1 i a) (S8192x128.size a) (S31250x128.size a)).extent (S8192x128.size a)) fun a => Pipeline.Clip.inb (Pipeline.Clip.ok_of (hstart1_1 i a))).WholeWords (EltTy.packing .f32)
  hwxs1_1 : ∀ i : grid1.Coords, EltTy.bits .f32 = 32 ∨ (Rect.unit (s := S8192x128) (fun _ => 0) (fun a => (Pipeline.Clip.of (cc1_transform_1 i a) (S8192x128.size a) (S31250x128.size a)).extent (S8192x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x128.size a < S31250x128.size a
  hwx1_2 : ∀ i : grid1.Coords, EltTy.bits .f32 = 32 ∨ (Rect.unit (s := S31250x128) (fun a => cc1_transform_2 i a * S8192x128.size a) (fun a => (Pipeline.Clip.of (cc1_transform_2 i a) (S8192x128.size a) (S31250x128.size a)).extent (S8192x128.size a)) fun a => Pipeline.Clip.inb (Pipeline.Clip.ok_of (hstart1_2 i a))).WholeWords (EltTy.packing .f32)
  hwxs1_2 : ∀ i : grid1.Coords, EltTy.bits .f32 = 32 ∨ (Rect.unit (s := S8192x128) (fun _ => 0) (fun a => (Pipeline.Clip.of (cc1_transform_2 i a) (S8192x128.size a) (S31250x128.size a)).extent (S8192x128.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x128.size a < S62500x128.size a
  hwx2_0 : ∀ i : grid2.Coords, EltTy.bits .f32 = 32 ∨ (Rect.unit (s := S62500x128) (fun a => cc2_transform_0 i a * S8192x128.size a) (fun a => (Pipeline.Clip.of (cc2_transform_0 i a) (S8192x128.size a) (S62500x128.size a)).extent (S8192x128.size a)) fun a => Pipeline.Clip.inb (Pipeline.Clip.ok_of (hstart2_0 i a))).WholeWords (EltTy.packing .f32)
  hwxs2_0 : ∀ i : grid2.Coords, EltTy.bits .f32 = 32 ∨ (Rect.unit (s := S8192x128) (fun _ => 0) (fun a => (Pipeline.Clip.of (cc2_transform_0 i a) (S8192x128.size a) (S62500x128.size a)).extent (S8192x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x128.size a < S62500x128.size a
  hwx2_1 : ∀ i : grid2.Coords, EltTy.bits .f32 = 32 ∨ (Rect.unit (s := S62500x128) (fun a => cc2_transform_1 i a * S8192x128.size a) (fun a => (Pipeline.Clip.of (cc2_transform_1 i a) (S8192x128.size a) (S62500x128.size a)).extent (S8192x128.size a)) fun a => Pipeline.Clip.inb (Pipeline.Clip.ok_of (hstart2_1 i a))).WholeWords (EltTy.packing .f32)
  hwxs2_1 : ∀ i : grid2.Coords, EltTy.bits .f32 = 32 ∨ (Rect.unit (s := S8192x128) (fun _ => 0) (fun a => (Pipeline.Clip.of (cc2_transform_1 i a) (S8192x128.size a) (S62500x128.size a)).extent (S8192x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S8192x128.size a < S62500x128.size a
  hwx2_2 : ∀ i : grid2.Coords, EltTy.bits .f32 = 32 ∨ (Rect.unit (s := S62500x128) (fun a => cc2_transform_2 i a * S8192x128.size a) (fun a => (Pipeline.Clip.of (cc2_transform_2 i a) (S8192x128.size a) (S62500x128.size a)).extent (S8192x128.size a)) fun a => Pipeline.Clip.inb (Pipeline.Clip.ok_of (hstart2_2 i a))).WholeWords (EltTy.packing .f32)
  hwxs2_2 : ∀ i : grid2.Coords, EltTy.bits .f32 = 32 ∨ (Rect.unit (s := S8192x128) (fun _ => 0) (fun a => (Pipeline.Clip.of (cc2_transform_2 i a) (S8192x128.size a) (S62500x128.size a)).extent (S8192x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S8192x128.size a < S62500x128.size a
  hwx2_3 : ∀ i : grid2.Coords, EltTy.bits .f32 = 32 ∨ (Rect.unit (s := S62500x128) (fun a => cc2_transform_3 i a * S8192x128.size a) (fun a => (Pipeline.Clip.of (cc2_transform_3 i a) (S8192x128.size a) (S62500x128.size a)).extent (S8192x128.size a)) fun a => Pipeline.Clip.inb (Pipeline.Clip.ok_of (hstart2_3 i a))).WholeWords (EltTy.packing .f32)
  hwxs2_3 : ∀ i : grid2.Coords, EltTy.bits .f32 = 32 ∨ (Rect.unit (s := S8192x128) (fun _ => 0) (fun a => (Pipeline.Clip.of (cc2_transform_3 i a) (S8192x128.size a) (S62500x128.size a)).extent (S8192x128.size a)) fun a => (Nat.zero_add _).trans_le (Pipeline.Clip.extent_le (Pipeline.Clip.ok_of (hstart2_3 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8192x128.size a < S31250x128.size a
  hwx3_0 : ∀ i : grid3.Coords, EltTy.bits .f32 = 32 ∨ (Rect.unit (s := S31250x128) (fun a => cc3_transform_0 i a * S8192x128.size a) (fun a => (Pipeline.Clip.of (cc3_transform_0 i a) (S8192x128.size a) (S31250x128.size a)).extent (S8192x128.size a)) fun a => Pipeline.Clip.inb (Pipeline.Clip.ok_of (hstart3_0 i a))).WholeWords (EltTy.packing .f32)
  hwxs3_0 : ∀ i : grid3.Coords, EltTy.bits .f32 = 32 ∨ (Rect.unit (s := S8192x128) (fun _ => 0) (fun a => (Pipeline.Clip.of (cc3_transform_0 i a) (S8192x128.size a) (S31250x128.size a)).extent (S8192x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S8192x128.size a < S31250x128.size a
  hwx3_1 : ∀ i : grid3.Coords, EltTy.bits .f32 = 32 ∨ (Rect.unit (s := S31250x128) (fun a => cc3_transform_1 i a * S8192x128.size a) (fun a => (Pipeline.Clip.of (cc3_transform_1 i a) (S8192x128.size a) (S31250x128.size a)).extent (S8192x128.size a)) fun a => Pipeline.Clip.inb (Pipeline.Clip.ok_of (hstart3_1 i a))).WholeWords (EltTy.packing .f32)
  hwxs3_1 : ∀ i : grid3.Coords, EltTy.bits .f32 = 32 ∨ (Rect.unit (s := S8192x128) (fun _ => 0) (fun a => (Pipeline.Clip.of (cc3_transform_1 i a) (S8192x128.size a) (S31250x128.size a)).extent (S8192x128.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S8192x128.size a < S31250x128.size a
  hwx3_2 : ∀ i : grid3.Coords, EltTy.bits .f32 = 32 ∨ (Rect.unit (s := S31250x128) (fun a => cc3_transform_2 i a * S8192x128.size a) (fun a => (Pipeline.Clip.of (cc3_transform_2 i a) (S8192x128.size a) (S31250x128.size a)).extent (S8192x128.size a)) fun a => Pipeline.Clip.inb (Pipeline.Clip.ok_of (hstart3_2 i a))).WholeWords (EltTy.packing .f32)
  hwxs3_2 : ∀ i : grid3.Coords, EltTy.bits .f32 = 32 ∨ (Rect.unit (s := S8192x128) (fun _ => 0) (fun a => (Pipeline.Clip.of (cc3_transform_2 i a) (S8192x128.size a) (S31250x128.size a)).extent (S8192x128.size a)) fun a => (Nat.zero_add _).trans_le (Pipeline.Clip.extent_le (Pipeline.Clip.ok_of (hstart3_2 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S4096x128.size a < S31250x128.size a
  hwx4_0 : ∀ i : grid4.Coords, EltTy.bits .f32 = 32 ∨ (Rect.unit (s := S31250x128) (fun a => cc4_transform_0 i a * S4096x128.size a) (fun a => (Pipeline.Clip.of (cc4_transform_0 i a) (S4096x128.size a) (S31250x128.size a)).extent (S4096x128.size a)) fun a => Pipeline.Clip.inb (Pipeline.Clip.ok_of (hstart4_0 i a))).WholeWords (EltTy.packing .f32)
  hwxs4_0 : ∀ i : grid4.Coords, EltTy.bits .f32 = 32 ∨ (Rect.unit (s := S4096x128) (fun _ => 0) (fun a => (Pipeline.Clip.of (cc4_transform_0 i a) (S4096x128.size a) (S31250x128.size a)).extent (S4096x128.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S4096x128.size a < S31250x128.size a
  hwx4_1 : ∀ i : grid4.Coords, EltTy.bits .f32 = 32 ∨ (Rect.unit (s := S31250x128) (fun a => cc4_transform_1 i a * S4096x128.size a) (fun a => (Pipeline.Clip.of (cc4_transform_1 i a) (S4096x128.size a) (S31250x128.size a)).extent (S4096x128.size a)) fun a => Pipeline.Clip.inb (Pipeline.Clip.ok_of (hstart4_1 i a))).WholeWords (EltTy.packing .f32)
  hwxs4_1 : ∀ i : grid4.Coords, EltTy.bits .f32 = 32 ∨ (Rect.unit (s := S4096x128) (fun _ => 0) (fun a => (Pipeline.Clip.of (cc4_transform_1 i a) (S4096x128.size a) (S31250x128.size a)).extent (S4096x128.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S4096x128.size a < S31250x128.size a
  hwx4_2 : ∀ i : grid4.Coords, EltTy.bits .f32 = 32 ∨ (Rect.unit (s := S31250x128) (fun a => cc4_transform_2 i a * S4096x128.size a) (fun a => (Pipeline.Clip.of (cc4_transform_2 i a) (S4096x128.size a) (S31250x128.size a)).extent (S4096x128.size a)) fun a => Pipeline.Clip.inb (Pipeline.Clip.ok_of (hstart4_2 i a))).WholeWords (EltTy.packing .f32)
  hwxs4_2 : ∀ i : grid4.Coords, EltTy.bits .f32 = 32 ∨ (Rect.unit (s := S4096x128) (fun _ => 0) (fun a => (Pipeline.Clip.of (cc4_transform_2 i a) (S4096x128.size a) (S31250x128.size a)).extent (S4096x128.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S4096x128.size a < S31250x128.size a
  hwx4_3 : ∀ i : grid4.Coords, EltTy.bits .f32 = 32 ∨ (Rect.unit (s := S31250x128) (fun a => cc4_transform_3 i a * S4096x128.size a) (fun a => (Pipeline.Clip.of (cc4_transform_3 i a) (S4096x128.size a) (S31250x128.size a)).extent (S4096x128.size a)) fun a => Pipeline.Clip.inb (Pipeline.Clip.ok_of (hstart4_3 i a))).WholeWords (EltTy.packing .f32)
  hwxs4_3 : ∀ i : grid4.Coords, EltTy.bits .f32 = 32 ∨ (Rect.unit (s := S4096x128) (fun _ => 0) (fun a => (Pipeline.Clip.of (cc4_transform_3 i a) (S4096x128.size a) (S31250x128.size a)).extent (S4096x128.size a)) fun a => (Nat.zero_add _).trans_le (Pipeline.Clip.extent_le (Pipeline.Clip.ok_of (hstart4_3 i a)))).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hstart4_4 : ∀ (i : grid4.Coords) a, cc4_transform_4 i a * S4096x128.size a < S31250x128.size a
  hwx4_4 : ∀ i : grid4.Coords, EltTy.bits .f32 = 32 ∨ (Rect.unit (s := S31250x128) (fun a => cc4_transform_4 i a * S4096x128.size a) (fun a => (Pipeline.Clip.of (cc4_transform_4 i a) (S4096x128.size a) (S31250x128.size a)).extent (S4096x128.size a)) fun a => Pipeline.Clip.inb (Pipeline.Clip.ok_of (hstart4_4 i a))).WholeWords (EltTy.packing .f32)
  hwxs4_4 : ∀ i : grid4.Coords, EltTy.bits .f32 = 32 ∨ (Rect.unit (s := S4096x128) (fun _ => 0) (fun a => (Pipeline.Clip.of (cc4_transform_4 i a) (S4096x128.size a) (S31250x128.size a)).extent (S4096x128.size a)) fun a => (Nat.zero_add _).trans_le (Pipeline.Clip.extent_le (Pipeline.Clip.ok_of (hstart4_4 i a)))).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hstart4_5 : ∀ (i : grid4.Coords) a, cc4_transform_5 i a * S4096x128.size a < S31250x128.size a
  hwx4_5 : ∀ i : grid4.Coords, EltTy.bits .f32 = 32 ∨ (Rect.unit (s := S31250x128) (fun a => cc4_transform_5 i a * S4096x128.size a) (fun a => (Pipeline.Clip.of (cc4_transform_5 i a) (S4096x128.size a) (S31250x128.size a)).extent (S4096x128.size a)) fun a => Pipeline.Clip.inb (Pipeline.Clip.ok_of (hstart4_5 i a))).WholeWords (EltTy.packing .f32)
  hwxs4_5 : ∀ i : grid4.Coords, EltTy.bits .f32 = 32 ∨ (Rect.unit (s := S4096x128) (fun _ => 0) (fun a => (Pipeline.Clip.of (cc4_transform_5 i a) (S4096x128.size a) (S31250x128.size a)).extent (S4096x128.size a)) fun a => (Nat.zero_add _).trans_le (Pipeline.Clip.extent_le (Pipeline.Clip.ok_of (hstart4_5 i a)))).WholeWords (EltTy.packing .f32)

variable [Facts₀]

def scatter_S4000000_S8000000x1_S8000000_n_0_0_1 : ScatterDims S4000000 S8000000x1 S8000000 where
  updateWindowDims := []
  insertedWindowDims := [0]
  scatterDimsToOperandDims := [0]
  indexVectorDim := 1
  wf := scatter_S4000000_S8000000x1_S8000000_n_0_0_1_wf
def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf

abbrev win0_0 : Pipeline.Window sig grid0 :=
  Pipeline.Window.ofSpecClip (Memref.whole main_v16) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v17) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v18) S8192x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v19) S8192x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v24) S8192x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v25) S8192x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v26) S8192x128.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v30) S8192x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v31) S8192x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v32) S8192x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v33) S8192x128.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpecClip (Memref.whole main_v38) S8192x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v39) S8192x128.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v40) S8192x128.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpecClip (Memref.whole main_v42) S4096x128.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v43) S4096x128.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v44) S4096x128.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpecClip (Memref.whole main_v45) S4096x128.size cc4_transform_3 reads4_3 false false 2 stage4_3 sem4_3
    hrank4 hreads4_3 hstart4_3 nbuf4_3 (Memref.isWhole_whole _) hwx4_3 hwxs4_3 hstage4_3

abbrev win4_4 : Pipeline.Window sig grid4 :=
  Pipeline.Window.ofSpecClip (Memref.whole main_v46) S4096x128.size cc4_transform_4 reads4_4 false false 2 stage4_4 sem4_4
    hrank4 hreads4_4 hstart4_4 nbuf4_4 (Memref.isWhole_whole _) hwx4_4 hwxs4_4 hstage4_4

abbrev win4_5 : Pipeline.Window sig grid4 :=
  Pipeline.Window.ofSpecClip (Memref.whole main_v47) S4096x128.size cc4_transform_5 reads4_5 true false 2 stage4_5 sem4_5
    hrank4 hreads4_5 hstart4_5 nbuf4_5 (Memref.isWhole_whole _) hwx4_5 hwxs4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S4000000x2 : Shape := ⟨2, ![4000000, 2]⟩
abbrev S2x8000000 : Shape := ⟨2, ![2, 8000000]⟩
abbrev S8000000x1 : Shape := ⟨2, ![8000000, 1]⟩
abbrev S4000000x1 : Shape := ⟨2, ![4000000, 1]⟩
abbrev S8000000 : Shape := ⟨1, ![8000000]⟩
abbrev S4000000 : Shape := ⟨1, ![4000000]⟩
abbrev S_ : Shape := ⟨0, ![]⟩
abbrev S1x8000000 : Shape := ⟨2, ![1, 8000000]⟩

abbrev nBuf : Space → Nat
  | .hbm => 98
  | .vmem => 0
  | .smem => 0
  | _ => 0

abbrev bufTy : (tb : Table) → Fin (tcTables nBuf tb) → BufTy
  | .hbm, ⟨0, _⟩ => ⟨S4000000x2, .f32⟩
  | .hbm, ⟨1, _⟩ => ⟨S4000000x2, .f32⟩
  | .hbm, ⟨2, _⟩ => ⟨S2x8000000, .i32⟩
  | .hbm, ⟨3, _⟩ => ⟨S8000000x1, .f32⟩
  | .hbm, ⟨4, _⟩ => ⟨S4000000x1, .f32⟩
  | .hbm, ⟨5, _⟩ => ⟨S8000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S4000000, .f32⟩
  | .hbm, ⟨11, _⟩ => ⟨S_, .f32⟩
  | .hbm, ⟨12, _⟩ => ⟨S4000000, .f32⟩
  | .hbm, ⟨13, _⟩ => ⟨S4000000, .f32⟩
  | .hbm, ⟨14, _⟩ => ⟨S1x8000000, .i32⟩
  | .hbm, ⟨15, _⟩ => ⟨S8000000, .i32⟩
  | .hbm, ⟨16, _⟩ => ⟨S1x8000000, .i32⟩
  | .hbm, ⟨17, _⟩ => ⟨S8000000, .i32⟩
  | .hbm, ⟨18, _⟩ => ⟨S_, .i32⟩
  | .hbm, ⟨19, _⟩ => ⟨S8000000, .i32⟩
  | .hbm, ⟨20, _⟩ => ⟨S8000000, .i1⟩
  | .hbm, ⟨21, _⟩ => ⟨S_, .i32⟩
  | .hbm, ⟨22, _⟩ => ⟨S8000000, .i32⟩
  | .hbm, ⟨23, _⟩ => ⟨S8000000, .i32⟩
  | .hbm, ⟨24, _⟩ => ⟨S8000000, .i32⟩
  | .hbm, ⟨25, _⟩ => ⟨S8000000x1, .i32⟩
  | .hbm, ⟨26, _⟩ => ⟨S8000000, .f32⟩
  | .hbm, ⟨27, _⟩ => ⟨S_, .i32⟩
  | .hbm, ⟨28, _⟩ => ⟨S8000000, .i32⟩
  | .hbm, ⟨29, _⟩ => ⟨S8000000, .i1⟩
  | .hbm, ⟨30, _⟩ => ⟨S_, .i32⟩
  | .hbm, ⟨31, _⟩ => ⟨S8000000, .i32⟩
  | .hbm, ⟨32, _⟩ => ⟨S8000000, .i32⟩
  | .hbm, ⟨33, _⟩ => ⟨S8000000, .i32⟩
  | .hbm, ⟨34, _⟩ => ⟨S8000000x1, .i32⟩
  | .hbm, ⟨35, _⟩ => ⟨S8000000, .f32⟩
  | .hbm, ⟨36, _⟩ => ⟨S8000000, .f32⟩
  | .hbm, ⟨37, _⟩ => ⟨S8000000, .f32⟩
  | .hbm, ⟨38, _⟩ => ⟨S_, .f32⟩
  | .hbm, ⟨39, _⟩ => ⟨S4000000, .f32⟩
  | .hbm, ⟨40, _⟩ => ⟨S8000000x1, .i32⟩
  | .hbm, ⟨41, _⟩ => ⟨S4000000, .f32⟩
  | .hbm, ⟨42, _⟩ => ⟨S_, .f32⟩
  | .hbm, ⟨43, _⟩ => ⟨S8000000, .f32⟩
  | .hbm, ⟨44, _⟩ => ⟨S_, .f32⟩
  | .hbm, ⟨45, _⟩ => ⟨S4000000, .f32⟩
  | .hbm, ⟨46, _⟩ => ⟨S8000000x1, .i32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S1x8000000, .i32⟩
  | .hbm, ⟨53, _⟩ => ⟨S8000000, .i32⟩
  | .hbm, ⟨54, _⟩ => ⟨S1x8000000, .i32⟩
  | .hbm, ⟨55, _⟩ => ⟨S8000000, .i32⟩
  | .hbm, ⟨56, _⟩ => ⟨S_, .i32⟩
  | .hbm, ⟨57, _⟩ => ⟨S8000000, .i32⟩
  | .hbm, ⟨58, _⟩ => ⟨S8000000, .i1⟩
  | .hbm, ⟨59, _⟩ => ⟨S_, .i32⟩
  | .hbm, ⟨60, _⟩ => ⟨S8000000, .i32⟩
  | .hbm, ⟨61, _⟩ => ⟨S8000000, .i32⟩
  | .hbm, ⟨62, _⟩ => ⟨S8000000, .i32⟩
  | .hbm, ⟨63, _⟩ => ⟨S8000000x1, .i32⟩
  | .hbm, ⟨64, _⟩ => ⟨S8000000, .f32⟩
  | .hbm, ⟨65, _⟩ => ⟨S_, .i32⟩
  | .hbm, ⟨66, _⟩ => ⟨S8000000, .i32⟩
  | .hbm, ⟨67, _⟩ => ⟨S8000000, .i1⟩
  | .hbm, ⟨68, _⟩ => ⟨S_, .i32⟩
  | .hbm, ⟨69, _⟩ => ⟨S8000000, .i32⟩
  | .hbm, ⟨70, _⟩ => ⟨S8000000, .i32⟩
  | .hbm, ⟨71, _⟩ => ⟨S8000000, .i32⟩
  | .hbm, ⟨72, _⟩ => ⟨S8000000x1, .i32⟩
  | .hbm, ⟨73, _⟩ => ⟨S8000000, .f32⟩
  | .hbm, ⟨74, _⟩ => ⟨S8000000, .f32⟩
  | .hbm, ⟨75, _⟩ => ⟨S8000000, .f32⟩
  | .hbm, ⟨76, _⟩ => ⟨S_, .f32⟩
  | .hbm, ⟨77, _⟩ => ⟨S4000000, .f32⟩
  | .hbm, ⟨78, _⟩ => ⟨S8000000x1, .i32⟩
  | .hbm, ⟨79, _⟩ => ⟨S4000000, .f32⟩
  | .hbm, ⟨80, _⟩ => ⟨S_, .f32⟩
  | .hbm, ⟨81, _⟩ => ⟨S8000000, .f32⟩
  | .hbm, ⟨82, _⟩ => ⟨S_, .f32⟩
  | .hbm, ⟨83, _⟩ => ⟨S4000000, .f32⟩
  | .hbm, ⟨84, _⟩ => ⟨S8000000x1, .i32⟩
  | .hbm, ⟨85, _⟩ => ⟨S4000000, .f32⟩
  | .hbm, ⟨86, _⟩ => ⟨S_, .f32⟩
  | .hbm, ⟨87, _⟩ => ⟨S4000000, .f32⟩
  | .hbm, ⟨88, _⟩ => ⟨S4000000, .f32⟩
  | .hbm, ⟨89, _⟩ => ⟨S4000000, .f32⟩
  | .hbm, ⟨90, _⟩ => ⟨S4000000, .f32⟩
  | .hbm, ⟨91, _⟩ => ⟨S4000000, .f32⟩
  | .hbm, ⟨92, _⟩ => ⟨S_, .f32⟩
  | .hbm, ⟨93, _⟩ => ⟨S4000000, .f32⟩
  | .hbm, ⟨94, _⟩ => ⟨S4000000, .f32⟩
  | .hbm, ⟨95, _⟩ => ⟨S4000000, .f32⟩
  | .hbm, ⟨96, _⟩ => ⟨S4000000, .f32⟩
  | .hbm, ⟨97, _⟩ => ⟨S4000000, .f32⟩
  | _, _ => ⟨S4000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]

class Facts₀ : Prop where
  shapeCasts_S8000000x1_S8000000 : S8000000x1.ShapeCasts S8000000
  slices_S4000000x2_S4000000x1_0_0 : S4000000x2.Slices ![0, 0] S4000000x1
  shapeCasts_S4000000x1_S4000000 : S4000000x1.ShapeCasts S4000000
  bcast_S_S4000000 : S_.BroadcastsInDim S4000000 (![] : Fin 0 → Fin S4000000.rank)
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  gather_S4000000_S8000000x1_S8000000_n_0_n_n_0_1_1_wf : GatherDims.WF S4000000 S8000000x1 S8000000 [] [0] [] [0] [] 1 ![1]
  scatter_S4000000_S8000000x1_S8000000_n_0_0_1_wf : ScatterDims.WF S4000000 S8000000x1 S8000000 [] [0] [0] 1

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def scatter_S4000000_S8000000x1_S8000000_n_0_0_1 : ScatterDims S4000000 S8000000x1 S8000000 where
  updateWindowDims := []
  insertedWindowDims := [0]
  scatterDimsToOperandDims := [0]
  indexVectorDim := 1
  wf := scatter_S4000000_S8000000x1_S8000000_n_0_0_1_wf

class Facts : Prop extends Facts₀ where

variable [Facts]
-- ==== Proof.K.Body0.lean ====
/-
  Region 0 of the kernel's @main: the edge differences (v[dst] − v[src]) / len over the edge arrays laid
  out in rows of 128, eight blocks of 8192 rows of which the last overhangs the array by 3036 rows. What each
  staging buffer holds after the body at each point, on the rows inside the array; and the body's obligation:
  the payload is computed entry by entry, so filled blocks in give the filled quotient out.
-/
import proofs.«402448_j34849364639903_1_alg».proof.Proof.Gen.Kernel.Launch
import proofs.«402448_j34849364639903_1_alg».proof.Proof.Gen.Kernel.Points
import proofs.«402448_j34849364639903_1_alg».proof.Proof.Gen.Kernel.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the edge differences, (dst − src) / len, block by block -/

/-- The body's one payload is pointwise. -/
theorem pay0_apply (x0 x1 x2 : Vec F S8192x128 .f32) :
    k0_pay1 x0 x1 x2 = fun j => FloatOps.divf (FloatOps.subf (x0 j) (x1 j)) (x2 j) := by
  unfold k0_pay1; simp only [shapeCast_self]; rfl

/-- Window w's block at point t: the part inside the array. -/
def blk0_0 (c : Dev nD) (t : Fin cfg0.N) : (win0_0.xblock (grid0.coords t)).Idx → Elt F .f32 :=
  (win0_0.blk t).view.read (Elt F) (V c (Pipeline.arrRef spec0 0))
def blk0_1 (c : Dev nD) (t : Fin cfg0.N) : (win0_0.xblock (grid0.coords t)).Idx → Elt F .f32 :=
  (win0_1.blk t).view.read (Elt F) (V c (Pipeline.arrRef spec0 1))
def blk0_2 (c : Dev nD) (t : Fin cfg0.N) : (win0_0.xblock (grid0.coords t)).Idx → Elt F .f32 :=
  (win0_2.blk t).view.read (Elt F) (V c (Pipeline.arrRef spec0 2))
/-- The quotient of the difference, entry by entry of the blocks. -/
def out0 (c : Dev nD) (t : Fin cfg0.N) : (win0_0.xblock (grid0.coords t)).Idx → Elt F .f32 :=
  fun j => FloatOps.divf (FloatOps.subf (blk0_0 V c t j) (blk0_1 V c t j)) (blk0_2 V c t j)

/-- The filler past the array's end: nothing reads it. -/
def zf0 : S8192x128.Idx → Elt F .f32 := fun _ => Scalar.ofBits .f32 0#32

def dat0 (c : Dev nD) : Dat τ (Elt F) Unit ℕ (UR sig nD τ) ℕ cfg0 c where
  A w := V c (Pipeline.arrRef spec0 w)
  after w t := match w with
    | ⟨0, _⟩ => win0_0.fill (grid0.coords t) zf0 (blk0_0 V c t)
    | ⟨1, _⟩ => win0_0.fill (grid0.coords t) zf0 (blk0_1 V c t)
    | ⟨2, _⟩ => win0_0.fill (grid0.coords t) zf0 (blk0_2 V c t)
    | ⟨3, _⟩ => win0_0.fill (grid0.coords t) zf0 (out0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) :
    (dat0 V c).before (0 : Fin 4) t d = win0_0.fill (grid0.coords t) d (blk0_0 V c t) := by
  unfold Dat.before; rw [if_pos (fetch0_0 t)]; rfl
theorem before0_1 (c : Dev nD) (t : Fin cfg0.N) (d) :
    (dat0 V c).before (1 : Fin 4) t d = win0_0.fill (grid0.coords t) d (blk0_1 V c t) := by
  unfold Dat.before; rw [if_pos (fetch0_1 t)]; rfl
theorem before0_2 (c : Dev nD) (t : Fin cfg0.N) (d) :
    (dat0 V c).before (2 : Fin 4) t d = win0_0.fill (grid0.coords t) d (blk0_2 V c t) := by
  unfold Dat.before; rw [if_pos (fetch0_2 t)]; rfl

set_option maxHeartbeats 1000000 in
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay0_fill (i : grid0.Coords) (d0 d1 d2 : S8192x128.Idx → Elt F .f32) (b0 b1 b2 : (win0_0.xblock i).Idx → Elt F .f32) :
    k0_pay1 (win0_0.fill i d0 b0) (win0_0.fill i d1 b1) (win0_0.fill i d2 b2)
      = win0_0.fill i (k0_pay1 d0 d1 d2) (fun j => FloatOps.divf (FloatOps.subf (b0 j) (b1 j)) (b2 j)) := by
  rw [pay0_apply, pay0_apply]; funext j; unfold Window.fill; split <;> rfl

theorem body_obligation0 (c : Dev nD) : BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2]
  iapply (sound_kernel0 (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (blk0_0 V c t)) (win0_0.fill (grid0.coords t) d1 (blk0_1 V c t))
    (win0_0.fill (grid0.coords t) d2 (blk0_2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [pay0_fill]
  isplitl [H0]
  · iexists d0
    change _ ⊢ owns (c : Thread nD τ) (st0_0 t) fullShare (win0_0.fill (grid0.coords t) d0 (win0_0.cut (grid0.coords t) (win0_0.fill (grid0.coords t) zf0 (blk0_0 V c t))))
    rw [Window.cut_fill]; try iexact H0
  isplitl [H1]
  · iexists d1
    change _ ⊢ owns (c : Thread nD τ) (st0_1 t) fullShare (win0_0.fill (grid0.coords t) d1 (win0_0.cut (grid0.coords t) (win0_0.fill (grid0.coords t) zf0 (blk0_1 V c t))))
    rw [Window.cut_fill]; try iexact H1
  isplitl [H2]
  · iexists d2
    change _ ⊢ owns (c : Thread nD τ) (st0_2 t) fullShare (win0_0.fill (grid0.coords t) d2 (win0_0.cut (grid0.coords t) (win0_0.fill (grid0.coords t) zf0 (blk0_2 V c t))))
    rw [Window.cut_fill]; try iexact H2
  · iexists k0_pay1 d0 d1 d2
    change _ ⊢ owns (c : Thread nD τ) (st0_3 t) fullShare (win0_0.fill (grid0.coords t) (k0_pay1 d0 d1 d2) (win0_0.cut (grid0.coords t) (win0_0.fill (grid0.coords t) zf0 (out0 V c t))))
    rw [Window.cut_fill]; exact BI.Entails.refl _

end Cert.Kernel.Reg
end
-- ==== Proof.K.Chain.lean ====
/-
  The contents of the kernel's unscoped buffers between the items of @main, in closed form:
  each host stretch applied in turn, and after each kernel region its one result array at the
  entrywise function of its operand arrays that the region computes — the quotient of a difference
  (regions 0 and 2), a quotient by a maximum with one (regions 1 and 3), and the weighted combination
  times the mask (region 4). No program logic here: only what the arrays hold.
-/
import proofs.«402448_j34849364639903_1_alg».proof.Proof.Gen.Kernel.Regions

noncomputable section

namespace Cert.Kernel.Reg

open Cert.Kernel Cert.Kernel.Gen
open Idealize.ShloMosaic Idealize.ShloMosaic.TcCoe

variable {F : FTy → Type} [FloatOps F]

/-- (a − b) / l, entry by entry, over the edge arrays laid out in rows of 128. -/
def ediffA (a b l : S62500x128.Idx → Elt F .f32) : S62500x128.Idx → Elt F .f32 :=
  fun i => FloatOps.divf (FloatOps.subf (a i) (b i)) (l i)

/-- s / max(n, 1), entry by entry, over the node arrays laid out in rows of 128. -/
def finA (s n : S31250x128.Idx → Elt F .f32) : S31250x128.Idx → Elt F .f32 :=
  fun i => FloatOps.divf (s i) (FloatOps.maximumf (n i) (Scalar.ofBits .f32 0x3F800000#32))

/-- ((u − u₁)·k + du·u₁ − 0.01·d2u)·mask, entry by entry, with k the body's scale constant. -/
def combA (k : F .f32) (u u1 du d2u mk : S31250x128.Idx → Elt F .f32) : S31250x128.Idx → Elt F .f32 :=
  fun i => FloatOps.mulf
    (FloatOps.subf (FloatOps.addf (FloatOps.mulf (FloatOps.subf (u i) (u1 i)) k) (FloatOps.mulf (du i) (u1 i)))
      (FloatOps.mulf (Scalar.ofBits .f32 0x3C23D70A#32) (d2u i)))
    (mk i)

variable (m : (ℓ : Loc nD τ sig) → Buf (Elt F) ℓ)

/-- The body's scale constant of region 4, as the program spells it. -/
def kdt : F .f32 := Scalar.ofBits .f32 0x42C80000#32

/-- Region 0's result array. -/
def o5 (c : Dev nD) : Buf (Elt F) ((c : Thread nD τ).loc main_v19) :=
  ediffA (V4 m c main_v16) (V4 m c main_v17) (V4 m c main_v18)
/-- The buffers after region 0, -/
def U5 (c : Dev nD) : Valuation τ sig (Elt F) := Function.update (V4 m c) main_v19 (o5 m c)
/-- after the scatter-add of the differences and the reshapes, -/
def U6 (c : Dev nD) : Valuation τ sig (Elt F) := StableHlo.after hostOps1 (U5 m c)
/-- region 1's result array, -/
def o7 (c : Dev nD) : Buf (Elt F) ((c : Thread nD τ).loc main_v26) := finA (U6 m c main_v24) (U6 m c main_v25)
def U7 (c : Dev nD) : Valuation τ sig (Elt F) := Function.update (U6 m c) main_v26 (o7 m c)
def U8 (c : Dev nD) : Valuation τ sig (Elt F) := StableHlo.after hostOps2 (U7 m c)
def U9 (c : Dev nD) : Valuation τ sig (Elt F) := StableHlo.after hostOps2_1 (U8 m c)
def U10 (c : Dev nD) : Valuation τ sig (Elt F) := StableHlo.after hostOps2_2 (U9 m c)
def U11 (c : Dev nD) : Valuation τ sig (Elt F) := StableHlo.after hostOps2_3 (U10 m c)
/-- region 2's, -/
def o12 (c : Dev nD) : Buf (Elt F) ((c : Thread nD τ).loc main_v33) :=
  ediffA (U11 m c main_v30) (U11 m c main_v31) (U11 m c main_v32)
def U12 (c : Dev nD) : Valuation τ sig (Elt F) := Function.update (U11 m c) main_v33 (o12 m c)
def U13 (c : Dev nD) : Valuation τ sig (Elt F) := StableHlo.after hostOps3 (U12 m c)
/-- region 3's, -/
def o14 (c : Dev nD) : Buf (Elt F) ((c : Thread nD τ).loc main_v40) := finA (U13 m c main_v38) (U13 m c main_v39)
def U14 (c : Dev nD) : Valuation τ sig (Elt F) := Function.update (U13 m c) main_v40 (o14 m c)
def U15 (c : Dev nD) : Valuation τ sig (Elt F) := StableHlo.after hostOps4 (U14 m c)
/-- and region 4's. -/
def o16 (c : Dev nD) : Buf (Elt F) ((c : Thread nD τ).loc main_v47) :=
  combA (kdt (F := F)) (U15 m c main_v42) (U15 m c main_v43) (U15 m c main_v44) (U15 m c main_v45) (U15 m c main_v46)
def U16 (c : Dev nD) : Valuation τ sig (Elt F) := Function.update (U15 m c) main_v47 (o16 m c)
/-- The buffers at the return. -/
def U17 (c : Dev nD) : Valuation τ sig (Elt F) := StableHlo.after hostOps5 (U16 m c)

/-- What the regions leave, as the conditional frame's unknowns. -/
def outs : Outs (F := F) := fun J r c =>
  match J with
  | 5 => U5 m c r
  | 7 => U7 m c r
  | 12 => U12 m c r
  | 14 => U14 m c r
  | _ => U16 m c r

theorem V5_eq (c : Dev nD) : V5 m (outs m) c = U5 m c := by
  show Function.update (V4 m c) main_v19 (Function.update (V4 m c) main_v19 (o5 m c) main_v19) = _
  rw [Function.update_self]; rfl
theorem V6_eq (c : Dev nD) : V6 m (outs m) c = U6 m c := congrArg (StableHlo.after hostOps1) (V5_eq m c)
theorem V7_eq (c : Dev nD) : V7 m (outs m) c = U7 m c := by
  show Function.update (V6 m (outs m) c) main_v26 (Function.update (U6 m c) main_v26 (o7 m c) main_v26) = _
  rw [Function.update_self, V6_eq]; rfl
theorem V8_eq (c : Dev nD) : V8 m (outs m) c = U8 m c := congrArg (StableHlo.after hostOps2) (V7_eq m c)
theorem V9_eq (c : Dev nD) : V9 m (outs m) c = U9 m c := congrArg (StableHlo.after hostOps2_1) (V8_eq m c)
theorem V10_eq (c : Dev nD) : V10 m (outs m) c = U10 m c := congrArg (StableHlo.after hostOps2_2) (V9_eq m c)
theorem V11_eq (c : Dev nD) : V11 m (outs m) c = U11 m c := congrArg (StableHlo.after hostOps2_3) (V10_eq m c)
theorem V12_eq (c : Dev nD) : V12 m (outs m) c = U12 m c := by
  show Function.update (V11 m (outs m) c) main_v33 (Function.update (U11 m c) main_v33 (o12 m c) main_v33) = _
  rw [Function.update_self, V11_eq]; rfl
theorem V13_eq (c : Dev nD) : V13 m (outs m) c = U13 m c := congrArg (StableHlo.after hostOps3) (V12_eq m c)
theorem V14_eq (c : Dev nD) : V14 m (outs m) c = U14 m c := by
  show Function.update (V13 m (outs m) c) main_v40 (Function.update (U13 m c) main_v40 (o14 m c) main_v40) = _
  rw [Function.update_self, V13_eq]; rfl
theorem V15_eq (c : Dev nD) : V15 m (outs m) c = U15 m c := congrArg (StableHlo.after hostOps4) (V14_eq m c)
theorem V16_eq (c : Dev nD) : V16 m (outs m) c = U16 m c := by
  show Function.update (V15 m (outs m) c) main_v47 (Function.update (U15 m c) main_v47 (o16 m c) main_v47) = _
  rw [Function.update_self, V15_eq]; rfl
theorem V17_eq (c : Dev nD) : V17 m (outs m) c = U17 m c := congrArg (StableHlo.after hostOps5) (V16_eq m c)

end Cert.Kernel.Reg

end
-- ==== Proof.K.Final0.lean ====
/-
  Region 0's result array in closed form. Each point writes back, cut at the array's end, the quotient block of
  its three operand blocks; a block of an entrywise function of whole arrays is that function of the blocks;
  and the eight row ranges 0‥8191, …, 57344‥62499 are all the array's rows. So the array ends holding
  (a − b) / l entry by entry.
-/
import proofs.«402448_j34849364639903_1_alg».proof.Proof.K.Body0
import proofs.«402448_j34849364639903_1_alg».proof.Proof.K.Chain

noncomputable section

namespace Cert.Kernel.Reg

open Cert.Kernel Cert.Kernel.Gen
open Idealize.ShloMosaic Idealize.ShloMosaic.TcCoe
open Idealize.SL.Sem
open Idealize.ShloMosaic.Pipeline (Dat Cfg Window)

variable {F : FTy → Type} [FloatOps F]
variable (V : (c : Dev nD) → (b : Ref sig .tc) → Buf (Elt F) ((c : Thread nD τ).loc b))

/-- The output window's row ranges: point t covers rows 8192·t up to 8192·t + 8192, cut at 62500; every lane. -/
theorem idx_facts0 : ∀ t : Fin grid0.N, win0_3.index t 0 * win0_3.size 0 = t.val * 8192
    ∧ (t.val < 7 → win0_3.xsize (grid0.coords t) 0 = 8192) ∧ (t.val = 7 → win0_3.xsize (grid0.coords t) 0 = 5156)
    ∧ win0_3.index t 1 * win0_3.size 1 = 0 ∧ win0_3.xsize (grid0.coords t) 1 = 128 := by decide +kernel

theorem mem_blk0 (t : Fin cfg0.N) (i : S62500x128.Idx) :
    i ∈ ((cfg0.win 3).blk t).view.set
      ↔ t.val * 8192 ≤ (i 0 : Nat) ∧ (i 0 : Nat) < t.val * 8192 + win0_3.xsize (grid0.coords t) 0 := by
  show i ∈ ((View.whole main_v19).slice (win0_3.rect t)).set ↔ _
  rw [View.set_slice_whole, Rect.mem_set_unit]
  obtain ⟨e0, _, _, e2, e3⟩ := idx_facts0 t
  have h1 : (i 1 : Nat) < 128 := (i 1).isLt
  constructor
  · intro h
    have h0 := h 0
    change win0_3.index t 0 * win0_3.size 0 ≤ (i 0 : Nat) ∧ (i 0 : Nat) < win0_3.index t 0 * win0_3.size 0 + win0_3.xsize (grid0.coords t) 0 at h0
    rw [e0] at h0; exact h0
  · intro h a
    match a with
    | ⟨0, _⟩ =>
      change win0_3.index t 0 * win0_3.size 0 ≤ (i 0 : Nat) ∧ (i 0 : Nat) < win0_3.index t 0 * win0_3.size 0 + win0_3.xsize (grid0.coords t) 0
      rw [e0]; exact h
    | ⟨1, _⟩ =>
      change win0_3.index t 1 * win0_3.size 1 ≤ (i 1 : Nat) ∧ (i 1 : Nat) < win0_3.index t 1 * win0_3.size 1 + win0_3.xsize (grid0.coords t) 1
      rw [e2, e3]; omega

theorem cover0 (i : S62500x128.Idx) :
    ∃ t : Fin cfg0.N, (cfg0.win 3).flush t = true ∧ i ∈ ((cfg0.win 3).blk t).view.set := by
  have h : (i 0 : Nat) < 62500 := (i 0).isLt
  have hN : cfg0.N = 8 := rfl
  refine ⟨⟨(i 0 : Nat) / 8192, by rw [hN]; omega⟩, flush0_3 _, ?_⟩
  rw [mem_blk0]
  obtain ⟨_, ex, ex7, _, _⟩ := idx_facts0 ⟨(i 0 : Nat) / 8192, by rw [N_0]; omega⟩
  by_cases h7 : (i 0 : Nat) / 8192 < 7
  · have := ex h7
    change win0_3.xsize (grid0.coords ⟨(i 0 : Nat) / 8192, _⟩) 0 = 8192 at this
    rw [this]; dsimp only; omega
  · have h7' : (i 0 : Nat) / 8192 = 7 := by omega
    have := ex7 h7'
    change win0_3.xsize (grid0.coords ⟨(i 0 : Nat) / 8192, _⟩) 0 = 5156 at this
    rw [this]; dsimp only; omega

/-- What a point writes back is its block of the entrywise quotient of the three whole arrays. -/
theorem flushed0 (c : Dev nD) (t : Fin cfg0.N) :
    (dat0 V c).flushed 3 t = ((cfg0.win 3).blk t).view.read (Elt F)
      (ediffA (V c (Pipeline.arrRef spec0 0)) (V c (Pipeline.arrRef spec0 1)) (V c (Pipeline.arrRef spec0 2))) := by
  show win0_0.cut (grid0.coords t) (win0_0.fill (grid0.coords t) zf0 (out0 V c t)) = _
  rw [Window.cut_fill]; rfl

/-- Region 0 leaves (a − b) / l in its result array, -/
theorem final0 (c : Dev nD) : (dat0 V c).arrAt 3 cfg0.N
    = ediffA (V c (Pipeline.arrRef spec0 0)) (V c (Pipeline.arrRef spec0 1)) (V c (Pipeline.arrRef spec0 2)) :=
  (dat0 V c).arrAt_eq_of_cover 3 _ (fun t _ => flushed0 V c t) cover0

/-- and its operand arrays as it found them. -/
theorem kept0 (c : Dev nD) (w : Fin cfg0.W) (hw : w ≠ 3) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, _ => exact ((dat0 V c).arrAt_in 2 rfl _).trans (A_eq0 V c 2)
  | ⟨3, _⟩, h => exact absurd rfl h

end Cert.Kernel.Reg

end
-- ==== Proof.K.Body1.lean ====
/-
  Region 1 of the kernel's @main: the segment means sums / max(counts, 1) over the node arrays laid out in
  rows of 128, four blocks of 8192 rows of which the last overhangs the array by 1518 rows. What each staging
  buffer holds after the body at each point, on the rows inside the array; and the body's obligation: the
  payload is computed entry by entry, so filled blocks in give the filled quotient out.
-/
import proofs.«402448_j34849364639903_1_alg».proof.Proof.Gen.Kernel.Launch
import proofs.«402448_j34849364639903_1_alg».proof.Proof.Gen.Kernel.Points
import proofs.«402448_j34849364639903_1_alg».proof.Proof.Gen.Kernel.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: s / max(n, 1), block by block -/

/-- The body's one payload is pointwise. -/
theorem pay1_apply (x0 x1 : Vec F S8192x128 .f32) :
    k1_pay1 x0 x1 = fun j => FloatOps.divf (x0 j) (FloatOps.maximumf (x1 j) (Scalar.ofBits .f32 0x3F800000#32)) := by
  unfold k1_pay1; simp only [shapeCast_self]; rfl

/-- Window w's block at point t: the part inside the array. -/
def blk1_0 (c : Dev nD) (t : Fin cfg1.N) : (win1_0.xblock (grid1.coords t)).Idx → Elt F .f32 :=
  (win1_0.blk t).view.read (Elt F) (V c (Pipeline.arrRef spec1 0))
def blk1_1 (c : Dev nD) (t : Fin cfg1.N) : (win1_0.xblock (grid1.coords t)).Idx → Elt F .f32 :=
  (win1_1.blk t).view.read (Elt F) (V c (Pipeline.arrRef spec1 1))
/-- The quotient by the maximum with one, entry by entry of the blocks. -/
def out1 (c : Dev nD) (t : Fin cfg1.N) : (win1_0.xblock (grid1.coords t)).Idx → Elt F .f32 :=
  fun j => FloatOps.divf (blk1_0 V c t j) (FloatOps.maximumf (blk1_1 V c t j) (Scalar.ofBits .f32 0x3F800000#32))

/-- The filler past the array's end: nothing reads it. -/
def zf1 : S8192x128.Idx → Elt F .f32 := fun _ => Scalar.ofBits .f32 0#32

def dat1 (c : Dev nD) : Dat τ (Elt F) Unit ℕ (UR sig nD τ) ℕ cfg1 c where
  A w := V c (Pipeline.arrRef spec1 w)
  after w t := match w with
    | ⟨0, _⟩ => win1_0.fill (grid1.coords t) zf1 (blk1_0 V c t)
    | ⟨1, _⟩ => win1_0.fill (grid1.coords t) zf1 (blk1_1 V c t)
    | ⟨2, _⟩ => win1_0.fill (grid1.coords t) zf1 (out1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) :
    (dat1 V c).before (0 : Fin 3) t d = win1_0.fill (grid1.coords t) d (blk1_0 V c t) := by
  unfold Dat.before; rw [if_pos (fetch1_0 t)]; rfl
theorem before1_1 (c : Dev nD) (t : Fin cfg1.N) (d) :
    (dat1 V c).before (1 : Fin 3) t d = win1_0.fill (grid1.coords t) d (blk1_1 V c t) := by
  unfold Dat.before; rw [if_pos (fetch1_1 t)]; rfl

set_option maxHeartbeats 1000000 in
theorem sound_kernel1 (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay1_fill (i : grid1.Coords) (d0 d1 : S8192x128.Idx → Elt F .f32) (b0 b1 : (win1_0.xblock i).Idx → Elt F .f32) :
    k1_pay1 (win1_0.fill i d0 b0) (win1_0.fill i d1 b1)
      = win1_0.fill i (k1_pay1 d0 d1) (fun j => FloatOps.divf (b0 j) (FloatOps.maximumf (b1 j) (Scalar.ofBits .f32 0x3F800000#32))) := by
  rw [pay1_apply, pay1_apply]; funext j; unfold Window.fill; split <;> rfl

theorem body_obligation1 (c : Dev nD) : BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (blk1_0 V c t)) (win1_0.fill (grid1.coords t) d1 (blk1_1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [pay1_fill]
  isplitl [H0]
  · iexists d0
    change _ ⊢ owns (c : Thread nD τ) (st1_0 t) fullShare (win1_0.fill (grid1.coords t) d0 (win1_0.cut (grid1.coords t) (win1_0.fill (grid1.coords t) zf1 (blk1_0 V c t))))
    rw [Window.cut_fill]; try iexact H0
  isplitl [H1]
  · iexists d1
    change _ ⊢ owns (c : Thread nD τ) (st1_1 t) fullShare (win1_0.fill (grid1.coords t) d1 (win1_0.cut (grid1.coords t) (win1_0.fill (grid1.coords t) zf1 (blk1_1 V c t))))
    rw [Window.cut_fill]; try iexact H1
  · iexists k1_pay1 d0 d1
    change _ ⊢ owns (c : Thread nD τ) (st1_2 t) fullShare (win1_0.fill (grid1.coords t) (k1_pay1 d0 d1) (win1_0.cut (grid1.coords t) (win1_0.fill (grid1.coords t) zf1 (out1 V c t))))
    rw [Window.cut_fill]; exact BI.Entails.refl _

end Cert.Kernel.Reg
end
-- ==== Proof.K.Final1.lean ====
/-
  Region 1's result array in closed form. Each point writes back, cut at the array's end, the quotient block of
  its two operand blocks; a block of an entrywise function of whole arrays is that function of the blocks;
  and the four row ranges 0‥8191, …, 24576‥31249 are all the array's rows. So the array ends holding
  s / max(n, 1) entry by entry.
-/
import proofs.«402448_j34849364639903_1_alg».proof.Proof.K.Body1
import proofs.«402448_j34849364639903_1_alg».proof.Proof.K.Chain

noncomputable section

namespace Cert.Kernel.Reg

open Cert.Kernel Cert.Kernel.Gen
open Idealize.ShloMosaic Idealize.ShloMosaic.TcCoe
open Idealize.SL.Sem
open Idealize.ShloMosaic.Pipeline (Dat Cfg Window)

variable {F : FTy → Type} [FloatOps F]
variable (V : (c : Dev nD) → (b : Ref sig .tc) → Buf (Elt F) ((c : Thread nD τ).loc b))

/-- The output window's row ranges: point t covers rows 8192·t up to 8192·t + 8192, cut at 31250; every lane. -/
theorem idx_facts1 : ∀ t : Fin grid1.N, win1_2.index t 0 * win1_2.size 0 = t.val * 8192
    ∧ (t.val < 3 → win1_2.xsize (grid1.coords t) 0 = 8192) ∧ (t.val = 3 → win1_2.xsize (grid1.coords t) 0 = 6674)
    ∧ win1_2.index t 1 * win1_2.size 1 = 0 ∧ win1_2.xsize (grid1.coords t) 1 = 128 := by decide +kernel

theorem mem_blk1 (t : Fin cfg1.N) (i : S31250x128.Idx) :
    i ∈ ((cfg1.win 2).blk t).view.set
      ↔ t.val * 8192 ≤ (i 0 : Nat) ∧ (i 0 : Nat) < t.val * 8192 + win1_2.xsize (grid1.coords t) 0 := by
  show i ∈ ((View.whole main_v26).slice (win1_2.rect t)).set ↔ _
  rw [View.set_slice_whole, Rect.mem_set_unit]
  obtain ⟨e0, _, _, e2, e3⟩ := idx_facts1 t
  have h1 : (i 1 : Nat) < 128 := (i 1).isLt
  constructor
  · intro h
    have h0 := h 0
    change win1_2.index t 0 * win1_2.size 0 ≤ (i 0 : Nat) ∧ (i 0 : Nat) < win1_2.index t 0 * win1_2.size 0 + win1_2.xsize (grid1.coords t) 0 at h0
    rw [e0] at h0; exact h0
  · intro h a
    match a with
    | ⟨0, _⟩ =>
      change win1_2.index t 0 * win1_2.size 0 ≤ (i 0 : Nat) ∧ (i 0 : Nat) < win1_2.index t 0 * win1_2.size 0 + win1_2.xsize (grid1.coords t) 0
      rw [e0]; exact h
    | ⟨1, _⟩ =>
      change win1_2.index t 1 * win1_2.size 1 ≤ (i 1 : Nat) ∧ (i 1 : Nat) < win1_2.index t 1 * win1_2.size 1 + win1_2.xsize (grid1.coords t) 1
      rw [e2, e3]; omega

theorem cover1 (i : S31250x128.Idx) :
    ∃ t : Fin cfg1.N, (cfg1.win 2).flush t = true ∧ i ∈ ((cfg1.win 2).blk t).view.set := by
  have h : (i 0 : Nat) < 31250 := (i 0).isLt
  have hN : cfg1.N = 4 := rfl
  refine ⟨⟨(i 0 : Nat) / 8192, by rw [hN]; omega⟩, flush1_2 _, ?_⟩
  rw [mem_blk1]
  obtain ⟨_, ex, ex7, _, _⟩ := idx_facts1 ⟨(i 0 : Nat) / 8192, by rw [N_1]; omega⟩
  by_cases h7 : (i 0 : Nat) / 8192 < 3
  · have := ex h7
    change win1_2.xsize (grid1.coords ⟨(i 0 : Nat) / 8192, _⟩) 0 = 8192 at this
    rw [this]; dsimp only; omega
  · have h7' : (i 0 : Nat) / 8192 = 3 := by omega
    have := ex7 h7'
    change win1_2.xsize (grid1.coords ⟨(i 0 : Nat) / 8192, _⟩) 0 = 6674 at this
    rw [this]; dsimp only; omega

/-- What a point writes back is its block of the entrywise quotient of the two whole arrays. -/
theorem flushed1 (c : Dev nD) (t : Fin cfg1.N) :
    (dat1 V c).flushed 2 t = ((cfg1.win 2).blk t).view.read (Elt F)
      (finA (V c (Pipeline.arrRef spec1 0)) (V c (Pipeline.arrRef spec1 1))) := by
  show win1_0.cut (grid1.coords t) (win1_0.fill (grid1.coords t) zf1 (out1 V c t)) = _
  rw [Window.cut_fill]; rfl

/-- Region 1 leaves s / max(n, 1) in its result array, -/
theorem final1 (c : Dev nD) : (dat1 V c).arrAt 2 cfg1.N
    = finA (V c (Pipeline.arrRef spec1 0)) (V c (Pipeline.arrRef spec1 1)) :=
  (dat1 V c).arrAt_eq_of_cover 2 _ (fun t _ => flushed1 V c t) cover1

/-- and its operand arrays as it found them. -/
theorem kept1 (c : Dev nD) (w : Fin cfg1.W) (hw : w ≠ 2) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, h => exact absurd rfl h

end Cert.Kernel.Reg

end
-- ==== Proof.K.Body2.lean ====
/-
  Region 2 of the kernel's @main: the edge differences (v[dst] − v[src]) / len over the edge arrays laid
  out in rows of 128, eight blocks of 8192 rows of which the last overhangs the array by 3036 rows. What each
  staging buffer holds after the body at each point, on the rows inside the array; and the body's obligation:
  the payload is computed entry by entry, so filled blocks in give the filled quotient out.
-/
import proofs.«402448_j34849364639903_1_alg».proof.Proof.Gen.Kernel.Launch
import proofs.«402448_j34849364639903_1_alg».proof.Proof.Gen.Kernel.Points
import proofs.«402448_j34849364639903_1_alg».proof.Proof.Gen.Kernel.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the edge differences, (dst − src) / len, block by block -/

/-- The body's one payload is pointwise. -/
theorem pay2_apply (x0 x1 x2 : Vec F S8192x128 .f32) :
    k2_pay1 x0 x1 x2 = fun j => FloatOps.divf (FloatOps.subf (x0 j) (x1 j)) (x2 j) := by
  unfold k2_pay1; simp only [shapeCast_self]; rfl

/-- Window w's block at point t: the part inside the array. -/
def blk2_0 (c : Dev nD) (t : Fin cfg2.N) : (win2_0.xblock (grid2.coords t)).Idx → Elt F .f32 :=
  (win2_0.blk t).view.read (Elt F) (V c (Pipeline.arrRef spec2 0))
def blk2_1 (c : Dev nD) (t : Fin cfg2.N) : (win2_0.xblock (grid2.coords t)).Idx → Elt F .f32 :=
  (win2_1.blk t).view.read (Elt F) (V c (Pipeline.arrRef spec2 1))
def blk2_2 (c : Dev nD) (t : Fin cfg2.N) : (win2_0.xblock (grid2.coords t)).Idx → Elt F .f32 :=
  (win2_2.blk t).view.read (Elt F) (V c (Pipeline.arrRef spec2 2))
/-- The quotient of the difference, entry by entry of the blocks. -/
def out2 (c : Dev nD) (t : Fin cfg2.N) : (win2_0.xblock (grid2.coords t)).Idx → Elt F .f32 :=
  fun j => FloatOps.divf (FloatOps.subf (blk2_0 V c t j) (blk2_1 V c t j)) (blk2_2 V c t j)

/-- The filler past the array's end: nothing reads it. -/
def zf2 : S8192x128.Idx → Elt F .f32 := fun _ => Scalar.ofBits .f32 0#32

def dat2 (c : Dev nD) : Dat τ (Elt F) Unit ℕ (UR sig nD τ) ℕ cfg2 c where
  A w := V c (Pipeline.arrRef spec2 w)
  after w t := match w with
    | ⟨0, _⟩ => win2_0.fill (grid2.coords t) zf2 (blk2_0 V c t)
    | ⟨1, _⟩ => win2_0.fill (grid2.coords t) zf2 (blk2_1 V c t)
    | ⟨2, _⟩ => win2_0.fill (grid2.coords t) zf2 (blk2_2 V c t)
    | ⟨3, _⟩ => win2_0.fill (grid2.coords t) zf2 (out2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem before2_0 (c : Dev nD) (t : Fin cfg2.N) (d) :
    (dat2 V c).before (0 : Fin 4) t d = win2_0.fill (grid2.coords t) d (blk2_0 V c t) := by
  unfold Dat.before; rw [if_pos (fetch2_0 t)]; rfl
theorem before2_1 (c : Dev nD) (t : Fin cfg2.N) (d) :
    (dat2 V c).before (1 : Fin 4) t d = win2_0.fill (grid2.coords t) d (blk2_1 V c t) := by
  unfold Dat.before; rw [if_pos (fetch2_1 t)]; rfl
theorem before2_2 (c : Dev nD) (t : Fin cfg2.N) (d) :
    (dat2 V c).before (2 : Fin 4) t d = win2_0.fill (grid2.coords t) d (blk2_2 V c t) := by
  unfold Dat.before; rw [if_pos (fetch2_2 t)]; rfl

set_option maxHeartbeats 1000000 in
theorem sound_kernel2 (c : Dev nD) (E : Set ℕ) (i : grid2.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x0 x1 x2)) -∗ K ⟨⟩))
      ⊢ wp frame (wpE (defs₀ (F := F)) Variants.none c none) E (cc2__edge_diff_kernel i arg1 harg1 arg2 harg2 arg3 harg3 arg4 harg4) K := by
  simp only [cc2__edge_diff_kernel_eq_skeleton]; unfold cc2__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay2_fill (i : grid2.Coords) (d0 d1 d2 : S8192x128.Idx → Elt F .f32) (b0 b1 b2 : (win2_0.xblock i).Idx → Elt F .f32) :
    k2_pay1 (win2_0.fill i d0 b0) (win2_0.fill i d1 b1) (win2_0.fill i d2 b2)
      = win2_0.fill i (k2_pay1 d0 d1 d2) (fun j => FloatOps.divf (FloatOps.subf (b0 j) (b1 j)) (b2 j)) := by
  rw [pay2_apply, pay2_apply]; funext j; unfold Window.fill; split <;> rfl

theorem body_obligation2 (c : Dev nD) : BodyObligationLoose (dat2 V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))
    (win2_0.fill (grid2.coords t) d0 (blk2_0 V c t)) (win2_0.fill (grid2.coords t) d1 (blk2_1 V c t))
    (win2_0.fill (grid2.coords t) d2 (blk2_2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [pay2_fill]
  isplitl [H0]
  · iexists d0
    change _ ⊢ owns (c : Thread nD τ) (st2_0 t) fullShare (win2_0.fill (grid2.coords t) d0 (win2_0.cut (grid2.coords t) (win2_0.fill (grid2.coords t) zf2 (blk2_0 V c t))))
    rw [Window.cut_fill]; try iexact H0
  isplitl [H1]
  · iexists d1
    change _ ⊢ owns (c : Thread nD τ) (st2_1 t) fullShare (win2_0.fill (grid2.coords t) d1 (win2_0.cut (grid2.coords t) (win2_0.fill (grid2.coords t) zf2 (blk2_1 V c t))))
    rw [Window.cut_fill]; try iexact H1
  isplitl [H2]
  · iexists d2
    change _ ⊢ owns (c : Thread nD τ) (st2_2 t) fullShare (win2_0.fill (grid2.coords t) d2 (win2_0.cut (grid2.coords t) (win2_0.fill (grid2.coords t) zf2 (blk2_2 V c t))))
    rw [Window.cut_fill]; try iexact H2
  · iexists k2_pay1 d0 d1 d2
    change _ ⊢ owns (c : Thread nD τ) (st2_3 t) fullShare (win2_0.fill (grid2.coords t) (k2_pay1 d0 d1 d2) (win2_0.cut (grid2.coords t) (win2_0.fill (grid2.coords t) zf2 (out2 V c t))))
    rw [Window.cut_fill]; exact BI.Entails.refl _

end Cert.Kernel.Reg
end
-- ==== Proof.K.Final2.lean ====
/-
  Region 2's result array in closed form. Each point writes back, cut at the array's end, the quotient block of
  its three operand blocks; a block of an entrywise function of whole arrays is that function of the blocks;
  and the eight row ranges 0‥8191, …, 57344‥62499 are all the array's rows. So the array ends holding
  (a − b) / l entry by entry.
-/
import proofs.«402448_j34849364639903_1_alg».proof.Proof.K.Body2
import proofs.«402448_j34849364639903_1_alg».proof.Proof.K.Chain

noncomputable section

namespace Cert.Kernel.Reg

open Cert.Kernel Cert.Kernel.Gen
open Idealize.ShloMosaic Idealize.ShloMosaic.TcCoe
open Idealize.SL.Sem
open Idealize.ShloMosaic.Pipeline (Dat Cfg Window)

variable {F : FTy → Type} [FloatOps F]
variable (V : (c : Dev nD) → (b : Ref sig .tc) → Buf (Elt F) ((c : Thread nD τ).loc b))

/-- The output window's row ranges: point t covers rows 8192·t up to 8192·t + 8192, cut at 62500; every lane. -/
theorem idx_facts2 : ∀ t : Fin grid2.N, win2_3.index t 0 * win2_3.size 0 = t.val * 8192
    ∧ (t.val < 7 → win2_3.xsize (grid2.coords t) 0 = 8192) ∧ (t.val = 7 → win2_3.xsize (grid2.coords t) 0 = 5156)
    ∧ win2_3.index t 1 * win2_3.size 1 = 0 ∧ win2_3.xsize (grid2.coords t) 1 = 128 := by decide +kernel

theorem mem_blk2 (t : Fin cfg2.N) (i : S62500x128.Idx) :
    i ∈ ((cfg2.win 3).blk t).view.set
      ↔ t.val * 8192 ≤ (i 0 : Nat) ∧ (i 0 : Nat) < t.val * 8192 + win2_3.xsize (grid2.coords t) 0 := by
  show i ∈ ((View.whole main_v33).slice (win2_3.rect t)).set ↔ _
  rw [View.set_slice_whole, Rect.mem_set_unit]
  obtain ⟨e0, _, _, e2, e3⟩ := idx_facts2 t
  have h1 : (i 1 : Nat) < 128 := (i 1).isLt
  constructor
  · intro h
    have h0 := h 0
    change win2_3.index t 0 * win2_3.size 0 ≤ (i 0 : Nat) ∧ (i 0 : Nat) < win2_3.index t 0 * win2_3.size 0 + win2_3.xsize (grid2.coords t) 0 at h0
    rw [e0] at h0; exact h0
  · intro h a
    match a with
    | ⟨0, _⟩ =>
      change win2_3.index t 0 * win2_3.size 0 ≤ (i 0 : Nat) ∧ (i 0 : Nat) < win2_3.index t 0 * win2_3.size 0 + win2_3.xsize (grid2.coords t) 0
      rw [e0]; exact h
    | ⟨1, _⟩ =>
      change win2_3.index t 1 * win2_3.size 1 ≤ (i 1 : Nat) ∧ (i 1 : Nat) < win2_3.index t 1 * win2_3.size 1 + win2_3.xsize (grid2.coords t) 1
      rw [e2, e3]; omega

theorem cover2 (i : S62500x128.Idx) :
    ∃ t : Fin cfg2.N, (cfg2.win 3).flush t = true ∧ i ∈ ((cfg2.win 3).blk t).view.set := by
  have h : (i 0 : Nat) < 62500 := (i 0).isLt
  have hN : cfg2.N = 8 := rfl
  refine ⟨⟨(i 0 : Nat) / 8192, by rw [hN]; omega⟩, flush2_3 _, ?_⟩
  rw [mem_blk2]
  obtain ⟨_, ex, ex7, _, _⟩ := idx_facts2 ⟨(i 0 : Nat) / 8192, by rw [N_2]; omega⟩
  by_cases h7 : (i 0 : Nat) / 8192 < 7
  · have := ex h7
    change win2_3.xsize (grid2.coords ⟨(i 0 : Nat) / 8192, _⟩) 0 = 8192 at this
    rw [this]; dsimp only; omega
  · have h7' : (i 0 : Nat) / 8192 = 7 := by omega
    have := ex7 h7'
    change win2_3.xsize (grid2.coords ⟨(i 0 : Nat) / 8192, _⟩) 0 = 5156 at this
    rw [this]; dsimp only; omega

/-- What a point writes back is its block of the entrywise quotient of the three whole arrays. -/
theorem flushed2 (c : Dev nD) (t : Fin cfg2.N) :
    (dat2 V c).flushed 3 t = ((cfg2.win 3).blk t).view.read (Elt F)
      (ediffA (V c (Pipeline.arrRef spec2 0)) (V c (Pipeline.arrRef spec2 1)) (V c (Pipeline.arrRef spec2 2))) := by
  show win2_0.cut (grid2.coords t) (win2_0.fill (grid2.coords t) zf2 (out2 V c t)) = _
  rw [Window.cut_fill]; rfl

/-- Region 2 leaves (a − b) / l in its result array, -/
theorem final2 (c : Dev nD) : (dat2 V c).arrAt 3 cfg2.N
    = ediffA (V c (Pipeline.arrRef spec2 0)) (V c (Pipeline.arrRef spec2 1)) (V c (Pipeline.arrRef spec2 2)) :=
  (dat2 V c).arrAt_eq_of_cover 3 _ (fun t _ => flushed2 V c t) cover2

/-- and its operand arrays as it found them. -/
theorem kept2 (c : Dev nD) (w : Fin cfg2.W) (hw : w ≠ 3) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, h => exact absurd rfl h

end Cert.Kernel.Reg

end
-- ==== Proof.K.Body3.lean ====
/-
  Region 3 of the kernel's @main: the segment means sums / max(counts, 1) over the node arrays laid out in
  rows of 128, four blocks of 8192 rows of which the last overhangs the array by 1518 rows. What each staging
  buffer holds after the body at each point, on the rows inside the array; and the body's obligation: the
  payload is computed entry by entry, so filled blocks in give the filled quotient out.
-/
import proofs.«402448_j34849364639903_1_alg».proof.Proof.Gen.Kernel.Launch
import proofs.«402448_j34849364639903_1_alg».proof.Proof.Gen.Kernel.Points
import proofs.«402448_j34849364639903_1_alg».proof.Proof.Gen.Kernel.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 3: s / max(n, 1), block by block -/

/-- The body's one payload is pointwise. -/
theorem pay3_apply (x0 x1 : Vec F S8192x128 .f32) :
    k3_pay1 x0 x1 = fun j => FloatOps.divf (x0 j) (FloatOps.maximumf (x1 j) (Scalar.ofBits .f32 0x3F800000#32)) := by
  unfold k3_pay1; simp only [shapeCast_self]; rfl

/-- Window w's block at point t: the part inside the array. -/
def blk3_0 (c : Dev nD) (t : Fin cfg3.N) : (win3_0.xblock (grid3.coords t)).Idx → Elt F .f32 :=
  (win3_0.blk t).view.read (Elt F) (V c (Pipeline.arrRef spec3 0))
def blk3_1 (c : Dev nD) (t : Fin cfg3.N) : (win3_0.xblock (grid3.coords t)).Idx → Elt F .f32 :=
  (win3_1.blk t).view.read (Elt F) (V c (Pipeline.arrRef spec3 1))
/-- The quotient by the maximum with one, entry by entry of the blocks. -/
def out3 (c : Dev nD) (t : Fin cfg3.N) : (win3_0.xblock (grid3.coords t)).Idx → Elt F .f32 :=
  fun j => FloatOps.divf (blk3_0 V c t j) (FloatOps.maximumf (blk3_1 V c t j) (Scalar.ofBits .f32 0x3F800000#32))

/-- The filler past the array's end: nothing reads it. -/
def zf3 : S8192x128.Idx → Elt F .f32 := fun _ => Scalar.ofBits .f32 0#32

def dat3 (c : Dev nD) : Dat τ (Elt F) Unit ℕ (UR sig nD τ) ℕ cfg3 c where
  A w := V c (Pipeline.arrRef spec3 w)
  after w t := match w with
    | ⟨0, _⟩ => win3_0.fill (grid3.coords t) zf3 (blk3_0 V c t)
    | ⟨1, _⟩ => win3_0.fill (grid3.coords t) zf3 (blk3_1 V c t)
    | ⟨2, _⟩ => win3_0.fill (grid3.coords t) zf3 (out3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3_0 (c : Dev nD) (t : Fin cfg3.N) (d) :
    (dat3 V c).before (0 : Fin 3) t d = win3_0.fill (grid3.coords t) d (blk3_0 V c t) := by
  unfold Dat.before; rw [if_pos (fetch3_0 t)]; rfl
theorem before3_1 (c : Dev nD) (t : Fin cfg3.N) (d) :
    (dat3 V c).before (1 : Fin 3) t d = win3_0.fill (grid3.coords t) d (blk3_1 V c t) := by
  unfold Dat.before; rw [if_pos (fetch3_1 t)]; rfl

set_option maxHeartbeats 1000000 in
theorem sound_kernel3 (c : Dev nD) (E : Set ℕ) (i : grid3.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k3_pay1 x0 x1)) -∗ K ⟨⟩))
      ⊢ wp frame (wpE (defs₀ (F := F)) Variants.none c none) E (cc3__finalize_kernel i arg1 harg1 arg2 harg2 arg3 harg3) K := by
  simp only [cc3__finalize_kernel_eq_skeleton]; unfold cc3__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay3_fill (i : grid3.Coords) (d0 d1 : S8192x128.Idx → Elt F .f32) (b0 b1 : (win3_0.xblock i).Idx → Elt F .f32) :
    k3_pay1 (win3_0.fill i d0 b0) (win3_0.fill i d1 b1)
      = win3_0.fill i (k3_pay1 d0 d1) (fun j => FloatOps.divf (b0 j) (FloatOps.maximumf (b1 j) (Scalar.ofBits .f32 0x3F800000#32))) := by
  rw [pay3_apply, pay3_apply]; funext j; unfold Window.fill; split <;> rfl

theorem body_obligation3 (c : Dev nD) : BodyObligationLoose (dat3 V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩⟩
  rw [before3_0 V c t d0, before3_1 V c t d1]
  iapply (sound_kernel3 (F := F) c Set.univ (grid3.coords t)
    (win3_0.stage (cfg3.slots t 0)) (hstage3_0 ((cfg3.slots t 0).cast nbuf3_0)) (win3_1.stage (cfg3.slots t 1)) (hstage3_1 ((cfg3.slots t 1).cast nbuf3_1))
    (win3_2.stage (cfg3.slots t 2)) (hstage3_2 ((cfg3.slots t 2).cast nbuf3_2))
    (win3_0.fill (grid3.coords t) d0 (blk3_0 V c t)) (win3_0.fill (grid3.coords t) d1 (blk3_1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [pay3_fill]
  isplitl [H0]
  · iexists d0
    change _ ⊢ owns (c : Thread nD τ) (st3_0 t) fullShare (win3_0.fill (grid3.coords t) d0 (win3_0.cut (grid3.coords t) (win3_0.fill (grid3.coords t) zf3 (blk3_0 V c t))))
    rw [Window.cut_fill]; try iexact H0
  isplitl [H1]
  · iexists d1
    change _ ⊢ owns (c : Thread nD τ) (st3_1 t) fullShare (win3_0.fill (grid3.coords t) d1 (win3_0.cut (grid3.coords t) (win3_0.fill (grid3.coords t) zf3 (blk3_1 V c t))))
    rw [Window.cut_fill]; try iexact H1
  · iexists k3_pay1 d0 d1
    change _ ⊢ owns (c : Thread nD τ) (st3_2 t) fullShare (win3_0.fill (grid3.coords t) (k3_pay1 d0 d1) (win3_0.cut (grid3.coords t) (win3_0.fill (grid3.coords t) zf3 (out3 V c t))))
    rw [Window.cut_fill]; exact BI.Entails.refl _

end Cert.Kernel.Reg
end
-- ==== Proof.K.Final3.lean ====
/-
  Region 3's result array in closed form. Each point writes back, cut at the array's end, the quotient block of
  its two operand blocks; a block of an entrywise function of whole arrays is that function of the blocks;
  and the four row ranges 0‥8191, …, 24576‥31249 are all the array's rows. So the array ends holding
  s / max(n, 1) entry by entry.
-/
import proofs.«402448_j34849364639903_1_alg».proof.Proof.K.Body3
import proofs.«402448_j34849364639903_1_alg».proof.Proof.K.Chain

noncomputable section

namespace Cert.Kernel.Reg

open Cert.Kernel Cert.Kernel.Gen
open Idealize.ShloMosaic Idealize.ShloMosaic.TcCoe
open Idealize.SL.Sem
open Idealize.ShloMosaic.Pipeline (Dat Cfg Window)

variable {F : FTy → Type} [FloatOps F]
variable (V : (c : Dev nD) → (b : Ref sig .tc) → Buf (Elt F) ((c : Thread nD τ).loc b))

/-- The output window's row ranges: point t covers rows 8192·t up to 8192·t + 8192, cut at 31250; every lane. -/
theorem idx_facts3 : ∀ t : Fin grid3.N, win3_2.index t 0 * win3_2.size 0 = t.val * 8192
    ∧ (t.val < 3 → win3_2.xsize (grid3.coords t) 0 = 8192) ∧ (t.val = 3 → win3_2.xsize (grid3.coords t) 0 = 6674)
    ∧ win3_2.index t 1 * win3_2.size 1 = 0 ∧ win3_2.xsize (grid3.coords t) 1 = 128 := by decide +kernel

theorem mem_blk3 (t : Fin cfg3.N) (i : S31250x128.Idx) :
    i ∈ ((cfg3.win 2).blk t).view.set
      ↔ t.val * 8192 ≤ (i 0 : Nat) ∧ (i 0 : Nat) < t.val * 8192 + win3_2.xsize (grid3.coords t) 0 := by
  show i ∈ ((View.whole main_v40).slice (win3_2.rect t)).set ↔ _
  rw [View.set_slice_whole, Rect.mem_set_unit]
  obtain ⟨e0, _, _, e2, e3⟩ := idx_facts3 t
  have h1 : (i 1 : Nat) < 128 := (i 1).isLt
  constructor
  · intro h
    have h0 := h 0
    change win3_2.index t 0 * win3_2.size 0 ≤ (i 0 : Nat) ∧ (i 0 : Nat) < win3_2.index t 0 * win3_2.size 0 + win3_2.xsize (grid3.coords t) 0 at h0
    rw [e0] at h0; exact h0
  · intro h a
    match a with
    | ⟨0, _⟩ =>
      change win3_2.index t 0 * win3_2.size 0 ≤ (i 0 : Nat) ∧ (i 0 : Nat) < win3_2.index t 0 * win3_2.size 0 + win3_2.xsize (grid3.coords t) 0
      rw [e0]; exact h
    | ⟨1, _⟩ =>
      change win3_2.index t 1 * win3_2.size 1 ≤ (i 1 : Nat) ∧ (i 1 : Nat) < win3_2.index t 1 * win3_2.size 1 + win3_2.xsize (grid3.coords t) 1
      rw [e2, e3]; omega

theorem cover3 (i : S31250x128.Idx) :
    ∃ t : Fin cfg3.N, (cfg3.win 2).flush t = true ∧ i ∈ ((cfg3.win 2).blk t).view.set := by
  have h : (i 0 : Nat) < 31250 := (i 0).isLt
  have hN : cfg3.N = 4 := rfl
  refine ⟨⟨(i 0 : Nat) / 8192, by rw [hN]; omega⟩, flush3_2 _, ?_⟩
  rw [mem_blk3]
  obtain ⟨_, ex, ex7, _, _⟩ := idx_facts3 ⟨(i 0 : Nat) / 8192, by rw [N_3]; omega⟩
  by_cases h7 : (i 0 : Nat) / 8192 < 3
  · have := ex h7
    change win3_2.xsize (grid3.coords ⟨(i 0 : Nat) / 8192, _⟩) 0 = 8192 at this
    rw [this]; dsimp only; omega
  · have h7' : (i 0 : Nat) / 8192 = 3 := by omega
    have := ex7 h7'
    change win3_2.xsize (grid3.coords ⟨(i 0 : Nat) / 8192, _⟩) 0 = 6674 at this
    rw [this]; dsimp only; omega

/-- What a point writes back is its block of the entrywise quotient of the two whole arrays. -/
theorem flushed3 (c : Dev nD) (t : Fin cfg3.N) :
    (dat3 V c).flushed 2 t = ((cfg3.win 2).blk t).view.read (Elt F)
      (finA (V c (Pipeline.arrRef spec3 0)) (V c (Pipeline.arrRef spec3 1))) := by
  show win3_0.cut (grid3.coords t) (win3_0.fill (grid3.coords t) zf3 (out3 V c t)) = _
  rw [Window.cut_fill]; rfl

/-- Region 3 leaves s / max(n, 1) in its result array, -/
theorem final3 (c : Dev nD) : (dat3 V c).arrAt 2 cfg3.N
    = finA (V c (Pipeline.arrRef spec3 0)) (V c (Pipeline.arrRef spec3 1)) :=
  (dat3 V c).arrAt_eq_of_cover 2 _ (fun t _ => flushed3 V c t) cover3

/-- and its operand arrays as it found them. -/
theorem kept3 (c : Dev nD) (w : Fin cfg3.W) (hw : w ≠ 2) : (dat3 V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, h => exact absurd rfl h

end Cert.Kernel.Reg

end
-- ==== Proof.K.Body4.lean ====
/-
  Region 4 of the kernel's @main: the loss ((u − u₁)·k + du·u₁ − 0.01·d2u)·mask over the node arrays laid out
  in rows of 128, eight blocks of 4096 rows of which the last overhangs the array by 1518 rows. What each staging
  buffer holds after the body at each point, on the rows inside the array; and the body's obligation: the
  payload is computed entry by entry, so filled blocks in give the filled combination out.
-/
import proofs.«402448_j34849364639903_1_alg».proof.Proof.Gen.Kernel.Launch
import proofs.«402448_j34849364639903_1_alg».proof.Proof.Gen.Kernel.Points
import proofs.«402448_j34849364639903_1_alg».proof.Proof.Gen.Kernel.Skeleton
import proofs.«402448_j34849364639903_1_alg».proof.Proof.K.Chain
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 4: the combination, block by block -/

/-- The body's one payload is pointwise (u₁ is loaded twice). -/
theorem pay4_apply (x0 x1 x2 x1' x3 x4 : Vec F S4096x128 .f32) :
    k4_pay1 x0 x1 x2 x1' x3 x4 = fun j => FloatOps.mulf (FloatOps.subf (FloatOps.addf (FloatOps.mulf (FloatOps.subf (x0 j) (x1 j)) (kdt (F := F))) (FloatOps.mulf (x2 j) (x1' j))) (FloatOps.mulf (Scalar.ofBits .f32 0x3C23D70A#32) (x3 j))) (x4 j) := by
  unfold k4_pay1 kdt; simp only [shapeCast_self]; rfl

/-- Window w's block at point t: the part inside the array. -/
def blk4_0 (c : Dev nD) (t : Fin cfg4.N) : (win4_0.xblock (grid4.coords t)).Idx → Elt F .f32 :=
  (win4_0.blk t).view.read (Elt F) (V c (Pipeline.arrRef spec4 0))
def blk4_1 (c : Dev nD) (t : Fin cfg4.N) : (win4_0.xblock (grid4.coords t)).Idx → Elt F .f32 :=
  (win4_1.blk t).view.read (Elt F) (V c (Pipeline.arrRef spec4 1))
def blk4_2 (c : Dev nD) (t : Fin cfg4.N) : (win4_0.xblock (grid4.coords t)).Idx → Elt F .f32 :=
  (win4_2.blk t).view.read (Elt F) (V c (Pipeline.arrRef spec4 2))
def blk4_3 (c : Dev nD) (t : Fin cfg4.N) : (win4_0.xblock (grid4.coords t)).Idx → Elt F .f32 :=
  (win4_3.blk t).view.read (Elt F) (V c (Pipeline.arrRef spec4 3))
def blk4_4 (c : Dev nD) (t : Fin cfg4.N) : (win4_0.xblock (grid4.coords t)).Idx → Elt F .f32 :=
  (win4_4.blk t).view.read (Elt F) (V c (Pipeline.arrRef spec4 4))
/-- The combination, entry by entry of the blocks. -/
def out4 (c : Dev nD) (t : Fin cfg4.N) : (win4_0.xblock (grid4.coords t)).Idx → Elt F .f32 :=
  fun j => FloatOps.mulf (FloatOps.subf (FloatOps.addf (FloatOps.mulf (FloatOps.subf (blk4_0 V c t j) (blk4_1 V c t j)) (kdt (F := F))) (FloatOps.mulf (blk4_2 V c t j) (blk4_1 V c t j))) (FloatOps.mulf (Scalar.ofBits .f32 0x3C23D70A#32) (blk4_3 V c t j))) (blk4_4 V c t j)

/-- The filler past the array's end: nothing reads it. -/
def zf4 : S4096x128.Idx → Elt F .f32 := fun _ => Scalar.ofBits .f32 0#32

def dat4 (c : Dev nD) : Dat τ (Elt F) Unit ℕ (UR sig nD τ) ℕ cfg4 c where
  A w := V c (Pipeline.arrRef spec4 w)
  after w t := match w with
    | ⟨0, _⟩ => win4_0.fill (grid4.coords t) zf4 (blk4_0 V c t)
    | ⟨1, _⟩ => win4_0.fill (grid4.coords t) zf4 (blk4_1 V c t)
    | ⟨2, _⟩ => win4_0.fill (grid4.coords t) zf4 (blk4_2 V c t)
    | ⟨3, _⟩ => win4_0.fill (grid4.coords t) zf4 (blk4_3 V c t)
    | ⟨4, _⟩ => win4_0.fill (grid4.coords t) zf4 (blk4_4 V c t)
    | ⟨5, _⟩ => win4_0.fill (grid4.coords t) zf4 (out4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) :
    (dat4 V c).before (0 : Fin 6) t d = win4_0.fill (grid4.coords t) d (blk4_0 V c t) := by
  unfold Dat.before; rw [if_pos (fetch4_0 t)]; rfl
theorem before4_1 (c : Dev nD) (t : Fin cfg4.N) (d) :
    (dat4 V c).before (1 : Fin 6) t d = win4_0.fill (grid4.coords t) d (blk4_1 V c t) := by
  unfold Dat.before; rw [if_pos (fetch4_1 t)]; rfl
theorem before4_2 (c : Dev nD) (t : Fin cfg4.N) (d) :
    (dat4 V c).before (2 : Fin 6) t d = win4_0.fill (grid4.coords t) d (blk4_2 V c t) := by
  unfold Dat.before; rw [if_pos (fetch4_2 t)]; rfl
theorem before4_3 (c : Dev nD) (t : Fin cfg4.N) (d) :
    (dat4 V c).before (3 : Fin 6) t d = win4_0.fill (grid4.coords t) d (blk4_3 V c t) := by
  unfold Dat.before; rw [if_pos (fetch4_3 t)]; rfl
theorem before4_4 (c : Dev nD) (t : Fin cfg4.N) (d) :
    (dat4 V c).before (4 : Fin 6) t d = win4_0.fill (grid4.coords t) d (blk4_4 V c t) := by
  unfold Dat.before; rw [if_pos (fetch4_4 t)]; rfl

set_option maxHeartbeats 2000000 in
theorem sound_kernel4 (c : Dev nD) (E : Set ℕ) (i : grid4.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S4096x128 .f32) (harg6 : arg6.IsWhole)
    (x0 x1 x2 x3 x4 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k4_pay1 x0 x1 x2 x1 x3 x4)) -∗ K ⟨⟩))
      ⊢ wp frame (wpE (defs₀ (F := F)) Variants.none c none) E
          (cc4__combine_kernel i arg1 harg1 arg2 harg2 arg3 harg3 arg4 harg4 arg5 harg5 arg6 harg6) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  rw [View.read_writes_eq_canon _ _ _ (View.cover_of_tiled _ S4096x128.size (by rfl)), View.canon_unit_zero hz]
  simp only [View.readAt_eq_ld, View.ld_unit_zero (S := S4096x128) hz]

/-- A payload of filled blocks is the filled payload of the blocks: the body works entry by entry. -/
theorem pay4_fill (i : grid4.Coords) (d0 d1 d2 d3 d4 : S4096x128.Idx → Elt F .f32) (b0 b1 b2 b3 b4 : (win4_0.xblock i).Idx → Elt F .f32) :
    k4_pay1 (win4_0.fill i d0 b0) (win4_0.fill i d1 b1) (win4_0.fill i d2 b2) (win4_0.fill i d1 b1) (win4_0.fill i d3 b3) (win4_0.fill i d4 b4)
      = win4_0.fill i (k4_pay1 d0 d1 d2 d1 d3 d4) (fun j => FloatOps.mulf (FloatOps.subf (FloatOps.addf (FloatOps.mulf (FloatOps.subf (b0 j) (b1 j)) (kdt (F := F))) (FloatOps.mulf (b2 j) (b1 j))) (FloatOps.mulf (Scalar.ofBits .f32 0x3C23D70A#32) (b3 j))) (b4 j)) := by
  rw [pay4_apply, pay4_apply]; funext j; unfold Window.fill; split <;> rfl

theorem body_obligation4 (c : Dev nD) : BodyObligationLoose (dat4 V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before4_0 V c t d0, before4_1 V c t d1, before4_2 V c t d2, before4_3 V c t d3, before4_4 V c t d4]
  iapply (sound_kernel4 (F := F) c Set.univ (grid4.coords t)
    (win4_0.stage (cfg4.slots t 0)) (hstage4_0 ((cfg4.slots t 0).cast nbuf4_0)) (win4_1.stage (cfg4.slots t 1)) (hstage4_1 ((cfg4.slots t 1).cast nbuf4_1))
    (win4_2.stage (cfg4.slots t 2)) (hstage4_2 ((cfg4.slots t 2).cast nbuf4_2)) (win4_3.stage (cfg4.slots t 3)) (hstage4_3 ((cfg4.slots t 3).cast nbuf4_3))
    (win4_4.stage (cfg4.slots t 4)) (hstage4_4 ((cfg4.slots t 4).cast nbuf4_4)) (win4_5.stage (cfg4.slots t 5)) (hstage4_5 ((cfg4.slots t 5).cast nbuf4_5))
    (win4_0.fill (grid4.coords t) d0 (blk4_0 V c t)) (win4_0.fill (grid4.coords t) d1 (blk4_1 V c t))
    (win4_0.fill (grid4.coords t) d2 (blk4_2 V c t)) (win4_0.fill (grid4.coords t) d3 (blk4_3 V c t))
    (win4_0.fill (grid4.coords t) d4 (blk4_4 V c t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  rw [pay4_fill]
  isplitl [H0]
  · iexists d0
    change _ ⊢ owns (c : Thread nD τ) (st4_0 t) fullShare (win4_0.fill (grid4.coords t) d0 (win4_0.cut (grid4.coords t) (win4_0.fill (grid4.coords t) zf4 (blk4_0 V c t))))
    rw [Window.cut_fill]; try iexact H0
  isplitl [H1]
  · iexists d1
    change _ ⊢ owns (c : Thread nD τ) (st4_1 t) fullShare (win4_0.fill (grid4.coords t) d1 (win4_0.cut (grid4.coords t) (win4_0.fill (grid4.coords t) zf4 (blk4_1 V c t))))
    rw [Window.cut_fill]; try iexact H1
  isplitl [H2]
  · iexists d2
    change _ ⊢ owns (c : Thread nD τ) (st4_2 t) fullShare (win4_0.fill (grid4.coords t) d2 (win4_0.cut (grid4.coords t) (win4_0.fill (grid4.coords t) zf4 (blk4_2 V c t))))
    rw [Window.cut_fill]; try iexact H2
  isplitl [H3]
  · iexists d3
    change _ ⊢ owns (c : Thread nD τ) (st4_3 t) fullShare (win4_0.fill (grid4.coords t) d3 (win4_0.cut (grid4.coords t) (win4_0.fill (grid4.coords t) zf4 (blk4_3 V c t))))
    rw [Window.cut_fill]; try iexact H3
  isplitl [H4]
  · iexists d4
    change _ ⊢ owns (c : Thread nD τ) (st4_4 t) fullShare (win4_0.fill (grid4.coords t) d4 (win4_0.cut (grid4.coords t) (win4_0.fill (grid4.coords t) zf4 (blk4_4 V c t))))
    rw [Window.cut_fill]; try iexact H4
  · iexists k4_pay1 d0 d1 d2 d1 d3 d4
    change _ ⊢ owns (c : Thread nD τ) (st4_5 t) fullShare (win4_0.fill (grid4.coords t) (k4_pay1 d0 d1 d2 d1 d3 d4) (win4_0.cut (grid4.coords t) (win4_0.fill (grid4.coords t) zf4 (out4 V c t))))
    rw [Window.cut_fill]; exact BI.Entails.refl _

end Cert.Kernel.Reg
end
-- ==== Proof.K.Final4.lean ====
/-
  Region 4's result array in closed form. Each point writes back, cut at the array's end, the combination block of
  its five operand blocks; a block of an entrywise function of whole arrays is that function of the blocks;
  and the eight row ranges 0‥4095, …, 28672‥31249 are all the array's rows. So the array ends holding
  ((u − u₁)·k + du·u₁ − 0.01·d2u)·mask entry by entry.
-/
import proofs.«402448_j34849364639903_1_alg».proof.Proof.K.Body4
import proofs.«402448_j34849364639903_1_alg».proof.Proof.K.Chain

noncomputable section

namespace Cert.Kernel.Reg

open Cert.Kernel Cert.Kernel.Gen
open Idealize.ShloMosaic Idealize.ShloMosaic.TcCoe
open Idealize.SL.Sem
open Idealize.ShloMosaic.Pipeline (Dat Cfg Window)

variable {F : FTy → Type} [FloatOps F]
variable (V : (c : Dev nD) → (b : Ref sig .tc) → Buf (Elt F) ((c : Thread nD τ).loc b))

/-- The output window's row ranges: point t covers rows 4096·t up to 4096·t + 4096, cut at 31250; every lane. -/
theorem idx_facts4 : ∀ t : Fin grid4.N, win4_5.index t 0 * win4_5.size 0 = t.val * 4096
    ∧ (t.val < 7 → win4_5.xsize (grid4.coords t) 0 = 4096) ∧ (t.val = 7 → win4_5.xsize (grid4.coords t) 0 = 2578)
    ∧ win4_5.index t 1 * win4_5.size 1 = 0 ∧ win4_5.xsize (grid4.coords t) 1 = 128 := by decide +kernel

theorem mem_blk4 (t : Fin cfg4.N) (i : S31250x128.Idx) :
    i ∈ ((cfg4.win 5).blk t).view.set
      ↔ t.val * 4096 ≤ (i 0 : Nat) ∧ (i 0 : Nat) < t.val * 4096 + win4_5.xsize (grid4.coords t) 0 := by
  show i ∈ ((View.whole main_v47).slice (win4_5.rect t)).set ↔ _
  rw [View.set_slice_whole, Rect.mem_set_unit]
  obtain ⟨e0, _, _, e2, e3⟩ := idx_facts4 t
  have h1 : (i 1 : Nat) < 128 := (i 1).isLt
  constructor
  · intro h
    have h0 := h 0
    change win4_5.index t 0 * win4_5.size 0 ≤ (i 0 : Nat) ∧ (i 0 : Nat) < win4_5.index t 0 * win4_5.size 0 + win4_5.xsize (grid4.coords t) 0 at h0
    rw [e0] at h0; exact h0
  · intro h a
    match a with
    | ⟨0, _⟩ =>
      change win4_5.index t 0 * win4_5.size 0 ≤ (i 0 : Nat) ∧ (i 0 : Nat) < win4_5.index t 0 * win4_5.size 0 + win4_5.xsize (grid4.coords t) 0
      rw [e0]; exact h
    | ⟨1, _⟩ =>
      change win4_5.index t 1 * win4_5.size 1 ≤ (i 1 : Nat) ∧ (i 1 : Nat) < win4_5.index t 1 * win4_5.size 1 + win4_5.xsize (grid4.coords t) 1
      rw [e2, e3]; omega

theorem cover4 (i : S31250x128.Idx) :
    ∃ t : Fin cfg4.N, (cfg4.win 5).flush t = true ∧ i ∈ ((cfg4.win 5).blk t).view.set := by
  have h : (i 0 : Nat) < 31250 := (i 0).isLt
  have hN : cfg4.N = 8 := rfl
  refine ⟨⟨(i 0 : Nat) / 4096, by rw [hN]; omega⟩, flush4_5 _, ?_⟩
  rw [mem_blk4]
  obtain ⟨_, ex, ex7, _, _⟩ := idx_facts4 ⟨(i 0 : Nat) / 4096, by rw [N_4]; omega⟩
  by_cases h7 : (i 0 : Nat) / 4096 < 7
  · have := ex h7
    change win4_5.xsize (grid4.coords ⟨(i 0 : Nat) / 4096, _⟩) 0 = 4096 at this
    rw [this]; dsimp only; omega
  · have h7' : (i 0 : Nat) / 4096 = 7 := by omega
    have := ex7 h7'
    change win4_5.xsize (grid4.coords ⟨(i 0 : Nat) / 4096, _⟩) 0 = 2578 at this
    rw [this]; dsimp only; omega

/-- What a point writes back is its block of the entrywise combination of the five whole arrays. -/
theorem flushed4 (c : Dev nD) (t : Fin cfg4.N) :
    (dat4 V c).flushed 5 t = ((cfg4.win 5).blk t).view.read (Elt F)
      (combA (kdt (F := F)) (V c (Pipeline.arrRef spec4 0)) (V c (Pipeline.arrRef spec4 1)) (V c (Pipeline.arrRef spec4 2))
        (V c (Pipeline.arrRef spec4 3)) (V c (Pipeline.arrRef spec4 4))) := by
  show win4_0.cut (grid4.coords t) (win4_0.fill (grid4.coords t) zf4 (out4 V c t)) = _
  rw [Window.cut_fill]; rfl

/-- Region 4 leaves the combination in its result array, -/
theorem final4 (c : Dev nD) : (dat4 V c).arrAt 5 cfg4.N
    = combA (kdt (F := F)) (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed4 V c t) cover4

/-- and its operand arrays as it found them. -/
theorem kept4 (c : Dev nD) (w : Fin cfg4.W) (hw : w ≠ 5) : (dat4 V c).arrAt w cfg4.N = V c (Pipeline.arrRef spec4 w) := by
  match w, hw with
  | ⟨0, _⟩, _ => exact ((dat4 V c).arrAt_in 0 rfl _).trans (A_eq4 V c 0)
  | ⟨1, _⟩, _ => exact ((dat4 V c).arrAt_in 1 rfl _).trans (A_eq4 V c 1)
  | ⟨2, _⟩, _ => exact ((dat4 V c).arrAt_in 2 rfl _).trans (A_eq4 V c 2)
  | ⟨3, _⟩, _ => exact ((dat4 V c).arrAt_in 3 rfl _).trans (A_eq4 V c 3)
  | ⟨4, _⟩, _ => exact ((dat4 V c).arrAt_in 4 rfl _).trans (A_eq4 V c 4)
  | ⟨5, _⟩, h => exact absurd rfl h

end Cert.Kernel.Reg

end
-- ==== Proof.K.PData.lean ====
/-
  The five regions' proof data as one family, each at the buffers' contents its region is entered from, and what
  rides beside the buffers between the items of @main.
-/
import proofs.«402448_j34849364639903_1_alg».proof.Proof.K.Final0
import proofs.«402448_j34849364639903_1_alg».proof.Proof.K.Final1
import proofs.«402448_j34849364639903_1_alg».proof.Proof.K.Final2
import proofs.«402448_j34849364639903_1_alg».proof.Proof.K.Final3
import proofs.«402448_j34849364639903_1_alg».proof.Proof.K.Final4
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region K is entered from, read at the TensorCore's references. -/
abbrev E0 (c : Dev nD) (b : Ref sig .tc) : Buf (Elt F) ((c : Thread nD τ).loc b) := V4 m c b
abbrev E1 (c : Dev nD) (b : Ref sig .tc) : Buf (Elt F) ((c : Thread nD τ).loc b) := V6 m (outs m) c b
abbrev E2 (c : Dev nD) (b : Ref sig .tc) : Buf (Elt F) ((c : Thread nD τ).loc b) := V11 m (outs m) c b
abbrev E3 (c : Dev nD) (b : Ref sig .tc) : Buf (Elt F) ((c : Thread nD τ).loc b) := V13 m (outs m) c b
abbrev E4 (c : Dev nD) (b : Ref sig .tc) : Buf (Elt F) ((c : Thread nD τ).loc b) := V15 m (outs m) c b

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

/-- The closed forms respect equal operands. -/
theorem ediffA_congr {a a' b b' l l' : S62500x128.Idx → Elt F .f32} (ha : a = a') (hb : b = b') (hl : l = l') :
    ediffA a b l = ediffA a' b' l' := by subst ha; subst hb; subst hl; rfl
theorem combA_congr (k : F .f32) {u u' u1 u1' du du' d2u d2u' mk mk' : S31250x128.Idx → Elt F .f32}
    (h0 : u = u') (h1 : u1 = u1') (h2 : du = du') (h3 : d2u = d2u') (h4 : mk = mk') :
    combA k u u1 du d2u mk = combA k u' u1' du' d2u' mk' := by subst h0; subst h1; subst h2; subst h3; subst h4; rfl

/-- After a region its result buffer holds the closed form. -/
theorem U5_out (c : Dev nD) : U5 m c main_v19 = o5 m c := by unfold U5; exact Function.update_self _ _ _
theorem U7_out (c : Dev nD) : U7 m c main_v26 = o7 m c := by unfold U7; exact Function.update_self _ _ _
theorem U12_out (c : Dev nD) : U12 m c main_v33 = o12 m c := by unfold U12; exact Function.update_self _ _ _
theorem U14_out (c : Dev nD) : U14 m c main_v40 = o14 m c := by unfold U14; exact Function.update_self _ _ _
theorem U16_out (c : Dev nD) : U16 m c main_v47 = o16 m c := by unfold U16; exact Function.update_self _ _ _

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.Kernel.Reg

end
-- ==== Proof.K.Reg0.lean ====
/-
  Region 0 as a segment of @main. It is entered from every unscoped buffer at the contents the host stretches
  before it leave, and left with its result array at the entrywise quotient and every other buffer as entered. Its
  arrays are split out of the unscoped buffers at entry and put back at exit; the generator register goes into the
  region's invariant and comes back; nothing is owed; the kernel has no semaphore of its own.
-/
import proofs.«402448_j34849364639903_1_alg».proof.Proof.K.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 0 is left with, read at the TensorCore's references. -/
abbrev X0 (c : Dev nD) (b : Ref sig .tc) : Buf (Elt F) ((c : Thread nD τ).loc b) := V5 m (outs m) c b

/-- The entrywise quotient of the operands as entered is what the exit valuation holds in the result buffer. -/
theorem out_eq0 (c : Dev nD) :
    ediffA (E0 m c (Pipeline.arrRef spec0 0)) (E0 m c (Pipeline.arrRef spec0 1)) (E0 m c (Pipeline.arrRef spec0 2))
      = X0 m c (Pipeline.arrRef spec0 3) :=
  (U5_out m c).symm.trans (congrFun (V5_eq m c) _).symm

set_option maxHeartbeats 2000000 in
/-- At the exit each of the region's arrays holds what the pipeline leaves: the operands as entered, the result at
    the entrywise quotient. -/
theorem hF0 (c : Dev nD) (w : Fin cfg0.W) : (pdats m 0 c).arrAt w cfg0.N = X0 m c (Pipeline.arrRef spec0 w) := by
  match w with
  | ⟨0, _⟩ => exact (kept0 (E0 m) c 0 (by decide)).trans (V5_of m (outs m) c _ (by decide)).symm
  | ⟨1, _⟩ => exact (kept0 (E0 m) c 1 (by decide)).trans (V5_of m (outs m) c _ (by decide)).symm
  | ⟨2, _⟩ => exact (kept0 (E0 m) c 2 (by decide)).trans (V5_of m (outs m) c _ (by decide)).symm
  | ⟨3, _⟩ => exact (final0 (E0 m) c).trans (out_eq0 m c)

/-- Every other buffer is as entered. -/
theorem hrest0 (c : Dev nD) : ∀ b, b ∉ Finset.univ.image (Pipeline.arrRef spec0) → X0 m c b = E0 m c b := fun b hb =>
  V5_of m (outs m) c b (by
    intro h; rw [List.mem_singleton] at h; subst h
    exact hb (Finset.mem_image.mpr ⟨3, Finset.mem_univ _, rfl⟩))

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := body_obligation0 (E0 m) c
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg1.lean ====
/-
  Region 1 as a segment of @main. It is entered from every unscoped buffer at the contents the host stretches
  before it leave, and left with its result array at the entrywise quotient by the maximum with one and every other buffer as entered. Its
  arrays are split out of the unscoped buffers at entry and put back at exit; the generator register goes into the
  region's invariant and comes back; nothing is owed; the kernel has no semaphore of its own.
-/
import proofs.«402448_j34849364639903_1_alg».proof.Proof.K.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 1 is left with, read at the TensorCore's references. -/
abbrev X1 (c : Dev nD) (b : Ref sig .tc) : Buf (Elt F) ((c : Thread nD τ).loc b) := V7 m (outs m) c b

/-- The entrywise quotient by the maximum with one by the maximum with one of the operands as entered is what the exit valuation holds in the result buffer. -/
theorem out_eq1 (c : Dev nD) :
    finA (E1 m c (Pipeline.arrRef spec1 0)) (E1 m c (Pipeline.arrRef spec1 1))
      = X1 m c (Pipeline.arrRef spec1 2) :=
  (congrArg₂ finA (congrFun (V6_eq m c) _) (congrFun (V6_eq m c) _)).trans
    ((U7_out m c).symm.trans (congrFun (V7_eq m c) _).symm)

set_option maxHeartbeats 2000000 in
/-- At the exit each of the region's arrays holds what the pipeline leaves: the operands as entered, the result at
    the entrywise quotient by the maximum with one by the maximum with one. -/
theorem hF1 (c : Dev nD) (w : Fin cfg1.W) : (pdats m 1 c).arrAt w cfg1.N = X1 m c (Pipeline.arrRef spec1 w) := by
  match w with
  | ⟨0, _⟩ => exact (kept1 (E1 m) c 0 (by decide)).trans (V7_of m (outs m) c _ (by decide)).symm
  | ⟨1, _⟩ => exact (kept1 (E1 m) c 1 (by decide)).trans (V7_of m (outs m) c _ (by decide)).symm
  | ⟨2, _⟩ => exact (final1 (E1 m) c).trans (out_eq1 m c)

/-- Every other buffer is as entered. -/
theorem hrest1 (c : Dev nD) : ∀ b, b ∉ Finset.univ.image (Pipeline.arrRef spec1) → X1 m c b = E1 m c b := fun b hb =>
  V7_of m (outs m) c b (by
    intro h; rw [List.mem_singleton] at h; subst h
    exact hb (Finset.mem_image.mpr ⟨2, Finset.mem_univ _, rfl⟩))

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := body_obligation1 (E1 m) c
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg2.lean ====
/-
  Region 2 as a segment of @main. It is entered from every unscoped buffer at the contents the host stretches
  before it leave, and left with its result array at the entrywise quotient and every other buffer as entered. Its
  arrays are split out of the unscoped buffers at entry and put back at exit; the generator register goes into the
  region's invariant and comes back; nothing is owed; the kernel has no semaphore of its own.
-/
import proofs.«402448_j34849364639903_1_alg».proof.Proof.K.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 2 is left with, read at the TensorCore's references. -/
abbrev X2 (c : Dev nD) (b : Ref sig .tc) : Buf (Elt F) ((c : Thread nD τ).loc b) := V12 m (outs m) c b

/-- The entrywise quotient of the operands as entered is what the exit valuation holds in the result buffer. -/
theorem out_eq2 (c : Dev nD) :
    ediffA (E2 m c (Pipeline.arrRef spec2 0)) (E2 m c (Pipeline.arrRef spec2 1)) (E2 m c (Pipeline.arrRef spec2 2))
      = X2 m c (Pipeline.arrRef spec2 3) :=
  (ediffA_congr (congrFun (V11_eq m c) _) (congrFun (V11_eq m c) _) (congrFun (V11_eq m c) _)).trans
    ((U12_out m c).symm.trans (congrFun (V12_eq m c) _).symm)

set_option maxHeartbeats 2000000 in
/-- At the exit each of the region's arrays holds what the pipeline leaves: the operands as entered, the result at
    the entrywise quotient. -/
theorem hF2 (c : Dev nD) (w : Fin cfg2.W) : (pdats m 2 c).arrAt w cfg2.N = X2 m c (Pipeline.arrRef spec2 w) := by
  match w with
  | ⟨0, _⟩ => exact (kept2 (E2 m) c 0 (by decide)).trans (V12_of m (outs m) c _ (by decide)).symm
  | ⟨1, _⟩ => exact (kept2 (E2 m) c 1 (by decide)).trans (V12_of m (outs m) c _ (by decide)).symm
  | ⟨2, _⟩ => exact (kept2 (E2 m) c 2 (by decide)).trans (V12_of m (outs m) c _ (by decide)).symm
  | ⟨3, _⟩ => exact (final2 (E2 m) c).trans (out_eq2 m c)

/-- Every other buffer is as entered. -/
theorem hrest2 (c : Dev nD) : ∀ b, b ∉ Finset.univ.image (Pipeline.arrRef spec2) → X2 m c b = E2 m c b := fun b hb =>
  V12_of m (outs m) c b (by
    intro h; rw [List.mem_singleton] at h; subst h
    exact hb (Finset.mem_image.mpr ⟨3, Finset.mem_univ _, rfl⟩))

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := body_obligation2 (E2 m) c
  hwaits := Pipeline.hwaits_of_owed_zero _ _ _ _ L lv 2 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg3.lean ====
/-
  Region 3 as a segment of @main. It is entered from every unscoped buffer at the contents the host stretches
  before it leave, and left with its result array at the entrywise quotient by the maximum with one and every other buffer as entered. Its
  arrays are split out of the unscoped buffers at entry and put back at exit; the generator register goes into the
  region's invariant and comes back; nothing is owed; the kernel has no semaphore of its own.
-/
import proofs.«402448_j34849364639903_1_alg».proof.Proof.K.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 3 is left with, read at the TensorCore's references. -/
abbrev X3 (c : Dev nD) (b : Ref sig .tc) : Buf (Elt F) ((c : Thread nD τ).loc b) := V14 m (outs m) c b

/-- The entrywise quotient by the maximum with one by the maximum with one of the operands as entered is what the exit valuation holds in the result buffer. -/
theorem out_eq3 (c : Dev nD) :
    finA (E3 m c (Pipeline.arrRef spec3 0)) (E3 m c (Pipeline.arrRef spec3 1))
      = X3 m c (Pipeline.arrRef spec3 2) :=
  (congrArg₂ finA (congrFun (V13_eq m c) _) (congrFun (V13_eq m c) _)).trans
    ((U14_out m c).symm.trans (congrFun (V14_eq m c) _).symm)

set_option maxHeartbeats 2000000 in
/-- At the exit each of the region's arrays holds what the pipeline leaves: the operands as entered, the result at
    the entrywise quotient by the maximum with one by the maximum with one. -/
theorem hF3 (c : Dev nD) (w : Fin cfg3.W) : (pdats m 3 c).arrAt w cfg3.N = X3 m c (Pipeline.arrRef spec3 w) := by
  match w with
  | ⟨0, _⟩ => exact (kept3 (E3 m) c 0 (by decide)).trans (V14_of m (outs m) c _ (by decide)).symm
  | ⟨1, _⟩ => exact (kept3 (E3 m) c 1 (by decide)).trans (V14_of m (outs m) c _ (by decide)).symm
  | ⟨2, _⟩ => exact (final3 (E3 m) c).trans (out_eq3 m c)

/-- Every other buffer is as entered. -/
theorem hrest3 (c : Dev nD) : ∀ b, b ∉ Finset.univ.image (Pipeline.arrRef spec3) → X3 m c b = E3 m c b := fun b hb =>
  V14_of m (outs m) c b (by
    intro h; rw [List.mem_singleton] at h; subst h
    exact hb (Finset.mem_image.mpr ⟨2, Finset.mem_univ _, rfl⟩))

set_option backward.isDefEq.respectTransparency.types false in
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := body_obligation3 (E3 m) c
  hwaits := Pipeline.hwaits_of_owed_zero _ _ _ _ L lv 3 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Reg4.lean ====
/-
  Region 4 as a segment of @main. It is entered from every unscoped buffer at the contents the host stretches
  before it leave, and left with its result array at the entrywise combination and every other buffer as entered. Its
  arrays are split out of the unscoped buffers at entry and put back at exit; the generator register goes into the
  region's invariant and comes back; nothing is owed; the kernel has no semaphore of its own.
-/
import proofs.«402448_j34849364639903_1_alg».proof.Proof.K.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers region 4 is left with, read at the TensorCore's references. -/
abbrev X4 (c : Dev nD) (b : Ref sig .tc) : Buf (Elt F) ((c : Thread nD τ).loc b) := V16 m (outs m) c b

/-- The entrywise combination of the operands as entered is what the exit valuation holds in the result buffer. -/
theorem out_eq4 (c : Dev nD) :
    combA (kdt (F := F)) (E4 m c (Pipeline.arrRef spec4 0)) (E4 m c (Pipeline.arrRef spec4 1)) (E4 m c (Pipeline.arrRef spec4 2)) (E4 m c (Pipeline.arrRef spec4 3)) (E4 m c (Pipeline.arrRef spec4 4))
      = X4 m c (Pipeline.arrRef spec4 5) :=
  (combA_congr _ (congrFun (V15_eq m c) _) (congrFun (V15_eq m c) _) (congrFun (V15_eq m c) _) (congrFun (V15_eq m c) _) (congrFun (V15_eq m c) _)).trans
    ((U16_out m c).symm.trans (congrFun (V16_eq m c) _).symm)

set_option maxHeartbeats 2000000 in
/-- At the exit each of the region's arrays holds what the pipeline leaves: the operands as entered, the result at
    the entrywise combination. -/
theorem hF4 (c : Dev nD) (w : Fin cfg4.W) : (pdats m 4 c).arrAt w cfg4.N = X4 m c (Pipeline.arrRef spec4 w) := by
  match w with
  | ⟨0, _⟩ => exact (kept4 (E4 m) c 0 (by decide)).trans (V16_of m (outs m) c _ (by decide)).symm
  | ⟨1, _⟩ => exact (kept4 (E4 m) c 1 (by decide)).trans (V16_of m (outs m) c _ (by decide)).symm
  | ⟨2, _⟩ => exact (kept4 (E4 m) c 2 (by decide)).trans (V16_of m (outs m) c _ (by decide)).symm
  | ⟨3, _⟩ => exact (kept4 (E4 m) c 3 (by decide)).trans (V16_of m (outs m) c _ (by decide)).symm
  | ⟨4, _⟩ => exact (kept4 (E4 m) c 4 (by decide)).trans (V16_of m (outs m) c _ (by decide)).symm
  | ⟨5, _⟩ => exact (final4 (E4 m) c).trans (out_eq4 m c)

/-- Every other buffer is as entered. -/
theorem hrest4 (c : Dev nD) : ∀ b, b ∉ Finset.univ.image (Pipeline.arrRef spec4) → X4 m c b = E4 m c b := fun b hb =>
  V16_of m (outs m) c b (by
    intro h; rw [List.mem_singleton] at h; subst h
    exact hb (Finset.mem_image.mpr ⟨5, Finset.mem_univ _, rfl⟩))

set_option backward.isDefEq.respectTransparency.types false in
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := body_obligation4 (E4 m) c
  hwaits := Pipeline.hwaits_of_owed_zero _ _ _ _ L lv 4 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.K.Frame.lean ====
/-
  The run of @main: from any memory with zero counters every weakly fair execution terminates, the result array ends
  holding the closed-form contents of the last valuation, and the arguments end as launched. The launch deals every
  core its generator register and no dues, which ride beside the buffers through all seventeen items; the five
  regions' records chain from the launch valuation to the last.
-/
import proofs.«402448_j34849364639903_1_alg».proof.Proof.K.Reg0
import proofs.«402448_j34849364639903_1_alg».proof.Proof.K.Reg1
import proofs.«402448_j34849364639903_1_alg».proof.Proof.K.Reg2
import proofs.«402448_j34849364639903_1_alg».proof.Proof.K.Reg3
import proofs.«402448_j34849364639903_1_alg».proof.Proof.K.Reg4
import proofs.«402448_j34849364639903_1_alg».proof.Proof.K.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The launch element: every staging cell's owner at round 0 and a duty token for every transfer the pipelines issue. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: the register, and nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE5 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- THE RUN, the result named. -/
theorem run_main (ρ : Dev nD → PrngReg) :
    θ_run defs (onTc (τ := τ) (main (F := F))) ⟨m, fun _ => 0, ρ⟩ (fun r => ∀ c : Dev nD,
      r.2.mem ((c.tc : Thread nD τ).loc main_v48) = U17 m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (congrFun (V17_eq m c) _), (h c).2⟩)
    (run_cond m emb₁ () Variants.none L lv (fun _ _ => rfl) ρ (outs m) (pdats m) 0 (fun _ => (BI.emp : sProp 𝕄)) u₀ (hu₀ (F := F))
      (fun _ c => R (F := F) c) (hE0 (F := F) ρ) (hE5 (F := F))
      (reg0 m) (fun _ => .rfl) (fun _ => .rfl) (reg1 m) (fun _ => .rfl) (fun _ => .rfl)
      (reg2 m) (fun _ => .rfl) (fun _ => .rfl) (reg3 m) (fun _ => .rfl) (fun _ => .rfl)
      (reg4 m) (fun _ => .rfl) (fun _ => .rfl))

/-- THE FRAME: the arguments end as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.Kernel.Reg

end
-- ==== Proof.KI.Body0.lean ====
/-
  Region 0 of the idealized kernel's @main: the edge differences (v[dst] − v[src]) / len over the edge arrays laid
  out in rows of 128, eight blocks of 8192 rows of which the last overhangs the array by 3036 rows. What each
  staging buffer holds after the body at each point, on the rows inside the array; and the body's obligation:
  the payload is computed entry by entry, so filled blocks in give the filled quotient out.
-/
import proofs.«402448_j34849364639903_1_alg».proof.Proof.Gen.KernelIdeal.Launch
import proofs.«402448_j34849364639903_1_alg».proof.Proof.Gen.KernelIdeal.Points
import proofs.«402448_j34849364639903_1_alg».proof.Proof.Gen.KernelIdeal.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 0: the edge differences, (dst − src) / len, block by block -/

/-- The body's one payload is pointwise. -/
theorem pay0_apply (x0 x1 x2 : Vec F S8192x128 .f32) :
    k0_pay1 x0 x1 x2 = fun j => FloatOps.divf (FloatOps.subf (x0 j) (x1 j)) (x2 j) := by
  unfold k0_pay1; simp only [shapeCast_self]; rfl

/-- Window w's block at point t: the part inside the array. -/
def blk0_0 (c : Dev nD) (t : Fin cfg0.N) : (win0_0.xblock (grid0.coords t)).Idx → Elt F .f32 :=
  (win0_0.blk t).view.read (Elt F) (V c (Pipeline.arrRef spec0 0))
def blk0_1 (c : Dev nD) (t : Fin cfg0.N) : (win0_0.xblock (grid0.coords t)).Idx → Elt F .f32 :=
  (win0_1.blk t).view.read (Elt F) (V c (Pipeline.arrRef spec0 1))
def blk0_2 (c : Dev nD) (t : Fin cfg0.N) : (win0_0.xblock (grid0.coords t)).Idx → Elt F .f32 :=
  (win0_2.blk t).view.read (Elt F) (V c (Pipeline.arrRef spec0 2))
/-- The quotient of the difference, entry by entry of the blocks. -/
def out0 (c : Dev nD) (t : Fin cfg0.N) : (win0_0.xblock (grid0.coords t)).Idx → Elt F .f32 :=
  fun j => FloatOps.divf (FloatOps.subf (blk0_0 V c t j) (blk0_1 V c t j)) (blk0_2 V c t j)

/-- The filler past the array's end: nothing reads it. -/
def zf0 : S8192x128.Idx → Elt F .f32 := fun _ => Scalar.ofBits .f32 0#32

def dat0 (c : Dev nD) : Dat τ (Elt F) Unit ℕ (UR sig nD τ) ℕ cfg0 c where
  A w := V c (Pipeline.arrRef spec0 w)
  after w t := match w with
    | ⟨0, _⟩ => win0_0.fill (grid0.coords t) zf0 (blk0_0 V c t)
    | ⟨1, _⟩ => win0_0.fill (grid0.coords t) zf0 (blk0_1 V c t)
    | ⟨2, _⟩ => win0_0.fill (grid0.coords t) zf0 (blk0_2 V c t)
    | ⟨3, _⟩ => win0_0.fill (grid0.coords t) zf0 (out0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) :
    (dat0 V c).before (0 : Fin 4) t d = win0_0.fill (grid0.coords t) d (blk0_0 V c t) := by
  unfold Dat.before; rw [if_pos (fetch0_0 t)]; rfl
theorem before0_1 (c : Dev nD) (t : Fin cfg0.N) (d) :
    (dat0 V c).before (1 : Fin 4) t d = win0_0.fill (grid0.coords t) d (blk0_1 V c t) := by
  unfold Dat.before; rw [if_pos (fetch0_1 t)]; rfl
theorem before0_2 (c : Dev nD) (t : Fin cfg0.N) (d) :
    (dat0 V c).before (2 : Fin 4) t d = win0_0.fill (grid0.coords t) d (blk0_2 V c t) := by
  unfold Dat.before; rw [if_pos (fetch0_2 t)]; rfl

set_option maxHeartbeats 1000000 in
theorem sound_kernel0 (c : Dev nD) (E : Set ℕ) (i : grid0.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__edge_diff_kernel i arg1 harg1 arg2 harg2 arg3 harg3 arg4 harg4) K := by
  simp only [cc0__edge_diff_kernel_eq_skeleton]; unfold cc0__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay0_fill (i : grid0.Coords) (d0 d1 d2 : S8192x128.Idx → Elt F .f32) (b0 b1 b2 : (win0_0.xblock i).Idx → Elt F .f32) :
    k0_pay1 (win0_0.fill i d0 b0) (win0_0.fill i d1 b1) (win0_0.fill i d2 b2)
      = win0_0.fill i (k0_pay1 d0 d1 d2) (fun j => FloatOps.divf (FloatOps.subf (b0 j) (b1 j)) (b2 j)) := by
  rw [pay0_apply, pay0_apply]; funext j; unfold Window.fill; split <;> rfl

theorem body_obligation0 (c : Dev nD) : BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2]
  iapply (sound_kernel0 (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_0.fill (grid0.coords t) d0 (blk0_0 V c t)) (win0_0.fill (grid0.coords t) d1 (blk0_1 V c t))
    (win0_0.fill (grid0.coords t) d2 (blk0_2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [pay0_fill]
  isplitl [H0]
  · iexists d0
    change _ ⊢ owns (c : Thread nD τ) (st0_0 t) fullShare (win0_0.fill (grid0.coords t) d0 (win0_0.cut (grid0.coords t) (win0_0.fill (grid0.coords t) zf0 (blk0_0 V c t))))
    rw [Window.cut_fill]; try iexact H0
  isplitl [H1]
  · iexists d1
    change _ ⊢ owns (c : Thread nD τ) (st0_1 t) fullShare (win0_0.fill (grid0.coords t) d1 (win0_0.cut (grid0.coords t) (win0_0.fill (grid0.coords t) zf0 (blk0_1 V c t))))
    rw [Window.cut_fill]; try iexact H1
  isplitl [H2]
  · iexists d2
    change _ ⊢ owns (c : Thread nD τ) (st0_2 t) fullShare (win0_0.fill (grid0.coords t) d2 (win0_0.cut (grid0.coords t) (win0_0.fill (grid0.coords t) zf0 (blk0_2 V c t))))
    rw [Window.cut_fill]; try iexact H2
  · iexists k0_pay1 d0 d1 d2
    change _ ⊢ owns (c : Thread nD τ) (st0_3 t) fullShare (win0_0.fill (grid0.coords t) (k0_pay1 d0 d1 d2) (win0_0.cut (grid0.coords t) (win0_0.fill (grid0.coords t) zf0 (out0 V c t))))
    rw [Window.cut_fill]; exact BI.Entails.refl _

end Cert.KernelIdeal.Reg
end
-- ==== Proof.KI.Chain.lean ====
/-
  The contents of the idealized kernel's unscoped buffers between the items of @main, in closed form:
  each host stretch applied in turn, and after each kernel region its one result array at the
  entrywise function of its operand arrays that the region computes — the quotient of a difference
  (regions 0 and 2), a quotient by a maximum with one (regions 1 and 3), and the weighted combination
  times the mask (region 4). No program logic here: only what the arrays hold.
-/
import proofs.«402448_j34849364639903_1_alg».proof.Proof.Gen.KernelIdeal.Regions

noncomputable section

namespace Cert.KernelIdeal.Reg

open Cert.KernelIdeal Cert.KernelIdeal.Gen
open Idealize.ShloMosaic Idealize.ShloMosaic.TcCoe

variable {F : FTy → Type} [FloatOps F] [Named F]

/-- (a − b) / l, entry by entry, over the edge arrays laid out in rows of 128. -/
def ediffA (a b l : S62500x128.Idx → Elt F .f32) : S62500x128.Idx → Elt F .f32 :=
  fun i => FloatOps.divf (FloatOps.subf (a i) (b i)) (l i)

/-- s / max(n, 1), entry by entry, over the node arrays laid out in rows of 128. -/
def finA (s n : S31250x128.Idx → Elt F .f32) : S31250x128.Idx → Elt F .f32 :=
  fun i => FloatOps.divf (s i) (FloatOps.maximumf (n i) (Scalar.ofBits .f32 0x3F800000#32))

/-- ((u − u₁)·k + du·u₁ − 0.01·d2u)·mask, entry by entry, with k the body's scale constant. -/
def combA (k : F .f32) (u u1 du d2u mk : S31250x128.Idx → Elt F .f32) : S31250x128.Idx → Elt F .f32 :=
  fun i => FloatOps.mulf
    (FloatOps.subf (FloatOps.addf (FloatOps.mulf (FloatOps.subf (u i) (u1 i)) k) (FloatOps.mulf (du i) (u1 i)))
      (FloatOps.mulf (Scalar.ofBits .f32 0x3C23D70A#32) (d2u i)))
    (mk i)

variable (m : (ℓ : Loc nD τ sig) → Buf (Elt F) ℓ)

/-- The body's scale constant of region 4, as the program spells it. -/
def kdt : F .f32 := Named.named κ "inv_dt" 0x42C80000#32

/-- Region 0's result array. -/
def o5 (c : Dev nD) : Buf (Elt F) ((c : Thread nD τ).loc main_v19) :=
  ediffA (V4 m c main_v16) (V4 m c main_v17) (V4 m c main_v18)
/-- The buffers after region 0, -/
def U5 (c : Dev nD) : Valuation τ sig (Elt F) := Function.update (V4 m c) main_v19 (o5 m c)
/-- after the scatter-add of the differences and the reshapes, -/
def U6 (c : Dev nD) : Valuation τ sig (Elt F) := StableHlo.after hostOps1 (U5 m c)
/-- region 1's result array, -/
def o7 (c : Dev nD) : Buf (Elt F) ((c : Thread nD τ).loc main_v26) := finA (U6 m c main_v24) (U6 m c main_v25)
def U7 (c : Dev nD) : Valuation τ sig (Elt F) := Function.update (U6 m c) main_v26 (o7 m c)
def U8 (c : Dev nD) : Valuation τ sig (Elt F) := StableHlo.after hostOps2 (U7 m c)
def U9 (c : Dev nD) : Valuation τ sig (Elt F) := StableHlo.after hostOps2_1 (U8 m c)
def U10 (c : Dev nD) : Valuation τ sig (Elt F) := StableHlo.after hostOps2_2 (U9 m c)
def U11 (c : Dev nD) : Valuation τ sig (Elt F) := StableHlo.after hostOps2_3 (U10 m c)
/-- region 2's, -/
def o12 (c : Dev nD) : Buf (Elt F) ((c : Thread nD τ).loc main_v33) :=
  ediffA (U11 m c main_v30) (U11 m c main_v31) (U11 m c main_v32)
def U12 (c : Dev nD) : Valuation τ sig (Elt F) := Function.update (U11 m c) main_v33 (o12 m c)
def U13 (c : Dev nD) : Valuation τ sig (Elt F) := StableHlo.after hostOps3 (U12 m c)
/-- region 3's, -/
def o14 (c : Dev nD) : Buf (Elt F) ((c : Thread nD τ).loc main_v40) := finA (U13 m c main_v38) (U13 m c main_v39)
def U14 (c : Dev nD) : Valuation τ sig (Elt F) := Function.update (U13 m c) main_v40 (o14 m c)
def U15 (c : Dev nD) : Valuation τ sig (Elt F) := StableHlo.after hostOps4 (U14 m c)
/-- and region 4's. -/
def o16 (c : Dev nD) : Buf (Elt F) ((c : Thread nD τ).loc main_v47) :=
  combA (kdt (F := F)) (U15 m c main_v42) (U15 m c main_v43) (U15 m c main_v44) (U15 m c main_v45) (U15 m c main_v46)
def U16 (c : Dev nD) : Valuation τ sig (Elt F) := Function.update (U15 m c) main_v47 (o16 m c)
/-- The buffers at the return. -/
def U17 (c : Dev nD) : Valuation τ sig (Elt F) := StableHlo.after hostOps5 (U16 m c)

/-- What the regions leave, as the conditional frame's unknowns. -/
def outs : Outs (F := F) := fun J r c =>
  match J with
  | 5 => U5 m c r
  | 7 => U7 m c r
  | 12 => U12 m c r
  | 14 => U14 m c r
  | _ => U16 m c r

theorem V5_eq (c : Dev nD) : V5 m (outs m) c = U5 m c := by
  show Function.update (V4 m c) main_v19 (Function.update (V4 m c) main_v19 (o5 m c) main_v19) = _
  rw [Function.update_self]; rfl
theorem V6_eq (c : Dev nD) : V6 m (outs m) c = U6 m c := congrArg (StableHlo.after hostOps1) (V5_eq m c)
theorem V7_eq (c : Dev nD) : V7 m (outs m) c = U7 m c := by
  show Function.update (V6 m (outs m) c) main_v26 (Function.update (U6 m c) main_v26 (o7 m c) main_v26) = _
  rw [Function.update_self, V6_eq]; rfl
theorem V8_eq (c : Dev nD) : V8 m (outs m) c = U8 m c := congrArg (StableHlo.after hostOps2) (V7_eq m c)
theorem V9_eq (c : Dev nD) : V9 m (outs m) c = U9 m c := congrArg (StableHlo.after hostOps2_1) (V8_eq m c)
theorem V10_eq (c : Dev nD) : V10 m (outs m) c = U10 m c := congrArg (StableHlo.after hostOps2_2) (V9_eq m c)
theorem V11_eq (c : Dev nD) : V11 m (outs m) c = U11 m c := congrArg (StableHlo.after hostOps2_3) (V10_eq m c)
theorem V12_eq (c : Dev nD) : V12 m (outs m) c = U12 m c := by
  show Function.update (V11 m (outs m) c) main_v33 (Function.update (U11 m c) main_v33 (o12 m c) main_v33) = _
  rw [Function.update_self, V11_eq]; rfl
theorem V13_eq (c : Dev nD) : V13 m (outs m) c = U13 m c := congrArg (StableHlo.after hostOps3) (V12_eq m c)
theorem V14_eq (c : Dev nD) : V14 m (outs m) c = U14 m c := by
  show Function.update (V13 m (outs m) c) main_v40 (Function.update (U13 m c) main_v40 (o14 m c) main_v40) = _
  rw [Function.update_self, V13_eq]; rfl
theorem V15_eq (c : Dev nD) : V15 m (outs m) c = U15 m c := congrArg (StableHlo.after hostOps4) (V14_eq m c)
theorem V16_eq (c : Dev nD) : V16 m (outs m) c = U16 m c := by
  show Function.update (V15 m (outs m) c) main_v47 (Function.update (U15 m c) main_v47 (o16 m c) main_v47) = _
  rw [Function.update_self, V15_eq]; rfl
theorem V17_eq (c : Dev nD) : V17 m (outs m) c = U17 m c := congrArg (StableHlo.after hostOps5) (V16_eq m c)

end Cert.KernelIdeal.Reg

end
-- ==== Proof.KI.Final0.lean ====
/-
  Region 0's result array in closed form. Each point writes back, cut at the array's end, the quotient block of
  its three operand blocks; a block of an entrywise function of whole arrays is that function of the blocks;
  and the eight row ranges 0‥8191, …, 57344‥62499 are all the array's rows. So the array ends holding
  (a − b) / l entry by entry.
-/
import proofs.«402448_j34849364639903_1_alg».proof.Proof.KI.Body0
import proofs.«402448_j34849364639903_1_alg».proof.Proof.KI.Chain

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The output window's row ranges: point t covers rows 8192·t up to 8192·t + 8192, cut at 62500; every lane. -/
theorem idx_facts0 : ∀ t : Fin grid0.N, win0_3.index t 0 * win0_3.size 0 = t.val * 8192
    ∧ (t.val < 7 → win0_3.xsize (grid0.coords t) 0 = 8192) ∧ (t.val = 7 → win0_3.xsize (grid0.coords t) 0 = 5156)
    ∧ win0_3.index t 1 * win0_3.size 1 = 0 ∧ win0_3.xsize (grid0.coords t) 1 = 128 := by decide +kernel

theorem mem_blk0 (t : Fin cfg0.N) (i : S62500x128.Idx) :
    i ∈ ((cfg0.win 3).blk t).view.set
      ↔ t.val * 8192 ≤ (i 0 : Nat) ∧ (i 0 : Nat) < t.val * 8192 + win0_3.xsize (grid0.coords t) 0 := by
  show i ∈ ((View.whole main_v19).slice (win0_3.rect t)).set ↔ _
  rw [View.set_slice_whole, Rect.mem_set_unit]
  obtain ⟨e0, _, _, e2, e3⟩ := idx_facts0 t
  have h1 : (i 1 : Nat) < 128 := (i 1).isLt
  constructor
  · intro h
    have h0 := h 0
    change win0_3.index t 0 * win0_3.size 0 ≤ (i 0 : Nat) ∧ (i 0 : Nat) < win0_3.index t 0 * win0_3.size 0 + win0_3.xsize (grid0.coords t) 0 at h0
    rw [e0] at h0; exact h0
  · intro h a
    match a with
    | ⟨0, _⟩ =>
      change win0_3.index t 0 * win0_3.size 0 ≤ (i 0 : Nat) ∧ (i 0 : Nat) < win0_3.index t 0 * win0_3.size 0 + win0_3.xsize (grid0.coords t) 0
      rw [e0]; exact h
    | ⟨1, _⟩ =>
      change win0_3.index t 1 * win0_3.size 1 ≤ (i 1 : Nat) ∧ (i 1 : Nat) < win0_3.index t 1 * win0_3.size 1 + win0_3.xsize (grid0.coords t) 1
      rw [e2, e3]; omega

theorem cover0 (i : S62500x128.Idx) :
    ∃ t : Fin cfg0.N, (cfg0.win 3).flush t = true ∧ i ∈ ((cfg0.win 3).blk t).view.set := by
  have h : (i 0 : Nat) < 62500 := (i 0).isLt
  have hN : cfg0.N = 8 := rfl
  refine ⟨⟨(i 0 : Nat) / 8192, by rw [hN]; omega⟩, flush0_3 _, ?_⟩
  rw [mem_blk0]
  obtain ⟨_, ex, ex7, _, _⟩ := idx_facts0 ⟨(i 0 : Nat) / 8192, by rw [N_0]; omega⟩
  by_cases h7 : (i 0 : Nat) / 8192 < 7
  · have := ex h7
    change win0_3.xsize (grid0.coords ⟨(i 0 : Nat) / 8192, _⟩) 0 = 8192 at this
    rw [this]; dsimp only; omega
  · have h7' : (i 0 : Nat) / 8192 = 7 := by omega
    have := ex7 h7'
    change win0_3.xsize (grid0.coords ⟨(i 0 : Nat) / 8192, _⟩) 0 = 5156 at this
    rw [this]; dsimp only; omega

/-- What a point writes back is its block of the entrywise quotient of the three whole arrays. -/
theorem flushed0 (c : Dev nD) (t : Fin cfg0.N) :
    (dat0 V c).flushed 3 t = ((cfg0.win 3).blk t).view.read (Elt F)
      (ediffA (V c (Pipeline.arrRef spec0 0)) (V c (Pipeline.arrRef spec0 1)) (V c (Pipeline.arrRef spec0 2))) := by
  show win0_0.cut (grid0.coords t) (win0_0.fill (grid0.coords t) zf0 (out0 V c t)) = _
  rw [Window.cut_fill]; rfl

/-- Region 0 leaves (a − b) / l in its result array, -/
theorem final0 (c : Dev nD) : (dat0 V c).arrAt 3 cfg0.N
    = ediffA (V c (Pipeline.arrRef spec0 0)) (V c (Pipeline.arrRef spec0 1)) (V c (Pipeline.arrRef spec0 2)) :=
  (dat0 V c).arrAt_eq_of_cover 3 _ (fun t _ => flushed0 V c t) cover0

/-- and its operand arrays as it found them. -/
theorem kept0 (c : Dev nD) (w : Fin cfg0.W) (hw : w ≠ 3) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, _ => exact ((dat0 V c).arrAt_in 2 rfl _).trans (A_eq0 V c 2)
  | ⟨3, _⟩, h => exact absurd rfl h

end Cert.KernelIdeal.Reg

end
-- ==== Proof.KI.Body1.lean ====
/-
  Region 1 of the idealized kernel's @main: the segment means sums / max(counts, 1) over the node arrays laid out in
  rows of 128, four blocks of 8192 rows of which the last overhangs the array by 1518 rows. What each staging
  buffer holds after the body at each point, on the rows inside the array; and the body's obligation: the
  payload is computed entry by entry, so filled blocks in give the filled quotient out.
-/
import proofs.«402448_j34849364639903_1_alg».proof.Proof.Gen.KernelIdeal.Launch
import proofs.«402448_j34849364639903_1_alg».proof.Proof.Gen.KernelIdeal.Points
import proofs.«402448_j34849364639903_1_alg».proof.Proof.Gen.KernelIdeal.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 1: s / max(n, 1), block by block -/

/-- The body's one payload is pointwise. -/
theorem pay1_apply (x0 x1 : Vec F S8192x128 .f32) :
    k1_pay1 x0 x1 = fun j => FloatOps.divf (x0 j) (FloatOps.maximumf (x1 j) (Scalar.ofBits .f32 0x3F800000#32)) := by
  unfold k1_pay1; simp only [shapeCast_self]; rfl

/-- Window w's block at point t: the part inside the array. -/
def blk1_0 (c : Dev nD) (t : Fin cfg1.N) : (win1_0.xblock (grid1.coords t)).Idx → Elt F .f32 :=
  (win1_0.blk t).view.read (Elt F) (V c (Pipeline.arrRef spec1 0))
def blk1_1 (c : Dev nD) (t : Fin cfg1.N) : (win1_0.xblock (grid1.coords t)).Idx → Elt F .f32 :=
  (win1_1.blk t).view.read (Elt F) (V c (Pipeline.arrRef spec1 1))
/-- The quotient by the maximum with one, entry by entry of the blocks. -/
def out1 (c : Dev nD) (t : Fin cfg1.N) : (win1_0.xblock (grid1.coords t)).Idx → Elt F .f32 :=
  fun j => FloatOps.divf (blk1_0 V c t j) (FloatOps.maximumf (blk1_1 V c t j) (Scalar.ofBits .f32 0x3F800000#32))

/-- The filler past the array's end: nothing reads it. -/
def zf1 : S8192x128.Idx → Elt F .f32 := fun _ => Scalar.ofBits .f32 0#32

def dat1 (c : Dev nD) : Dat τ (Elt F) Unit ℕ (UR sig nD τ) ℕ cfg1 c where
  A w := V c (Pipeline.arrRef spec1 w)
  after w t := match w with
    | ⟨0, _⟩ => win1_0.fill (grid1.coords t) zf1 (blk1_0 V c t)
    | ⟨1, _⟩ => win1_0.fill (grid1.coords t) zf1 (blk1_1 V c t)
    | ⟨2, _⟩ => win1_0.fill (grid1.coords t) zf1 (out1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) :
    (dat1 V c).before (0 : Fin 3) t d = win1_0.fill (grid1.coords t) d (blk1_0 V c t) := by
  unfold Dat.before; rw [if_pos (fetch1_0 t)]; rfl
theorem before1_1 (c : Dev nD) (t : Fin cfg1.N) (d) :
    (dat1 V c).before (1 : Fin 3) t d = win1_0.fill (grid1.coords t) d (blk1_1 V c t) := by
  unfold Dat.before; rw [if_pos (fetch1_1 t)]; rfl

set_option maxHeartbeats 1000000 in
theorem sound_kernel1 (c : Dev nD) (E : Set ℕ) (i : grid1.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay1_fill (i : grid1.Coords) (d0 d1 : S8192x128.Idx → Elt F .f32) (b0 b1 : (win1_0.xblock i).Idx → Elt F .f32) :
    k1_pay1 (win1_0.fill i d0 b0) (win1_0.fill i d1 b1)
      = win1_0.fill i (k1_pay1 d0 d1) (fun j => FloatOps.divf (b0 j) (FloatOps.maximumf (b1 j) (Scalar.ofBits .f32 0x3F800000#32))) := by
  rw [pay1_apply, pay1_apply]; funext j; unfold Window.fill; split <;> rfl

theorem body_obligation1 (c : Dev nD) : BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (blk1_0 V c t)) (win1_0.fill (grid1.coords t) d1 (blk1_1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [pay1_fill]
  isplitl [H0]
  · iexists d0
    change _ ⊢ owns (c : Thread nD τ) (st1_0 t) fullShare (win1_0.fill (grid1.coords t) d0 (win1_0.cut (grid1.coords t) (win1_0.fill (grid1.coords t) zf1 (blk1_0 V c t))))
    rw [Window.cut_fill]; try iexact H0
  isplitl [H1]
  · iexists d1
    change _ ⊢ owns (c : Thread nD τ) (st1_1 t) fullShare (win1_0.fill (grid1.coords t) d1 (win1_0.cut (grid1.coords t) (win1_0.fill (grid1.coords t) zf1 (blk1_1 V c t))))
    rw [Window.cut_fill]; try iexact H1
  · iexists k1_pay1 d0 d1
    change _ ⊢ owns (c : Thread nD τ) (st1_2 t) fullShare (win1_0.fill (grid1.coords t) (k1_pay1 d0 d1) (win1_0.cut (grid1.coords t) (win1_0.fill (grid1.coords t) zf1 (out1 V c t))))
    rw [Window.cut_fill]; exact BI.Entails.refl _

end Cert.KernelIdeal.Reg
end
-- ==== Proof.KI.Final1.lean ====
/-
  Region 1's result array in closed form. Each point writes back, cut at the array's end, the quotient block of
  its two operand blocks; a block of an entrywise function of whole arrays is that function of the blocks;
  and the four row ranges 0‥8191, …, 24576‥31249 are all the array's rows. So the array ends holding
  s / max(n, 1) entry by entry.
-/
import proofs.«402448_j34849364639903_1_alg».proof.Proof.KI.Body1
import proofs.«402448_j34849364639903_1_alg».proof.Proof.KI.Chain

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The output window's row ranges: point t covers rows 8192·t up to 8192·t + 8192, cut at 31250; every lane. -/
theorem idx_facts1 : ∀ t : Fin grid1.N, win1_2.index t 0 * win1_2.size 0 = t.val * 8192
    ∧ (t.val < 3 → win1_2.xsize (grid1.coords t) 0 = 8192) ∧ (t.val = 3 → win1_2.xsize (grid1.coords t) 0 = 6674)
    ∧ win1_2.index t 1 * win1_2.size 1 = 0 ∧ win1_2.xsize (grid1.coords t) 1 = 128 := by decide +kernel

theorem mem_blk1 (t : Fin cfg1.N) (i : S31250x128.Idx) :
    i ∈ ((cfg1.win 2).blk t).view.set
      ↔ t.val * 8192 ≤ (i 0 : Nat) ∧ (i 0 : Nat) < t.val * 8192 + win1_2.xsize (grid1.coords t) 0 := by
  show i ∈ ((View.whole main_v26).slice (win1_2.rect t)).set ↔ _
  rw [View.set_slice_whole, Rect.mem_set_unit]
  obtain ⟨e0, _, _, e2, e3⟩ := idx_facts1 t
  have h1 : (i 1 : Nat) < 128 := (i 1).isLt
  constructor
  · intro h
    have h0 := h 0
    change win1_2.index t 0 * win1_2.size 0 ≤ (i 0 : Nat) ∧ (i 0 : Nat) < win1_2.index t 0 * win1_2.size 0 + win1_2.xsize (grid1.coords t) 0 at h0
    rw [e0] at h0; exact h0
  · intro h a
    match a with
    | ⟨0, _⟩ =>
      change win1_2.index t 0 * win1_2.size 0 ≤ (i 0 : Nat) ∧ (i 0 : Nat) < win1_2.index t 0 * win1_2.size 0 + win1_2.xsize (grid1.coords t) 0
      rw [e0]; exact h
    | ⟨1, _⟩ =>
      change win1_2.index t 1 * win1_2.size 1 ≤ (i 1 : Nat) ∧ (i 1 : Nat) < win1_2.index t 1 * win1_2.size 1 + win1_2.xsize (grid1.coords t) 1
      rw [e2, e3]; omega

theorem cover1 (i : S31250x128.Idx) :
    ∃ t : Fin cfg1.N, (cfg1.win 2).flush t = true ∧ i ∈ ((cfg1.win 2).blk t).view.set := by
  have h : (i 0 : Nat) < 31250 := (i 0).isLt
  have hN : cfg1.N = 4 := rfl
  refine ⟨⟨(i 0 : Nat) / 8192, by rw [hN]; omega⟩, flush1_2 _, ?_⟩
  rw [mem_blk1]
  obtain ⟨_, ex, ex7, _, _⟩ := idx_facts1 ⟨(i 0 : Nat) / 8192, by rw [N_1]; omega⟩
  by_cases h7 : (i 0 : Nat) / 8192 < 3
  · have := ex h7
    change win1_2.xsize (grid1.coords ⟨(i 0 : Nat) / 8192, _⟩) 0 = 8192 at this
    rw [this]; dsimp only; omega
  · have h7' : (i 0 : Nat) / 8192 = 3 := by omega
    have := ex7 h7'
    change win1_2.xsize (grid1.coords ⟨(i 0 : Nat) / 8192, _⟩) 0 = 6674 at this
    rw [this]; dsimp only; omega

/-- What a point writes back is its block of the entrywise quotient of the two whole arrays. -/
theorem flushed1 (c : Dev nD) (t : Fin cfg1.N) :
    (dat1 V c).flushed 2 t = ((cfg1.win 2).blk t).view.read (Elt F)
      (finA (V c (Pipeline.arrRef spec1 0)) (V c (Pipeline.arrRef spec1 1))) := by
  show win1_0.cut (grid1.coords t) (win1_0.fill (grid1.coords t) zf1 (out1 V c t)) = _
  rw [Window.cut_fill]; rfl

/-- Region 1 leaves s / max(n, 1) in its result array, -/
theorem final1 (c : Dev nD) : (dat1 V c).arrAt 2 cfg1.N
    = finA (V c (Pipeline.arrRef spec1 0)) (V c (Pipeline.arrRef spec1 1)) :=
  (dat1 V c).arrAt_eq_of_cover 2 _ (fun t _ => flushed1 V c t) cover1

/-- and its operand arrays as it found them. -/
theorem kept1 (c : Dev nD) (w : Fin cfg1.W) (hw : w ≠ 2) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, h => exact absurd rfl h

end Cert.KernelIdeal.Reg

end
-- ==== Proof.KI.Body2.lean ====
/-
  Region 2 of the idealized kernel's @main: the edge differences (v[dst] − v[src]) / len over the edge arrays laid
  out in rows of 128, eight blocks of 8192 rows of which the last overhangs the array by 3036 rows. What each
  staging buffer holds after the body at each point, on the rows inside the array; and the body's obligation:
  the payload is computed entry by entry, so filled blocks in give the filled quotient out.
-/
import proofs.«402448_j34849364639903_1_alg».proof.Proof.Gen.KernelIdeal.Launch
import proofs.«402448_j34849364639903_1_alg».proof.Proof.Gen.KernelIdeal.Points
import proofs.«402448_j34849364639903_1_alg».proof.Proof.Gen.KernelIdeal.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 2: the edge differences, (dst − src) / len, block by block -/

/-- The body's one payload is pointwise. -/
theorem pay2_apply (x0 x1 x2 : Vec F S8192x128 .f32) :
    k2_pay1 x0 x1 x2 = fun j => FloatOps.divf (FloatOps.subf (x0 j) (x1 j)) (x2 j) := by
  unfold k2_pay1; simp only [shapeCast_self]; rfl

/-- Window w's block at point t: the part inside the array. -/
def blk2_0 (c : Dev nD) (t : Fin cfg2.N) : (win2_0.xblock (grid2.coords t)).Idx → Elt F .f32 :=
  (win2_0.blk t).view.read (Elt F) (V c (Pipeline.arrRef spec2 0))
def blk2_1 (c : Dev nD) (t : Fin cfg2.N) : (win2_0.xblock (grid2.coords t)).Idx → Elt F .f32 :=
  (win2_1.blk t).view.read (Elt F) (V c (Pipeline.arrRef spec2 1))
def blk2_2 (c : Dev nD) (t : Fin cfg2.N) : (win2_0.xblock (grid2.coords t)).Idx → Elt F .f32 :=
  (win2_2.blk t).view.read (Elt F) (V c (Pipeline.arrRef spec2 2))
/-- The quotient of the difference, entry by entry of the blocks. -/
def out2 (c : Dev nD) (t : Fin cfg2.N) : (win2_0.xblock (grid2.coords t)).Idx → Elt F .f32 :=
  fun j => FloatOps.divf (FloatOps.subf (blk2_0 V c t j) (blk2_1 V c t j)) (blk2_2 V c t j)

/-- The filler past the array's end: nothing reads it. -/
def zf2 : S8192x128.Idx → Elt F .f32 := fun _ => Scalar.ofBits .f32 0#32

def dat2 (c : Dev nD) : Dat τ (Elt F) Unit ℕ (UR sig nD τ) ℕ cfg2 c where
  A w := V c (Pipeline.arrRef spec2 w)
  after w t := match w with
    | ⟨0, _⟩ => win2_0.fill (grid2.coords t) zf2 (blk2_0 V c t)
    | ⟨1, _⟩ => win2_0.fill (grid2.coords t) zf2 (blk2_1 V c t)
    | ⟨2, _⟩ => win2_0.fill (grid2.coords t) zf2 (blk2_2 V c t)
    | ⟨3, _⟩ => win2_0.fill (grid2.coords t) zf2 (out2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem before2_0 (c : Dev nD) (t : Fin cfg2.N) (d) :
    (dat2 V c).before (0 : Fin 4) t d = win2_0.fill (grid2.coords t) d (blk2_0 V c t) := by
  unfold Dat.before; rw [if_pos (fetch2_0 t)]; rfl
theorem before2_1 (c : Dev nD) (t : Fin cfg2.N) (d) :
    (dat2 V c).before (1 : Fin 4) t d = win2_0.fill (grid2.coords t) d (blk2_1 V c t) := by
  unfold Dat.before; rw [if_pos (fetch2_1 t)]; rfl
theorem before2_2 (c : Dev nD) (t : Fin cfg2.N) (d) :
    (dat2 V c).before (2 : Fin 4) t d = win2_0.fill (grid2.coords t) d (blk2_2 V c t) := by
  unfold Dat.before; rw [if_pos (fetch2_2 t)]; rfl

set_option maxHeartbeats 1000000 in
theorem sound_kernel2 (c : Dev nD) (E : Set ℕ) (i : grid2.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S8192x128 .f32) (harg4 : arg4.IsWhole)
    (x0 x1 x2 : Vec F S8192x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k2_pay1 x0 x1 x2)) -∗ K ⟨⟩))
      ⊢ wp frame (wpE (defs₀ (F := F)) Variants.none c none) E (cc2__edge_diff_kernel i arg1 harg1 arg2 harg2 arg3 harg3 arg4 harg4) K := by
  simp only [cc2__edge_diff_kernel_eq_skeleton]; unfold cc2__edge_diff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay2_fill (i : grid2.Coords) (d0 d1 d2 : S8192x128.Idx → Elt F .f32) (b0 b1 b2 : (win2_0.xblock i).Idx → Elt F .f32) :
    k2_pay1 (win2_0.fill i d0 b0) (win2_0.fill i d1 b1) (win2_0.fill i d2 b2)
      = win2_0.fill i (k2_pay1 d0 d1 d2) (fun j => FloatOps.divf (FloatOps.subf (b0 j) (b1 j)) (b2 j)) := by
  rw [pay2_apply, pay2_apply]; funext j; unfold Window.fill; split <;> rfl

theorem body_obligation2 (c : Dev nD) : BodyObligationLoose (dat2 V c) (defs₀ (F := F)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩⟩
  rw [before2_0 V c t d0, before2_1 V c t d1, before2_2 V c t d2]
  iapply (sound_kernel2 (F := F) c Set.univ (grid2.coords t)
    (win2_0.stage (cfg2.slots t 0)) (hstage2_0 ((cfg2.slots t 0).cast nbuf2_0)) (win2_1.stage (cfg2.slots t 1)) (hstage2_1 ((cfg2.slots t 1).cast nbuf2_1))
    (win2_2.stage (cfg2.slots t 2)) (hstage2_2 ((cfg2.slots t 2).cast nbuf2_2)) (win2_3.stage (cfg2.slots t 3)) (hstage2_3 ((cfg2.slots t 3).cast nbuf2_3))
    (win2_0.fill (grid2.coords t) d0 (blk2_0 V c t)) (win2_0.fill (grid2.coords t) d1 (blk2_1 V c t))
    (win2_0.fill (grid2.coords t) d2 (blk2_2 V c t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  rw [pay2_fill]
  isplitl [H0]
  · iexists d0
    change _ ⊢ owns (c : Thread nD τ) (st2_0 t) fullShare (win2_0.fill (grid2.coords t) d0 (win2_0.cut (grid2.coords t) (win2_0.fill (grid2.coords t) zf2 (blk2_0 V c t))))
    rw [Window.cut_fill]; try iexact H0
  isplitl [H1]
  · iexists d1
    change _ ⊢ owns (c : Thread nD τ) (st2_1 t) fullShare (win2_0.fill (grid2.coords t) d1 (win2_0.cut (grid2.coords t) (win2_0.fill (grid2.coords t) zf2 (blk2_1 V c t))))
    rw [Window.cut_fill]; try iexact H1
  isplitl [H2]
  · iexists d2
    change _ ⊢ owns (c : Thread nD τ) (st2_2 t) fullShare (win2_0.fill (grid2.coords t) d2 (win2_0.cut (grid2.coords t) (win2_0.fill (grid2.coords t) zf2 (blk2_2 V c t))))
    rw [Window.cut_fill]; try iexact H2
  · iexists k2_pay1 d0 d1 d2
    change _ ⊢ owns (c : Thread nD τ) (st2_3 t) fullShare (win2_0.fill (grid2.coords t) (k2_pay1 d0 d1 d2) (win2_0.cut (grid2.coords t) (win2_0.fill (grid2.coords t) zf2 (out2 V c t))))
    rw [Window.cut_fill]; exact BI.Entails.refl _

end Cert.KernelIdeal.Reg
end
-- ==== Proof.KI.Final2.lean ====
/-
  Region 2's result array in closed form. Each point writes back, cut at the array's end, the quotient block of
  its three operand blocks; a block of an entrywise function of whole arrays is that function of the blocks;
  and the eight row ranges 0‥8191, …, 57344‥62499 are all the array's rows. So the array ends holding
  (a − b) / l entry by entry.
-/
import proofs.«402448_j34849364639903_1_alg».proof.Proof.KI.Body2
import proofs.«402448_j34849364639903_1_alg».proof.Proof.KI.Chain

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The output window's row ranges: point t covers rows 8192·t up to 8192·t + 8192, cut at 62500; every lane. -/
theorem idx_facts2 : ∀ t : Fin grid2.N, win2_3.index t 0 * win2_3.size 0 = t.val * 8192
    ∧ (t.val < 7 → win2_3.xsize (grid2.coords t) 0 = 8192) ∧ (t.val = 7 → win2_3.xsize (grid2.coords t) 0 = 5156)
    ∧ win2_3.index t 1 * win2_3.size 1 = 0 ∧ win2_3.xsize (grid2.coords t) 1 = 128 := by decide +kernel

theorem mem_blk2 (t : Fin cfg2.N) (i : S62500x128.Idx) :
    i ∈ ((cfg2.win 3).blk t).view.set
      ↔ t.val * 8192 ≤ (i 0 : Nat) ∧ (i 0 : Nat) < t.val * 8192 + win2_3.xsize (grid2.coords t) 0 := by
  show i ∈ ((View.whole main_v33).slice (win2_3.rect t)).set ↔ _
  rw [View.set_slice_whole, Rect.mem_set_unit]
  obtain ⟨e0, _, _, e2, e3⟩ := idx_facts2 t
  have h1 : (i 1 : Nat) < 128 := (i 1).isLt
  constructor
  · intro h
    have h0 := h 0
    change win2_3.index t 0 * win2_3.size 0 ≤ (i 0 : Nat) ∧ (i 0 : Nat) < win2_3.index t 0 * win2_3.size 0 + win2_3.xsize (grid2.coords t) 0 at h0
    rw [e0] at h0; exact h0
  · intro h a
    match a with
    | ⟨0, _⟩ =>
      change win2_3.index t 0 * win2_3.size 0 ≤ (i 0 : Nat) ∧ (i 0 : Nat) < win2_3.index t 0 * win2_3.size 0 + win2_3.xsize (grid2.coords t) 0
      rw [e0]; exact h
    | ⟨1, _⟩ =>
      change win2_3.index t 1 * win2_3.size 1 ≤ (i 1 : Nat) ∧ (i 1 : Nat) < win2_3.index t 1 * win2_3.size 1 + win2_3.xsize (grid2.coords t) 1
      rw [e2, e3]; omega

theorem cover2 (i : S62500x128.Idx) :
    ∃ t : Fin cfg2.N, (cfg2.win 3).flush t = true ∧ i ∈ ((cfg2.win 3).blk t).view.set := by
  have h : (i 0 : Nat) < 62500 := (i 0).isLt
  have hN : cfg2.N = 8 := rfl
  refine ⟨⟨(i 0 : Nat) / 8192, by rw [hN]; omega⟩, flush2_3 _, ?_⟩
  rw [mem_blk2]
  obtain ⟨_, ex, ex7, _, _⟩ := idx_facts2 ⟨(i 0 : Nat) / 8192, by rw [N_2]; omega⟩
  by_cases h7 : (i 0 : Nat) / 8192 < 7
  · have := ex h7
    change win2_3.xsize (grid2.coords ⟨(i 0 : Nat) / 8192, _⟩) 0 = 8192 at this
    rw [this]; dsimp only; omega
  · have h7' : (i 0 : Nat) / 8192 = 7 := by omega
    have := ex7 h7'
    change win2_3.xsize (grid2.coords ⟨(i 0 : Nat) / 8192, _⟩) 0 = 5156 at this
    rw [this]; dsimp only; omega

/-- What a point writes back is its block of the entrywise quotient of the three whole arrays. -/
theorem flushed2 (c : Dev nD) (t : Fin cfg2.N) :
    (dat2 V c).flushed 3 t = ((cfg2.win 3).blk t).view.read (Elt F)
      (ediffA (V c (Pipeline.arrRef spec2 0)) (V c (Pipeline.arrRef spec2 1)) (V c (Pipeline.arrRef spec2 2))) := by
  show win2_0.cut (grid2.coords t) (win2_0.fill (grid2.coords t) zf2 (out2 V c t)) = _
  rw [Window.cut_fill]; rfl

/-- Region 2 leaves (a − b) / l in its result array, -/
theorem final2 (c : Dev nD) : (dat2 V c).arrAt 3 cfg2.N
    = ediffA (V c (Pipeline.arrRef spec2 0)) (V c (Pipeline.arrRef spec2 1)) (V c (Pipeline.arrRef spec2 2)) :=
  (dat2 V c).arrAt_eq_of_cover 3 _ (fun t _ => flushed2 V c t) cover2

/-- and its operand arrays as it found them. -/
theorem kept2 (c : Dev nD) (w : Fin cfg2.W) (hw : w ≠ 3) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, h => exact absurd rfl h

end Cert.KernelIdeal.Reg

end
-- ==== Proof.KI.Body3.lean ====
/-
  Region 3 of the idealized kernel's @main: the segment means sums / max(counts, 1) over the node arrays laid out in
  rows of 128, four blocks of 8192 rows of which the last overhangs the array by 1518 rows. What each staging
  buffer holds after the body at each point, on the rows inside the array; and the body's obligation: the
  payload is computed entry by entry, so filled blocks in give the filled quotient out.
-/
import proofs.«402448_j34849364639903_1_alg».proof.Proof.Gen.KernelIdeal.Launch
import proofs.«402448_j34849364639903_1_alg».proof.Proof.Gen.KernelIdeal.Points
import proofs.«402448_j34849364639903_1_alg».proof.Proof.Gen.KernelIdeal.Skeleton
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 3: s / max(n, 1), block by block -/

/-- The body's one payload is pointwise. -/
theorem pay3_apply (x0 x1 : Vec F S8192x128 .f32) :
    k3_pay1 x0 x1 = fun j => FloatOps.divf (x0 j) (FloatOps.maximumf (x1 j) (Scalar.ofBits .f32 0x3F800000#32)) := by
  unfold k3_pay1; simp only [shapeCast_self]; rfl

/-- Window w's block at point t: the part inside the array. -/
def blk3_0 (c : Dev nD) (t : Fin cfg3.N) : (win3_0.xblock (grid3.coords t)).Idx → Elt F .f32 :=
  (win3_0.blk t).view.read (Elt F) (V c (Pipeline.arrRef spec3 0))
def blk3_1 (c : Dev nD) (t : Fin cfg3.N) : (win3_0.xblock (grid3.coords t)).Idx → Elt F .f32 :=
  (win3_1.blk t).view.read (Elt F) (V c (Pipeline.arrRef spec3 1))
/-- The quotient by the maximum with one, entry by entry of the blocks. -/
def out3 (c : Dev nD) (t : Fin cfg3.N) : (win3_0.xblock (grid3.coords t)).Idx → Elt F .f32 :=
  fun j => FloatOps.divf (blk3_0 V c t j) (FloatOps.maximumf (blk3_1 V c t j) (Scalar.ofBits .f32 0x3F800000#32))

/-- The filler past the array's end: nothing reads it. -/
def zf3 : S8192x128.Idx → Elt F .f32 := fun _ => Scalar.ofBits .f32 0#32

def dat3 (c : Dev nD) : Dat τ (Elt F) Unit ℕ (UR sig nD τ) ℕ cfg3 c where
  A w := V c (Pipeline.arrRef spec3 w)
  after w t := match w with
    | ⟨0, _⟩ => win3_0.fill (grid3.coords t) zf3 (blk3_0 V c t)
    | ⟨1, _⟩ => win3_0.fill (grid3.coords t) zf3 (blk3_1 V c t)
    | ⟨2, _⟩ => win3_0.fill (grid3.coords t) zf3 (out3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3_0 (c : Dev nD) (t : Fin cfg3.N) (d) :
    (dat3 V c).before (0 : Fin 3) t d = win3_0.fill (grid3.coords t) d (blk3_0 V c t) := by
  unfold Dat.before; rw [if_pos (fetch3_0 t)]; rfl
theorem before3_1 (c : Dev nD) (t : Fin cfg3.N) (d) :
    (dat3 V c).before (1 : Fin 3) t d = win3_0.fill (grid3.coords t) d (blk3_1 V c t) := by
  unfold Dat.before; rw [if_pos (fetch3_1 t)]; rfl

set_option maxHeartbeats 1000000 in
theorem sound_kernel3 (c : Dev nD) (E : Set ℕ) (i : grid3.Coords)
    (arg1 : Memref sig .tc .vmem S8192x128 .f32) (harg1 : arg1.IsWhole) (arg2 : Memref sig .tc .vmem S8192x128 .f32) (harg2 : arg2.IsWhole)
    (arg3 : Memref sig .tc .vmem S8192x128 .f32) (harg3 : arg3.IsWhole)
    (x0 x1 : Vec F S8192x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k3_pay1 x0 x1)) -∗ K ⟨⟩))
      ⊢ wp frame (wpE (defs₀ (F := F)) Variants.none c none) E (cc3__finalize_kernel i arg1 harg1 arg2 harg2 arg3 harg3) K := by
  simp only [cc3__finalize_kernel_eq_skeleton]; unfold cc3__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (View.cover_of_tiled _ S8192x128.size (by rfl)), View.canon_unit_zero hz]
  simp only [View.readAt_eq_ld, View.ld_unit_zero (S := S8192x128) hz]

/-- A payload of filled blocks is the filled payload of the blocks: the body works entry by entry. -/
theorem pay3_fill (i : grid3.Coords) (d0 d1 : S8192x128.Idx → Elt F .f32) (b0 b1 : (win3_0.xblock i).Idx → Elt F .f32) :
    k3_pay1 (win3_0.fill i d0 b0) (win3_0.fill i d1 b1)
      = win3_0.fill i (k3_pay1 d0 d1) (fun j => FloatOps.divf (b0 j) (FloatOps.maximumf (b1 j) (Scalar.ofBits .f32 0x3F800000#32))) := by
  rw [pay3_apply, pay3_apply]; funext j; unfold Window.fill; split <;> rfl

theorem body_obligation3 (c : Dev nD) : BodyObligationLoose (dat3 V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩⟩
  rw [before3_0 V c t d0, before3_1 V c t d1]
  iapply (sound_kernel3 (F := F) c Set.univ (grid3.coords t)
    (win3_0.stage (cfg3.slots t 0)) (hstage3_0 ((cfg3.slots t 0).cast nbuf3_0)) (win3_1.stage (cfg3.slots t 1)) (hstage3_1 ((cfg3.slots t 1).cast nbuf3_1))
    (win3_2.stage (cfg3.slots t 2)) (hstage3_2 ((cfg3.slots t 2).cast nbuf3_2))
    (win3_0.fill (grid3.coords t) d0 (blk3_0 V c t)) (win3_0.fill (grid3.coords t) d1 (blk3_1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  rw [pay3_fill]
  isplitl [H0]
  · iexists d0
    change _ ⊢ owns (c : Thread nD τ) (st3_0 t) fullShare (win3_0.fill (grid3.coords t) d0 (win3_0.cut (grid3.coords t) (win3_0.fill (grid3.coords t) zf3 (blk3_0 V c t))))
    rw [Window.cut_fill]; try iexact H0
  isplitl [H1]
  · iexists d1
    change _ ⊢ owns (c : Thread nD τ) (st3_1 t) fullShare (win3_0.fill (grid3.coords t) d1 (win3_0.cut (grid3.coords t) (win3_0.fill (grid3.coords t) zf3 (blk3_1 V c t))))
    rw [Window.cut_fill]; try iexact H1
  · iexists k3_pay1 d0 d1
    change _ ⊢ owns (c : Thread nD τ) (st3_2 t) fullShare (win3_0.fill (grid3.coords t) (k3_pay1 d0 d1) (win3_0.cut (grid3.coords t) (win3_0.fill (grid3.coords t) zf3 (out3 V c t))))
    rw [Window.cut_fill]; exact BI.Entails.refl _

end Cert.KernelIdeal.Reg
end
-- ==== Proof.KI.Final3.lean ====
/-
  Region 3's result array in closed form. Each point writes back, cut at the array's end, the quotient block of
  its two operand blocks; a block of an entrywise function of whole arrays is that function of the blocks;
  and the four row ranges 0‥8191, …, 24576‥31249 are all the array's rows. So the array ends holding
  s / max(n, 1) entry by entry.
-/
import proofs.«402448_j34849364639903_1_alg».proof.Proof.KI.Body3
import proofs.«402448_j34849364639903_1_alg».proof.Proof.KI.Chain

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The output window's row ranges: point t covers rows 8192·t up to 8192·t + 8192, cut at 31250; every lane. -/
theorem idx_facts3 : ∀ t : Fin grid3.N, win3_2.index t 0 * win3_2.size 0 = t.val * 8192
    ∧ (t.val < 3 → win3_2.xsize (grid3.coords t) 0 = 8192) ∧ (t.val = 3 → win3_2.xsize (grid3.coords t) 0 = 6674)
    ∧ win3_2.index t 1 * win3_2.size 1 = 0 ∧ win3_2.xsize (grid3.coords t) 1 = 128 := by decide +kernel

theorem mem_blk3 (t : Fin cfg3.N) (i : S31250x128.Idx) :
    i ∈ ((cfg3.win 2).blk t).view.set
      ↔ t.val * 8192 ≤ (i 0 : Nat) ∧ (i 0 : Nat) < t.val * 8192 + win3_2.xsize (grid3.coords t) 0 := by
  show i ∈ ((View.whole main_v40).slice (win3_2.rect t)).set ↔ _
  rw [View.set_slice_whole, Rect.mem_set_unit]
  obtain ⟨e0, _, _, e2, e3⟩ := idx_facts3 t
  have h1 : (i 1 : Nat) < 128 := (i 1).isLt
  constructor
  · intro h
    have h0 := h 0
    change win3_2.index t 0 * win3_2.size 0 ≤ (i 0 : Nat) ∧ (i 0 : Nat) < win3_2.index t 0 * win3_2.size 0 + win3_2.xsize (grid3.coords t) 0 at h0
    rw [e0] at h0; exact h0
  · intro h a
    match a with
    | ⟨0, _⟩ =>
      change win3_2.index t 0 * win3_2.size 0 ≤ (i 0 : Nat) ∧ (i 0 : Nat) < win3_2.index t 0 * win3_2.size 0 + win3_2.xsize (grid3.coords t) 0
      rw [e0]; exact h
    | ⟨1, _⟩ =>
      change win3_2.index t 1 * win3_2.size 1 ≤ (i 1 : Nat) ∧ (i 1 : Nat) < win3_2.index t 1 * win3_2.size 1 + win3_2.xsize (grid3.coords t) 1
      rw [e2, e3]; omega

theorem cover3 (i : S31250x128.Idx) :
    ∃ t : Fin cfg3.N, (cfg3.win 2).flush t = true ∧ i ∈ ((cfg3.win 2).blk t).view.set := by
  have h : (i 0 : Nat) < 31250 := (i 0).isLt
  have hN : cfg3.N = 4 := rfl
  refine ⟨⟨(i 0 : Nat) / 8192, by rw [hN]; omega⟩, flush3_2 _, ?_⟩
  rw [mem_blk3]
  obtain ⟨_, ex, ex7, _, _⟩ := idx_facts3 ⟨(i 0 : Nat) / 8192, by rw [N_3]; omega⟩
  by_cases h7 : (i 0 : Nat) / 8192 < 3
  · have := ex h7
    change win3_2.xsize (grid3.coords ⟨(i 0 : Nat) / 8192, _⟩) 0 = 8192 at this
    rw [this]; dsimp only; omega
  · have h7' : (i 0 : Nat) / 8192 = 3 := by omega
    have := ex7 h7'
    change win3_2.xsize (grid3.coords ⟨(i 0 : Nat) / 8192, _⟩) 0 = 6674 at this
    rw [this]; dsimp only; omega

/-- What a point writes back is its block of the entrywise quotient of the two whole arrays. -/
theorem flushed3 (c : Dev nD) (t : Fin cfg3.N) :
    (dat3 V c).flushed 2 t = ((cfg3.win 2).blk t).view.read (Elt F)
      (finA (V c (Pipeline.arrRef spec3 0)) (V c (Pipeline.arrRef spec3 1))) := by
  show win3_0.cut (grid3.coords t) (win3_0.fill (grid3.coords t) zf3 (out3 V c t)) = _
  rw [Window.cut_fill]; rfl

/-- Region 3 leaves s / max(n, 1) in its result array, -/
theorem final3 (c : Dev nD) : (dat3 V c).arrAt 2 cfg3.N
    = finA (V c (Pipeline.arrRef spec3 0)) (V c (Pipeline.arrRef spec3 1)) :=
  (dat3 V c).arrAt_eq_of_cover 2 _ (fun t _ => flushed3 V c t) cover3

/-- and its operand arrays as it found them. -/
theorem kept3 (c : Dev nD) (w : Fin cfg3.W) (hw : w ≠ 2) : (dat3 V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, h => exact absurd rfl h

end Cert.KernelIdeal.Reg

end
-- ==== Proof.KI.Body4.lean ====
/-
  Region 4 of the idealized kernel's @main: the loss ((u − u₁)·k + du·u₁ − 0.01·d2u)·mask over the node arrays laid out
  in rows of 128, eight blocks of 4096 rows of which the last overhangs the array by 1518 rows. What each staging
  buffer holds after the body at each point, on the rows inside the array; and the body's obligation: the
  payload is computed entry by entry, so filled blocks in give the filled combination out.
-/
import proofs.«402448_j34849364639903_1_alg».proof.Proof.Gen.KernelIdeal.Launch
import proofs.«402448_j34849364639903_1_alg».proof.Proof.Gen.KernelIdeal.Points
import proofs.«402448_j34849364639903_1_alg».proof.Proof.Gen.KernelIdeal.Skeleton
import proofs.«402448_j34849364639903_1_alg».proof.Proof.KI.Chain
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Region 4: the combination, block by block -/

/-- The body's one payload is pointwise (u₁ is loaded twice). -/
theorem pay4_apply (x0 x1 x2 x1' x3 x4 : Vec F S4096x128 .f32) :
    k4_pay1 x0 x1 x2 x1' x3 x4 = fun j => FloatOps.mulf (FloatOps.subf (FloatOps.addf (FloatOps.mulf (FloatOps.subf (x0 j) (x1 j)) (kdt (F := F))) (FloatOps.mulf (x2 j) (x1' j))) (FloatOps.mulf (Scalar.ofBits .f32 0x3C23D70A#32) (x3 j))) (x4 j) := by
  unfold k4_pay1 kdt; simp only [shapeCast_self]; rfl

/-- Window w's block at point t: the part inside the array. -/
def blk4_0 (c : Dev nD) (t : Fin cfg4.N) : (win4_0.xblock (grid4.coords t)).Idx → Elt F .f32 :=
  (win4_0.blk t).view.read (Elt F) (V c (Pipeline.arrRef spec4 0))
def blk4_1 (c : Dev nD) (t : Fin cfg4.N) : (win4_0.xblock (grid4.coords t)).Idx → Elt F .f32 :=
  (win4_1.blk t).view.read (Elt F) (V c (Pipeline.arrRef spec4 1))
def blk4_2 (c : Dev nD) (t : Fin cfg4.N) : (win4_0.xblock (grid4.coords t)).Idx → Elt F .f32 :=
  (win4_2.blk t).view.read (Elt F) (V c (Pipeline.arrRef spec4 2))
def blk4_3 (c : Dev nD) (t : Fin cfg4.N) : (win4_0.xblock (grid4.coords t)).Idx → Elt F .f32 :=
  (win4_3.blk t).view.read (Elt F) (V c (Pipeline.arrRef spec4 3))
def blk4_4 (c : Dev nD) (t : Fin cfg4.N) : (win4_0.xblock (grid4.coords t)).Idx → Elt F .f32 :=
  (win4_4.blk t).view.read (Elt F) (V c (Pipeline.arrRef spec4 4))
/-- The combination, entry by entry of the blocks. -/
def out4 (c : Dev nD) (t : Fin cfg4.N) : (win4_0.xblock (grid4.coords t)).Idx → Elt F .f32 :=
  fun j => FloatOps.mulf (FloatOps.subf (FloatOps.addf (FloatOps.mulf (FloatOps.subf (blk4_0 V c t j) (blk4_1 V c t j)) (kdt (F := F))) (FloatOps.mulf (blk4_2 V c t j) (blk4_1 V c t j))) (FloatOps.mulf (Scalar.ofBits .f32 0x3C23D70A#32) (blk4_3 V c t j))) (blk4_4 V c t j)

/-- The filler past the array's end: nothing reads it. -/
def zf4 : S4096x128.Idx → Elt F .f32 := fun _ => Scalar.ofBits .f32 0#32

def dat4 (c : Dev nD) : Dat τ (Elt F) Unit ℕ (UR sig nD τ) ℕ cfg4 c where
  A w := V c (Pipeline.arrRef spec4 w)
  after w t := match w with
    | ⟨0, _⟩ => win4_0.fill (grid4.coords t) zf4 (blk4_0 V c t)
    | ⟨1, _⟩ => win4_0.fill (grid4.coords t) zf4 (blk4_1 V c t)
    | ⟨2, _⟩ => win4_0.fill (grid4.coords t) zf4 (blk4_2 V c t)
    | ⟨3, _⟩ => win4_0.fill (grid4.coords t) zf4 (blk4_3 V c t)
    | ⟨4, _⟩ => win4_0.fill (grid4.coords t) zf4 (blk4_4 V c t)
    | ⟨5, _⟩ => win4_0.fill (grid4.coords t) zf4 (out4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) :
    (dat4 V c).before (0 : Fin 6) t d = win4_0.fill (grid4.coords t) d (blk4_0 V c t) := by
  unfold Dat.before; rw [if_pos (fetch4_0 t)]; rfl
theorem before4_1 (c : Dev nD) (t : Fin cfg4.N) (d) :
    (dat4 V c).before (1 : Fin 6) t d = win4_0.fill (grid4.coords t) d (blk4_1 V c t) := by
  unfold Dat.before; rw [if_pos (fetch4_1 t)]; rfl
theorem before4_2 (c : Dev nD) (t : Fin cfg4.N) (d) :
    (dat4 V c).before (2 : Fin 6) t d = win4_0.fill (grid4.coords t) d (blk4_2 V c t) := by
  unfold Dat.before; rw [if_pos (fetch4_2 t)]; rfl
theorem before4_3 (c : Dev nD) (t : Fin cfg4.N) (d) :
    (dat4 V c).before (3 : Fin 6) t d = win4_0.fill (grid4.coords t) d (blk4_3 V c t) := by
  unfold Dat.before; rw [if_pos (fetch4_3 t)]; rfl
theorem before4_4 (c : Dev nD) (t : Fin cfg4.N) (d) :
    (dat4 V c).before (4 : Fin 6) t d = win4_0.fill (grid4.coords t) d (blk4_4 V c t) := by
  unfold Dat.before; rw [if_pos (fetch4_4 t)]; rfl

set_option maxHeartbeats 2000000 in
theorem sound_kernel4 (c : Dev nD) (E : Set ℕ) (i : grid4.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S4096x128 .f32) (harg4 : arg4.IsWhole)
    (arg5 : Memref sig .tc .vmem S4096x128 .f32) (harg5 : arg5.IsWhole) (arg6 : Memref sig .tc .vmem S4096x128 .f32) (harg6 : arg6.IsWhole)
    (x0 x1 x2 x3 x4 : Vec F S4096x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4
              ∗ owns (c : Thread nD τ) arg6 fullShare (k4_pay1 x0 x1 x2 x1 x3 x4)) -∗ K ⟨⟩))
      ⊢ wp frame (wpE (defs₀ (F := F)) Variants.none c none) E
          (cc4__combine_kernel i arg1 harg1 arg2 harg2 arg3 harg3 arg4 harg4 arg5 harg5 arg6 harg6) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := funext fun a => by fin_cases a <;> rfl
  rw [View.read_writes_eq_canon _ _ _ (View.cover_of_tiled _ S4096x128.size (by rfl)), View.canon_unit_zero hz]
  simp only [View.readAt_eq_ld, View.ld_unit_zero (S := S4096x128) hz]

/-- A payload of filled blocks is the filled payload of the blocks: the body works entry by entry. -/
theorem pay4_fill (i : grid4.Coords) (d0 d1 d2 d3 d4 : S4096x128.Idx → Elt F .f32) (b0 b1 b2 b3 b4 : (win4_0.xblock i).Idx → Elt F .f32) :
    k4_pay1 (win4_0.fill i d0 b0) (win4_0.fill i d1 b1) (win4_0.fill i d2 b2) (win4_0.fill i d1 b1) (win4_0.fill i d3 b3) (win4_0.fill i d4 b4)
      = win4_0.fill i (k4_pay1 d0 d1 d2 d1 d3 d4) (fun j => FloatOps.mulf (FloatOps.subf (FloatOps.addf (FloatOps.mulf (FloatOps.subf (b0 j) (b1 j)) (kdt (F := F))) (FloatOps.mulf (b2 j) (b1 j))) (FloatOps.mulf (Scalar.ofBits .f32 0x3C23D70A#32) (b3 j))) (b4 j)) := by
  rw [pay4_apply, pay4_apply]; funext j; unfold Window.fill; split <;> rfl

theorem body_obligation4 (c : Dev nD) : BodyObligationLoose (dat4 V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before4_0 V c t d0, before4_1 V c t d1, before4_2 V c t d2, before4_3 V c t d3, before4_4 V c t d4]
  iapply (sound_kernel4 (F := F) c Set.univ (grid4.coords t)
    (win4_0.stage (cfg4.slots t 0)) (hstage4_0 ((cfg4.slots t 0).cast nbuf4_0)) (win4_1.stage (cfg4.slots t 1)) (hstage4_1 ((cfg4.slots t 1).cast nbuf4_1))
    (win4_2.stage (cfg4.slots t 2)) (hstage4_2 ((cfg4.slots t 2).cast nbuf4_2)) (win4_3.stage (cfg4.slots t 3)) (hstage4_3 ((cfg4.slots t 3).cast nbuf4_3))
    (win4_4.stage (cfg4.slots t 4)) (hstage4_4 ((cfg4.slots t 4).cast nbuf4_4)) (win4_5.stage (cfg4.slots t 5)) (hstage4_5 ((cfg4.slots t 5).cast nbuf4_5))
    (win4_0.fill (grid4.coords t) d0 (blk4_0 V c t)) (win4_0.fill (grid4.coords t) d1 (blk4_1 V c t))
    (win4_0.fill (grid4.coords t) d2 (blk4_2 V c t)) (win4_0.fill (grid4.coords t) d3 (blk4_3 V c t))
    (win4_0.fill (grid4.coords t) d4 (blk4_4 V c t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  rw [pay4_fill]
  isplitl [H0]
  · iexists d0
    change _ ⊢ owns (c : Thread nD τ) (st4_0 t) fullShare (win4_0.fill (grid4.coords t) d0 (win4_0.cut (grid4.coords t) (win4_0.fill (grid4.coords t) zf4 (blk4_0 V c t))))
    rw [Window.cut_fill]; try iexact H0
  isplitl [H1]
  · iexists d1
    change _ ⊢ owns (c : Thread nD τ) (st4_1 t) fullShare (win4_0.fill (grid4.coords t) d1 (win4_0.cut (grid4.coords t) (win4_0.fill (grid4.coords t) zf4 (blk4_1 V c t))))
    rw [Window.cut_fill]; try iexact H1
  isplitl [H2]
  · iexists d2
    change _ ⊢ owns (c : Thread nD τ) (st4_2 t) fullShare (win4_0.fill (grid4.coords t) d2 (win4_0.cut (grid4.coords t) (win4_0.fill (grid4.coords t) zf4 (blk4_2 V c t))))
    rw [Window.cut_fill]; try iexact H2
  isplitl [H3]
  · iexists d3
    change _ ⊢ owns (c : Thread nD τ) (st4_3 t) fullShare (win4_0.fill (grid4.coords t) d3 (win4_0.cut (grid4.coords t) (win4_0.fill (grid4.coords t) zf4 (blk4_3 V c t))))
    rw [Window.cut_fill]; try iexact H3
  isplitl [H4]
  · iexists d4
    change _ ⊢ owns (c : Thread nD τ) (st4_4 t) fullShare (win4_0.fill (grid4.coords t) d4 (win4_0.cut (grid4.coords t) (win4_0.fill (grid4.coords t) zf4 (blk4_4 V c t))))
    rw [Window.cut_fill]; try iexact H4
  · iexists k4_pay1 d0 d1 d2 d1 d3 d4
    change _ ⊢ owns (c : Thread nD τ) (st4_5 t) fullShare (win4_0.fill (grid4.coords t) (k4_pay1 d0 d1 d2 d1 d3 d4) (win4_0.cut (grid4.coords t) (win4_0.fill (grid4.coords t) zf4 (out4 V c t))))
    rw [Window.cut_fill]; exact BI.Entails.refl _

end Cert.KernelIdeal.Reg
end
-- ==== Proof.KI.Final4.lean ====
/-
  Region 4's result array in closed form. Each point writes back, cut at the array's end, the combination block of
  its five operand blocks; a block of an entrywise function of whole arrays is that function of the blocks;
  and the eight row ranges 0‥4095, …, 28672‥31249 are all the array's rows. So the array ends holding
  ((u − u₁)·k + du·u₁ − 0.01·d2u)·mask entry by entry.
-/
import proofs.«402448_j34849364639903_1_alg».proof.Proof.KI.Body4
import proofs.«402448_j34849364639903_1_alg».proof.Proof.KI.Chain

noncomputable section

namespace Cert.KernelIdeal.Reg

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (V : (c : Dev nD) → (b : Ref sig .tc) → Buf (Elt F) ((c : Thread nD τ).loc b))

/-- The output window's row ranges: point t covers rows 4096·t up to 4096·t + 4096, cut at 31250; every lane. -/
theorem idx_facts4 : ∀ t : Fin grid4.N, win4_5.index t 0 * win4_5.size 0 = t.val * 4096
    ∧ (t.val < 7 → win4_5.xsize (grid4.coords t) 0 = 4096) ∧ (t.val = 7 → win4_5.xsize (grid4.coords t) 0 = 2578)
    ∧ win4_5.index t 1 * win4_5.size 1 = 0 ∧ win4_5.xsize (grid4.coords t) 1 = 128 := by decide +kernel

theorem mem_blk4 (t : Fin cfg4.N) (i : S31250x128.Idx) :
    i ∈ ((cfg4.win 5).blk t).view.set
      ↔ t.val * 4096 ≤ (i 0 : Nat) ∧ (i 0 : Nat) < t.val * 4096 + win4_5.xsize (grid4.coords t) 0 := by
  show i ∈ ((View.whole main_v47).slice (win4_5.rect t)).set ↔ _
  rw [View.set_slice_whole, Rect.mem_set_unit]
  obtain ⟨e0, _, _, e2, e3⟩ := idx_facts4 t
  have h1 : (i 1 : Nat) < 128 := (i 1).isLt
  constructor
  · intro h
    have h0 := h 0
    change win4_5.index t 0 * win4_5.size 0 ≤ (i 0 : Nat) ∧ (i 0 : Nat) < win4_5.index t 0 * win4_5.size 0 + win4_5.xsize (grid4.coords t) 0 at h0
    rw [e0] at h0; exact h0
  · intro h a
    match a with
    | ⟨0, _⟩ =>
      change win4_5.index t 0 * win4_5.size 0 ≤ (i 0 : Nat) ∧ (i 0 : Nat) < win4_5.index t 0 * win4_5.size 0 + win4_5.xsize (grid4.coords t) 0
      rw [e0]; exact h
    | ⟨1, _⟩ =>
      change win4_5.index t 1 * win4_5.size 1 ≤ (i 1 : Nat) ∧ (i 1 : Nat) < win4_5.index t 1 * win4_5.size 1 + win4_5.xsize (grid4.coords t) 1
      rw [e2, e3]; omega

theorem cover4 (i : S31250x128.Idx) :
    ∃ t : Fin cfg4.N, (cfg4.win 5).flush t = true ∧ i ∈ ((cfg4.win 5).blk t).view.set := by
  have h : (i 0 : Nat) < 31250 := (i 0).isLt
  have hN : cfg4.N = 8 := rfl
  refine ⟨⟨(i 0 : Nat) / 4096, by rw [hN]; omega⟩, flush4_5 _, ?_⟩
  rw [mem_blk4]
  obtain ⟨_, ex, ex7, _, _⟩ := idx_facts4 ⟨(i 0 : Nat) / 4096, by rw [N_4]; omega⟩
  by_cases h7 : (i 0 : Nat) / 4096 < 7
  · have := ex h7
    change win4_5.xsize (grid4.coords ⟨(i 0 : Nat) / 4096, _⟩) 0 = 4096 at this
    rw [this]; dsimp only; omega
  · have h7' : (i 0 : Nat) / 4096 = 7 := by omega
    have := ex7 h7'
    change win4_5.xsize (grid4.coords ⟨(i 0 : Nat) / 4096, _⟩) 0 = 2578 at this
    rw [this]; dsimp only; omega

/-- What a point writes back is its block of the entrywise combination of the five whole arrays. -/
theorem flushed4 (c : Dev nD) (t : Fin cfg4.N) :
    (dat4 V c).flushed 5 t = ((cfg4.win 5).blk t).view.read (Elt F)
      (combA (kdt (F := F)) (V c (Pipeline.arrRef spec4 0)) (V c (Pipeline.arrRef spec4 1)) (V c (Pipeline.arrRef spec4 2))
        (V c (Pipeline.arrRef spec4 3)) (V c (Pipeline.arrRef spec4 4))) := by
  show win4_0.cut (grid4.coords t) (win4_0.fill (grid4.coords t) zf4 (out4 V c t)) = _
  rw [Window.cut_fill]; rfl

/-- Region 4 leaves the combination in its result array, -/
theorem final4 (c : Dev nD) : (dat4 V c).arrAt 5 cfg4.N
    = combA (kdt (F := F)) (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed4 V c t) cover4

/-- and its operand arrays as it found them. -/
theorem kept4 (c : Dev nD) (w : Fin cfg4.W) (hw : w ≠ 5) : (dat4 V c).arrAt w cfg4.N = V c (Pipeline.arrRef spec4 w) := by
  match w, hw with
  | ⟨0, _⟩, _ => exact ((dat4 V c).arrAt_in 0 rfl _).trans (A_eq4 V c 0)
  | ⟨1, _⟩, _ => exact ((dat4 V c).arrAt_in 1 rfl _).trans (A_eq4 V c 1)
  | ⟨2, _⟩, _ => exact ((dat4 V c).arrAt_in 2 rfl _).trans (A_eq4 V c 2)
  | ⟨3, _⟩, _ => exact ((dat4 V c).arrAt_in 3 rfl _).trans (A_eq4 V c 3)
  | ⟨4, _⟩, _ => exact ((dat4 V c).arrAt_in 4 rfl _).trans (A_eq4 V c 4)
  | ⟨5, _⟩, h => exact absurd rfl h

end Cert.KernelIdeal.Reg

end
-- ==== Proof.KI.PData.lean ====
/-
  The five regions' proof data as one family, each at the buffers' contents its region is entered from, and what
  rides beside the buffers between the items of @main.
-/
import proofs.«402448_j34849364639903_1_alg».proof.Proof.KI.Final0
import proofs.«402448_j34849364639903_1_alg».proof.Proof.KI.Final1
import proofs.«402448_j34849364639903_1_alg».proof.Proof.KI.Final2
import proofs.«402448_j34849364639903_1_alg».proof.Proof.KI.Final3
import proofs.«402448_j34849364639903_1_alg».proof.Proof.KI.Final4
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region K is entered from, read at the TensorCore's references. -/
abbrev E0 (c : Dev nD) (b : Ref sig .tc) : Buf (Elt F) ((c : Thread nD τ).loc b) := V4 m c b
abbrev E1 (c : Dev nD) (b : Ref sig .tc) : Buf (Elt F) ((c : Thread nD τ).loc b) := V6 m (outs m) c b
abbrev E2 (c : Dev nD) (b : Ref sig .tc) : Buf (Elt F) ((c : Thread nD τ).loc b) := V11 m (outs m) c b
abbrev E3 (c : Dev nD) (b : Ref sig .tc) : Buf (Elt F) ((c : Thread nD τ).loc b) := V13 m (outs m) c b
abbrev E4 (c : Dev nD) (b : Ref sig .tc) : Buf (Elt F) ((c : Thread nD τ).loc b) := V15 m (outs m) c b

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

/-- The closed forms respect equal operands. -/
theorem ediffA_congr {a a' b b' l l' : S62500x128.Idx → Elt F .f32} (ha : a = a') (hb : b = b') (hl : l = l') :
    ediffA a b l = ediffA a' b' l' := by subst ha; subst hb; subst hl; rfl
theorem combA_congr (k : F .f32) {u u' u1 u1' du du' d2u d2u' mk mk' : S31250x128.Idx → Elt F .f32}
    (h0 : u = u') (h1 : u1 = u1') (h2 : du = du') (h3 : d2u = d2u') (h4 : mk = mk') :
    combA k u u1 du d2u mk = combA k u' u1' du' d2u' mk' := by subst h0; subst h1; subst h2; subst h3; subst h4; rfl

/-- After a region its result buffer holds the closed form. -/
theorem U5_out (c : Dev nD) : U5 m c main_v19 = o5 m c := by unfold U5; exact Function.update_self _ _ _
theorem U7_out (c : Dev nD) : U7 m c main_v26 = o7 m c := by unfold U7; exact Function.update_self _ _ _
theorem U12_out (c : Dev nD) : U12 m c main_v33 = o12 m c := by unfold U12; exact Function.update_self _ _ _
theorem U14_out (c : Dev nD) : U14 m c main_v40 = o14 m c := by unfold U14; exact Function.update_self _ _ _
theorem U16_out (c : Dev nD) : U16 m c main_v47 = o16 m c := by unfold U16; exact Function.update_self _ _ _

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.KernelIdeal.Reg

end
-- ==== Proof.KI.Reg0.lean ====
/-
  Region 0 as a segment of @main. It is entered from every unscoped buffer at the contents the host stretches
  before it leave, and left with its result array at the entrywise quotient and every other buffer as entered. Its
  arrays are split out of the unscoped buffers at entry and put back at exit; the generator register goes into the
  region's invariant and comes back; nothing is owed; the kernel has no semaphore of its own.
-/
import proofs.«402448_j34849364639903_1_alg».proof.Proof.KI.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region 0 is left with, read at the TensorCore's references. -/
abbrev X0 (c : Dev nD) (b : Ref sig .tc) : Buf (Elt F) ((c : Thread nD τ).loc b) := V5 m (outs m) c b

/-- The entrywise quotient of the operands as entered is what the exit valuation holds in the result buffer. -/
theorem out_eq0 (c : Dev nD) :
    ediffA (E0 m c (Pipeline.arrRef spec0 0)) (E0 m c (Pipeline.arrRef spec0 1)) (E0 m c (Pipeline.arrRef spec0 2))
      = X0 m c (Pipeline.arrRef spec0 3) :=
  (U5_out m c).symm.trans (congrFun (V5_eq m c) _).symm

set_option maxHeartbeats 2000000 in
/-- At the exit each of the region's arrays holds what the pipeline leaves: the operands as entered, the result at
    the entrywise quotient. -/
theorem hF0 (c : Dev nD) (w : Fin cfg0.W) : (pdats m 0 c).arrAt w cfg0.N = X0 m c (Pipeline.arrRef spec0 w) := by
  match w with
  | ⟨0, _⟩ => exact (kept0 (E0 m) c 0 (by decide)).trans (V5_of m (outs m) c _ (by decide)).symm
  | ⟨1, _⟩ => exact (kept0 (E0 m) c 1 (by decide)).trans (V5_of m (outs m) c _ (by decide)).symm
  | ⟨2, _⟩ => exact (kept0 (E0 m) c 2 (by decide)).trans (V5_of m (outs m) c _ (by decide)).symm
  | ⟨3, _⟩ => exact (final0 (E0 m) c).trans (out_eq0 m c)

/-- Every other buffer is as entered. -/
theorem hrest0 (c : Dev nD) : ∀ b, b ∉ Finset.univ.image (Pipeline.arrRef spec0) → X0 m c b = E0 m c b := fun b hb =>
  V5_of m (outs m) c b (by
    intro h; rw [List.mem_singleton] at h; subst h
    exact hb (Finset.mem_image.mpr ⟨3, Finset.mem_univ _, rfl⟩))

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := body_obligation0 (E0 m) c
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg1.lean ====
/-
  Region 1 as a segment of @main. It is entered from every unscoped buffer at the contents the host stretches
  before it leave, and left with its result array at the entrywise quotient by the maximum with one and every other buffer as entered. Its
  arrays are split out of the unscoped buffers at entry and put back at exit; the generator register goes into the
  region's invariant and comes back; nothing is owed; the kernel has no semaphore of its own.
-/
import proofs.«402448_j34849364639903_1_alg».proof.Proof.KI.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region 1 is left with, read at the TensorCore's references. -/
abbrev X1 (c : Dev nD) (b : Ref sig .tc) : Buf (Elt F) ((c : Thread nD τ).loc b) := V7 m (outs m) c b

/-- The entrywise quotient by the maximum with one by the maximum with one of the operands as entered is what the exit valuation holds in the result buffer. -/
theorem out_eq1 (c : Dev nD) :
    finA (E1 m c (Pipeline.arrRef spec1 0)) (E1 m c (Pipeline.arrRef spec1 1))
      = X1 m c (Pipeline.arrRef spec1 2) :=
  (congrArg₂ finA (congrFun (V6_eq m c) _) (congrFun (V6_eq m c) _)).trans
    ((U7_out m c).symm.trans (congrFun (V7_eq m c) _).symm)

set_option maxHeartbeats 2000000 in
/-- At the exit each of the region's arrays holds what the pipeline leaves: the operands as entered, the result at
    the entrywise quotient by the maximum with one by the maximum with one. -/
theorem hF1 (c : Dev nD) (w : Fin cfg1.W) : (pdats m 1 c).arrAt w cfg1.N = X1 m c (Pipeline.arrRef spec1 w) := by
  match w with
  | ⟨0, _⟩ => exact (kept1 (E1 m) c 0 (by decide)).trans (V7_of m (outs m) c _ (by decide)).symm
  | ⟨1, _⟩ => exact (kept1 (E1 m) c 1 (by decide)).trans (V7_of m (outs m) c _ (by decide)).symm
  | ⟨2, _⟩ => exact (final1 (E1 m) c).trans (out_eq1 m c)

/-- Every other buffer is as entered. -/
theorem hrest1 (c : Dev nD) : ∀ b, b ∉ Finset.univ.image (Pipeline.arrRef spec1) → X1 m c b = E1 m c b := fun b hb =>
  V7_of m (outs m) c b (by
    intro h; rw [List.mem_singleton] at h; subst h
    exact hb (Finset.mem_image.mpr ⟨2, Finset.mem_univ _, rfl⟩))

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := body_obligation1 (E1 m) c
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg2.lean ====
/-
  Region 2 as a segment of @main. It is entered from every unscoped buffer at the contents the host stretches
  before it leave, and left with its result array at the entrywise quotient and every other buffer as entered. Its
  arrays are split out of the unscoped buffers at entry and put back at exit; the generator register goes into the
  region's invariant and comes back; nothing is owed; the kernel has no semaphore of its own.
-/
import proofs.«402448_j34849364639903_1_alg».proof.Proof.KI.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region 2 is left with, read at the TensorCore's references. -/
abbrev X2 (c : Dev nD) (b : Ref sig .tc) : Buf (Elt F) ((c : Thread nD τ).loc b) := V12 m (outs m) c b

/-- The entrywise quotient of the operands as entered is what the exit valuation holds in the result buffer. -/
theorem out_eq2 (c : Dev nD) :
    ediffA (E2 m c (Pipeline.arrRef spec2 0)) (E2 m c (Pipeline.arrRef spec2 1)) (E2 m c (Pipeline.arrRef spec2 2))
      = X2 m c (Pipeline.arrRef spec2 3) :=
  (ediffA_congr (congrFun (V11_eq m c) _) (congrFun (V11_eq m c) _) (congrFun (V11_eq m c) _)).trans
    ((U12_out m c).symm.trans (congrFun (V12_eq m c) _).symm)

set_option maxHeartbeats 2000000 in
/-- At the exit each of the region's arrays holds what the pipeline leaves: the operands as entered, the result at
    the entrywise quotient. -/
theorem hF2 (c : Dev nD) (w : Fin cfg2.W) : (pdats m 2 c).arrAt w cfg2.N = X2 m c (Pipeline.arrRef spec2 w) := by
  match w with
  | ⟨0, _⟩ => exact (kept2 (E2 m) c 0 (by decide)).trans (V12_of m (outs m) c _ (by decide)).symm
  | ⟨1, _⟩ => exact (kept2 (E2 m) c 1 (by decide)).trans (V12_of m (outs m) c _ (by decide)).symm
  | ⟨2, _⟩ => exact (kept2 (E2 m) c 2 (by decide)).trans (V12_of m (outs m) c _ (by decide)).symm
  | ⟨3, _⟩ => exact (final2 (E2 m) c).trans (out_eq2 m c)

/-- Every other buffer is as entered. -/
theorem hrest2 (c : Dev nD) : ∀ b, b ∉ Finset.univ.image (Pipeline.arrRef spec2) → X2 m c b = E2 m c b := fun b hb =>
  V12_of m (outs m) c b (by
    intro h; rw [List.mem_singleton] at h; subst h
    exact hb (Finset.mem_image.mpr ⟨3, Finset.mem_univ _, rfl⟩))

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := body_obligation2 (E2 m) c
  hwaits := Pipeline.hwaits_of_owed_zero _ _ _ _ L lv 2 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg3.lean ====
/-
  Region 3 as a segment of @main. It is entered from every unscoped buffer at the contents the host stretches
  before it leave, and left with its result array at the entrywise quotient by the maximum with one and every other buffer as entered. Its
  arrays are split out of the unscoped buffers at entry and put back at exit; the generator register goes into the
  region's invariant and comes back; nothing is owed; the kernel has no semaphore of its own.
-/
import proofs.«402448_j34849364639903_1_alg».proof.Proof.KI.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region 3 is left with, read at the TensorCore's references. -/
abbrev X3 (c : Dev nD) (b : Ref sig .tc) : Buf (Elt F) ((c : Thread nD τ).loc b) := V14 m (outs m) c b

/-- The entrywise quotient by the maximum with one by the maximum with one of the operands as entered is what the exit valuation holds in the result buffer. -/
theorem out_eq3 (c : Dev nD) :
    finA (E3 m c (Pipeline.arrRef spec3 0)) (E3 m c (Pipeline.arrRef spec3 1))
      = X3 m c (Pipeline.arrRef spec3 2) :=
  (congrArg₂ finA (congrFun (V13_eq m c) _) (congrFun (V13_eq m c) _)).trans
    ((U14_out m c).symm.trans (congrFun (V14_eq m c) _).symm)

set_option maxHeartbeats 2000000 in
/-- At the exit each of the region's arrays holds what the pipeline leaves: the operands as entered, the result at
    the entrywise quotient by the maximum with one by the maximum with one. -/
theorem hF3 (c : Dev nD) (w : Fin cfg3.W) : (pdats m 3 c).arrAt w cfg3.N = X3 m c (Pipeline.arrRef spec3 w) := by
  match w with
  | ⟨0, _⟩ => exact (kept3 (E3 m) c 0 (by decide)).trans (V14_of m (outs m) c _ (by decide)).symm
  | ⟨1, _⟩ => exact (kept3 (E3 m) c 1 (by decide)).trans (V14_of m (outs m) c _ (by decide)).symm
  | ⟨2, _⟩ => exact (final3 (E3 m) c).trans (out_eq3 m c)

/-- Every other buffer is as entered. -/
theorem hrest3 (c : Dev nD) : ∀ b, b ∉ Finset.univ.image (Pipeline.arrRef spec3) → X3 m c b = E3 m c b := fun b hb =>
  V14_of m (outs m) c b (by
    intro h; rw [List.mem_singleton] at h; subst h
    exact hb (Finset.mem_image.mpr ⟨2, Finset.mem_univ _, rfl⟩))

set_option backward.isDefEq.respectTransparency.types false in
def reg3 : Pipeline.RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := body_obligation3 (E3 m) c
  hwaits := Pipeline.hwaits_of_owed_zero _ _ _ _ L lv 3 fun _ _ => rfl
  pre c := iprop(StableHlo.held (c : Thread nD τ) (Pipeline.ucRefs τ sig) (V13 m (outs m) c) ∗ R c)
  post c := iprop(StableHlo.held (c : Thread nD τ) (Pipeline.ucRefs τ sig) (V14 m (outs m) c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Reg4.lean ====
/-
  Region 4 as a segment of @main. It is entered from every unscoped buffer at the contents the host stretches
  before it leave, and left with its result array at the entrywise combination and every other buffer as entered. Its
  arrays are split out of the unscoped buffers at entry and put back at exit; the generator register goes into the
  region's invariant and comes back; nothing is owed; the kernel has no semaphore of its own.
-/
import proofs.«402448_j34849364639903_1_alg».proof.Proof.KI.PData
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The buffers region 4 is left with, read at the TensorCore's references. -/
abbrev X4 (c : Dev nD) (b : Ref sig .tc) : Buf (Elt F) ((c : Thread nD τ).loc b) := V16 m (outs m) c b

/-- The entrywise combination of the operands as entered is what the exit valuation holds in the result buffer. -/
theorem out_eq4 (c : Dev nD) :
    combA (kdt (F := F)) (E4 m c (Pipeline.arrRef spec4 0)) (E4 m c (Pipeline.arrRef spec4 1)) (E4 m c (Pipeline.arrRef spec4 2)) (E4 m c (Pipeline.arrRef spec4 3)) (E4 m c (Pipeline.arrRef spec4 4))
      = X4 m c (Pipeline.arrRef spec4 5) :=
  (combA_congr _ (congrFun (V15_eq m c) _) (congrFun (V15_eq m c) _) (congrFun (V15_eq m c) _) (congrFun (V15_eq m c) _) (congrFun (V15_eq m c) _)).trans
    ((U16_out m c).symm.trans (congrFun (V16_eq m c) _).symm)

set_option maxHeartbeats 2000000 in
/-- At the exit each of the region's arrays holds what the pipeline leaves: the operands as entered, the result at
    the entrywise combination. -/
theorem hF4 (c : Dev nD) (w : Fin cfg4.W) : (pdats m 4 c).arrAt w cfg4.N = X4 m c (Pipeline.arrRef spec4 w) := by
  match w with
  | ⟨0, _⟩ => exact (kept4 (E4 m) c 0 (by decide)).trans (V16_of m (outs m) c _ (by decide)).symm
  | ⟨1, _⟩ => exact (kept4 (E4 m) c 1 (by decide)).trans (V16_of m (outs m) c _ (by decide)).symm
  | ⟨2, _⟩ => exact (kept4 (E4 m) c 2 (by decide)).trans (V16_of m (outs m) c _ (by decide)).symm
  | ⟨3, _⟩ => exact (kept4 (E4 m) c 3 (by decide)).trans (V16_of m (outs m) c _ (by decide)).symm
  | ⟨4, _⟩ => exact (kept4 (E4 m) c 4 (by decide)).trans (V16_of m (outs m) c _ (by decide)).symm
  | ⟨5, _⟩ => exact (final4 (E4 m) c).trans (out_eq4 m c)

/-- Every other buffer is as entered. -/
theorem hrest4 (c : Dev nD) : ∀ b, b ∉ Finset.univ.image (Pipeline.arrRef spec4) → X4 m c b = E4 m c b := fun b hb =>
  V16_of m (outs m) c b (by
    intro h; rw [List.mem_singleton] at h; subst h
    exact hb (Finset.mem_image.mpr ⟨5, Finset.mem_univ _, rfl⟩))

set_option backward.isDefEq.respectTransparency.types false in
def reg4 : Pipeline.RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := body_obligation4 (E4 m) c
  hwaits := Pipeline.hwaits_of_owed_zero _ _ _ _ L lv 4 fun _ _ => rfl
  pre c := iprop(StableHlo.held (c : Thread nD τ) (Pipeline.ucRefs τ sig) (V15 m (outs m) c) ∗ R c)
  post c := iprop(StableHlo.held (c : Thread nD τ) (Pipeline.ucRefs τ sig) (V16 m (outs m) c) ∗ R c)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KI.Frame.lean ====
/-
  The run of @main: from any memory with zero counters every weakly fair execution terminates, the result array ends
  holding the closed-form contents of the last valuation, and the arguments end as launched. The launch deals every
  core its generator register and no dues, which ride beside the buffers through all seventeen items; the five
  regions' records chain from the launch valuation to the last.
-/
import proofs.«402448_j34849364639903_1_alg».proof.Proof.KI.Reg0
import proofs.«402448_j34849364639903_1_alg».proof.Proof.KI.Reg1
import proofs.«402448_j34849364639903_1_alg».proof.Proof.KI.Reg2
import proofs.«402448_j34849364639903_1_alg».proof.Proof.KI.Reg3
import proofs.«402448_j34849364639903_1_alg».proof.Proof.KI.Reg4
import proofs.«402448_j34849364639903_1_alg».proof.Proof.KI.Run
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Tactic

set_option maxRecDepth 1240

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- The launch element: every staging cell's owner at round 0 and a duty token for every transfer the pipelines issue. -/
abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the rest state: the register, and nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE5 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- THE RUN, the result named. -/
theorem run_main (ρ : Dev nD → PrngReg) :
    θ_run defs (onTc (τ := τ) (main (F := F))) ⟨m, fun _ => 0, ρ⟩ (fun r => ∀ c : Dev nD,
      r.2.mem ((c.tc : Thread nD τ).loc main_v48) = U17 m c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (congrFun (V17_eq m c) _), (h c).2⟩)
    (run_cond m emb₁ () Variants.none L lv (fun _ _ => rfl) ρ (outs m) (pdats m) 0 (fun _ => (BI.emp : sProp 𝕄)) u₀ (hu₀ (F := F))
      (fun _ c => R (F := F) c) (hE0 (F := F) ρ) (hE5 (F := F))
      (reg0 m) (fun _ => .rfl) (fun _ => .rfl) (reg1 m) (fun _ => .rfl) (fun _ => .rfl)
      (reg2 m) (fun _ => .rfl) (fun _ => .rfl) (reg3 m) (fun _ => .rfl) (fun _ => .rfl)
      (reg4 m) (fun _ => .rfl) (fun _ => .rfl))

/-- THE FRAME: the arguments end as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_main m ρ)

end Cert.KernelIdeal.Reg

end
-- ==== Proof.RefRun.lean ====
/-
  The reference's run and its stages read at an index, as generated, gathered under one import.
-/
import proofs.«402448_j34849364639903_1_alg».proof.Proof.Gen.ReferenceIdeal.Run
import proofs.«402448_j34849364639903_1_alg».proof.Proof.Gen.ReferenceIdeal.Read
-- ==== Proof.ConstLemmas.lean ====
/-
  The float constants of the time step, as the extended reals they denote at the ideal instance: the step
  0.01 in single precision is the dyadic 5368709 / 2^29, its named reciprocal is the rational 2^29 / 5368709 the
  certificate's table gives it, and dividing by the step is multiplying by that reciprocal on every extended real.
-/
import proofs.«402448_j34849364639903_1_alg».proof.Defs
import Idealize.ShloMosaic.PureOps.Ideal
import Idealize.ShloMosaic.PureOps.IdealRules

noncomputable section

namespace Cert.ConstLemmas

open Idealize.ShloMosaic

/-- The named reciprocal of the step denotes the rational 536870912 / 5368709, by the certificate's table. -/
theorem inv_dt : Named.named (F := Ideal) Cert.KernelIdeal.κ "inv_dt" (φ := .f32) 0x42C80000#32
    = ((536870912 / 5368709 : ℝ) : EReal) :=
  IdealRules.named_const.ideal_named_scalar _ _ _ _ rfl

/-- The step's pattern denotes the dyadic 5368709 / 536870912. -/
theorem ofBits_dt : Ideal.ofBits .f32 0x3C23D70A#32 = ((5368709 / 536870912 : ℝ) : EReal) := by
  simp [Ideal.ofBits, Ideal.ieee, -EReal.coe_mul]; norm_num

/-- Dividing by the step is multiplying by its exact reciprocal. -/
theorem div_dt (x : EReal) : Ideal.div x (Ideal.ofBits .f32 0x3C23D70A#32) = x * ((536870912 / 5368709 : ℝ) : EReal) := by
  rw [ofBits_dt, Ideal.div_coe (by norm_num : (5368709 / 536870912 : ℝ) ≠ 0)]
  congr 2
  norm_num

/-- The ledger's one entry: the table gives the name the rational, and the printed constant is that value at the
    ideal instance. -/
theorem preserves : Cert.preserves_Kernel_KernelIdeal :=
  IdealRules.named_const.statement Cert.KernelIdeal.κ "inv_dt" .f32 0x42C80000#32 ((536870912 / 5368709 : ℝ) : EReal) rfl

end Cert.ConstLemmas

end
-- ==== Proof.PreIdx.lean ====
/-
  The precondition decoded: its last two conjuncts say every entry of the edge-index array, read signed, is at
  least 0 and below 4000000. Each is an all-axes reduction by and of an elementwise comparison, and the whole
  predicate is their conjunction with four finiteness conjuncts, so the predicate being 1 gives each comparison
  being 1 at every index.
-/
import proofs.«402448_j34849364639903_1_alg».proof.Defs
import Idealize.ShloMosaic.Lib.ReduceAll
import Idealize.ShloMosaic.Lib.ValueIdx
import Idealize.ShloMosaic.Lib.IdealHost

noncomputable section

namespace Cert.PreIdx

open Idealize.ShloMosaic Idealize.SL.Sem

instance : Subsingleton Cert.Pre_finite_inputs.S_.Idx := ⟨fun a b => funext fun d => d.elim0⟩

/-- The predicate as a function of five arrays: where it is 1, every entry of the third array is in [0, 4000000),
    read signed. -/
theorem idx_of_fn [hPre : Cert.Pre_finite_inputs.Facts] {F : FTy → Type} [FloatOps F]
    (a0 a1 : FVec F Cert.Pre_finite_inputs.S4000000x2 .f32) (a2 : IVec Cert.Pre_finite_inputs.S2x8000000 32)
    (a3 : FVec F Cert.Pre_finite_inputs.S8000000x1 .f32) (a4 : FVec F Cert.Pre_finite_inputs.S4000000x1 .f32)
    (h : Cert.Pre_finite_inputs.fn (F := F) a0 a1 a2 a3 a4 = fun _ => 1#1) :
    ∀ i : Cert.Pre_finite_inputs.S2x8000000.Idx, 0 ≤ (a2 i).toInt ∧ (a2 i).toInt < 4000000 := by
  intro i
  have e := congrFun h ValueIdx.ix0
  dsimp only [Cert.Pre_finite_inputs.fn, Cert.Pre_finite_inputs.fn_part1] at e
  simp only [andi, IntOp.andi_eq_one] at e
  obtain ⟨⟨-, hge⟩, hlt⟩ := e
  have hge' := Host.reduce_andi_all _ _ _ _ _ hge i
  have hlt' := Host.reduce_andi_all _ _ _ _ _ hlt i
  simp only [cmpi, broadcastInDim, constantI] at hge' hlt'
  rw [IntOp.cmpi_sge] at hge'
  rw [IntOp.cmpi_slt] at hlt'
  rw [show (0#32 : BitVec 32).toInt = 0 from by decide] at hge'
  rw [show (4000000#32 : BitVec 32).toInt = 4000000 from by decide] at hlt'
  exact ⟨hge', hlt'⟩

/-- The precondition of the idealized kernel gives the range of the edge-index array in the launch memory, on every
    device. -/
theorem idx_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Cert.KernelIdeal.S2x8000000.Idx,
      0 ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 4000000 :=
  idx_of_fn (F := Ideal) _ _ _ _ _ (h c)

end Cert.PreIdx

end
-- ==== Proof.BridgeRead0.lean ====
/-
  The first host stretch of the kernel program, read off: the two time levels are column 0 of the two node
  arrays, the edge lengths and the mask are the one column of theirs, the start and end positions are rows 0
  and 1 of the edge index array, and the edge counts are ones summed at the end positions. Each is the same
  expression the reference program builds from the same argument.
-/
import proofs.«402448_j34849364639903_1_alg».proof.Proof.KI.Chain
import proofs.«402448_j34849364639903_1_alg».proof.Proof.Gen.ReferenceIdeal.Read
import Idealize.ShloMosaic.Lib.StableHlo.Run

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

open Cert.ReferenceIdeal.Read

variable (m : (ℓ : Loc nD τ sig) → Buf (Elt F) ℓ) (c : Dev nD)

theorem v1_main_v1 : V1 m c main_v1 = val_main_v2 (F := F) (m ((c.tc : Thread nD τ).loc main_arg0)) := by
  show StableHlo.after hostOps0 _ (Proc.devRef .tc main_v1) = _
  after_results
  rfl
theorem v1_main_v3 : V1 m c main_v3 = val_main_v4 (F := F) (m ((c.tc : Thread nD τ).loc main_arg1)) := by
  show StableHlo.after hostOps0 _ (Proc.devRef .tc main_v3) = _
  after_results
  rfl
theorem v1_main_v4 : V1 m c main_v4 = val_main_v0 (F := F) (m ((c.tc : Thread nD τ).loc main_arg3)) := by
  show StableHlo.after hostOps0 _ (Proc.devRef .tc main_v4) = _
  after_results
  rfl
theorem v1_main_v5 : V1 m c main_v5 = val_main_v73 (F := F) (m ((c.tc : Thread nD τ).loc main_arg4)) := by
  show StableHlo.after hostOps0 _ (Proc.devRef .tc main_v5) = _
  after_results
  rfl
theorem v1_main_v7 : V1 m c main_v7 = val_main_v9 (F := F) (m ((c.tc : Thread nD τ).loc main_arg2)) := by
  show StableHlo.after hostOps0 _ (Proc.devRef .tc main_v7) = _
  after_results
  rfl
theorem v1_main_v9 : V1 m c main_v9 = val_main_v11 (F := F) (m ((c.tc : Thread nD τ).loc main_arg2)) := by
  show StableHlo.after hostOps0 _ (Proc.devRef .tc main_v9) = _
  after_results
  rfl
theorem v1_main_v13 : V1 m c main_v13 = val_main_v34 (F := F) (m ((c.tc : Thread nD τ).loc main_arg2)) := by
  show StableHlo.after hostOps0 _ (Proc.devRef .tc main_v13) = _
  after_results
  rfl

end Cert.Bridge

end
-- ==== Proof.BridgeDefs.lean ====
/-
  The kernel program's result as one expression in its five argument arrays: the take (read a table at an
  array of positions), the spatial derivative (differences of the table along the edges over the edge
  lengths, summed into the edges' end nodes, over the nodes' edge counts at least one) and the loss
  (the weighted combination times the mask), each with the arrays laid out in rows of 128 where the
  program lays them out so.
-/
import proofs.«402448_j34849364639903_1_alg».proof.Proof.KI.Chain

noncomputable section

namespace Cert.Bridge

open Idealize.ShloMosaic Idealize.ShloMosaic.TcCoe
open Cert.KernelIdeal Cert.KernelIdeal.Reg
open Cert.KernelIdeal.Facts₀

variable {F : FTy → Type} [FloatOps F] [Named F]

/-- Read the table `x` at the positions `idx`: a negative position is moved up by the table's length, and
    where the moved position is outside the table the result is a fixed pattern instead of an entry. -/
def takeK (x : FVec F S4000000 .f32) (idx : IVec S8000000 32) : FVec F S8000000 .f32 :=
  select
    (Host.reduce IntOp.andi
      (andi
        (cmpi .sge
          (broadcastInDim S8000000x1 ![0] bcast_S8000000_S8000000x1_0
            (select (cmpi .slt idx (broadcastInDim S8000000 ![] bcast_S_S8000000 (constantI S_ 32 0#32)))
              (addi idx (broadcastInDim S8000000 ![] bcast_S_S8000000 (constantI S_ 32 4000000#32))) idx))
          (broadcastInDim S8000000x1 ![] bcast_S_S8000000x1 (constantI S_ 32 0#32)))
        (cmpi .sle
          (broadcastInDim S8000000x1 ![0] bcast_S8000000_S8000000x1_0
            (select (cmpi .slt idx (broadcastInDim S8000000 ![] bcast_S_S8000000 (constantI S_ 32 0#32)))
              (addi idx (broadcastInDim S8000000 ![] bcast_S_S8000000 (constantI S_ 32 4000000#32))) idx))
          (broadcastInDim S8000000x1 ![0, 1] bcast_S1x1_S8000000x1_0_1
            (broadcastInDim S1x1 ![1] bcast_S1_S1x1_1 (constantI S1 32 3999999#32)))))
      (constantI S_ 1 1#1) reducesTo_S8000000x1_S8000000_d1 h_S_)
    (Host.gather gather_S4000000_S8000000x1_S8000000_n_0_n_n_0_1_1 x
      (broadcastInDim S8000000x1 ![0] bcast_S8000000_S8000000x1_0
        (select (cmpi .slt idx (broadcastInDim S8000000 ![] bcast_S_S8000000 (constantI S_ 32 0#32)))
          (addi idx (broadcastInDim S8000000 ![] bcast_S_S8000000 (constantI S_ 32 4000000#32))) idx)))
    (broadcastInDim S8000000 ![] bcast_S_S8000000 (constant (F := F) S_ .f32 0x7FC00000#32))

/-- The edge sums of `w` at the edges' end nodes `dst`, starting from zero. -/
def sumAt (dst : IVec S8000000 32) (w : FVec F S8000000 .f32) : FVec F S4000000 .f32 :=
  Host.scatterAdd scatter_S4000000_S8000000x1_S8000000_n_0_0_1
    (broadcastInDim S4000000 ![] bcast_S_S4000000 (constant (F := F) S_ .f32 0x00000000#32))
    (broadcastInDim S8000000x1 ![0] bcast_S8000000_S8000000x1_0 dst) w

/-- The spatial derivative of the node table `v`: per edge (v[dst] − v[src]) / len in rows of 128, summed at
    the end nodes, then per node s / max(count, 1) in rows of 128. -/
def sdK (dst src : IVec S8000000 32) (len : FVec F S8000000 .f32) (cnt v : FVec F S4000000 .f32) :
    FVec F S4000000 .f32 :=
  shapeCast S4000000
    (finA
      (shapeCast S31250x128
        (sumAt dst
          (shapeCast S8000000
            (ediffA (shapeCast S62500x128 (takeK v dst) shapeCasts_S8000000_S62500x128)
              (shapeCast S62500x128 (takeK v src) shapeCasts_S8000000_S62500x128)
              (shapeCast S62500x128 len shapeCasts_S8000000_S62500x128))
            shapeCasts_S62500x128_S8000000))
        shapeCasts_S4000000_S31250x128)
      (shapeCast S31250x128 cnt shapeCasts_S4000000_S31250x128))
    shapeCasts_S31250x128_S4000000

/-- The loss: ((u − u₁)·k + du·u₁ − 0.01·d2u)·mask in rows of 128, with du the spatial derivative of u₁ and
    d2u that of du. -/
def lossK (dst src : IVec S8000000 32) (len : FVec F S8000000 .f32) (cnt u u1 mk : FVec F S4000000 .f32) :
    FVec F S4000000 .f32 :=
  shapeCast S4000000
    (combA (kdt (F := F))
      (shapeCast S31250x128 u shapeCasts_S4000000_S31250x128)
      (shapeCast S31250x128 u1 shapeCasts_S4000000_S31250x128)
      (shapeCast S31250x128 (sdK dst src len cnt u1) shapeCasts_S4000000_S31250x128)
      (shapeCast S31250x128 (sdK dst src len cnt (sdK dst src len cnt u1)) shapeCasts_S4000000_S31250x128)
      (shapeCast S31250x128 mk shapeCasts_S4000000_S31250x128))
    shapeCasts_S31250x128_S4000000

end Cert.Bridge

end
-- ==== Proof.BridgeFrame.lean ====
/-
  Which arrays each item of the kernel program leaves as they were: a host stretch changes only the arrays
  its operations write, a kernel region only its result array. From these, each array is read at the item
  that needs it as it stood when it was last written.
-/
import proofs.«402448_j34849364639903_1_alg».proof.Proof.KI.Chain
import Idealize.ShloMosaic.Lib.StableHlo.Run

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

variable (m : (ℓ : Loc nD τ sig) → Buf (Elt F) ℓ) (c : Dev nD)

theorem U5_of (r : Ref sig .tc) (h : r ∉ ([main_v19] : List (Ref sig .tc))) : U5 m c r = V4 m c r := by
  simp only [U5, Function.update_of_ne (StableHlo.devRef_ne_of_ne (List.ne_of_not_mem_cons h) : (Proc.devRef .tc r : DevRef τ sig) ≠ Proc.devRef .tc main_v19)]
theorem U5_self : U5 m c main_v19 = o5 m c := Function.update_self ..
theorem U6_of (r : Ref sig .tc) (h : r ∉ hostOps1_W) : U6 m c r = U5 m c r :=
  StableHlo.after_of_writes_sub hostOps1 _ hostOps1_writes h
theorem U7_of (r : Ref sig .tc) (h : r ∉ ([main_v26] : List (Ref sig .tc))) : U7 m c r = U6 m c r := by
  simp only [U7, Function.update_of_ne (StableHlo.devRef_ne_of_ne (List.ne_of_not_mem_cons h) : (Proc.devRef .tc r : DevRef τ sig) ≠ Proc.devRef .tc main_v26)]
theorem U7_self : U7 m c main_v26 = o7 m c := Function.update_self ..
theorem U8_of (r : Ref sig .tc) (h : r ∉ hostOps2_W) : U8 m c r = U7 m c r :=
  StableHlo.after_of_writes_sub hostOps2 _ hostOps2_writes h
theorem U9_of (r : Ref sig .tc) (h : r ∉ hostOps2_1_W) : U9 m c r = U8 m c r :=
  StableHlo.after_of_writes_sub hostOps2_1 _ hostOps2_1_writes h
theorem U10_of (r : Ref sig .tc) (h : r ∉ hostOps2_2_W) : U10 m c r = U9 m c r :=
  StableHlo.after_of_writes_sub hostOps2_2 _ hostOps2_2_writes h
theorem U11_of (r : Ref sig .tc) (h : r ∉ hostOps2_3_W) : U11 m c r = U10 m c r :=
  StableHlo.after_of_writes_sub hostOps2_3 _ hostOps2_3_writes h
theorem U12_of (r : Ref sig .tc) (h : r ∉ ([main_v33] : List (Ref sig .tc))) : U12 m c r = U11 m c r := by
  simp only [U12, Function.update_of_ne (StableHlo.devRef_ne_of_ne (List.ne_of_not_mem_cons h) : (Proc.devRef .tc r : DevRef τ sig) ≠ Proc.devRef .tc main_v33)]
theorem U12_self : U12 m c main_v33 = o12 m c := Function.update_self ..
theorem U13_of (r : Ref sig .tc) (h : r ∉ hostOps3_W) : U13 m c r = U12 m c r :=
  StableHlo.after_of_writes_sub hostOps3 _ hostOps3_writes h
theorem U14_of (r : Ref sig .tc) (h : r ∉ ([main_v40] : List (Ref sig .tc))) : U14 m c r = U13 m c r := by
  simp only [U14, Function.update_of_ne (StableHlo.devRef_ne_of_ne (List.ne_of_not_mem_cons h) : (Proc.devRef .tc r : DevRef τ sig) ≠ Proc.devRef .tc main_v40)]
theorem U14_self : U14 m c main_v40 = o14 m c := Function.update_self ..
theorem U15_of (r : Ref sig .tc) (h : r ∉ hostOps4_W) : U15 m c r = U14 m c r :=
  StableHlo.after_of_writes_sub hostOps4 _ hostOps4_writes h
theorem U16_of (r : Ref sig .tc) (h : r ∉ ([main_v47] : List (Ref sig .tc))) : U16 m c r = U15 m c r := by
  simp only [U16, Function.update_of_ne (StableHlo.devRef_ne_of_ne (List.ne_of_not_mem_cons h) : (Proc.devRef .tc r : DevRef τ sig) ≠ Proc.devRef .tc main_v47)]
theorem U16_self : U16 m c main_v47 = o16 m c := Function.update_self ..
theorem U17_of (r : Ref sig .tc) (h : r ∉ hostOps5_W) : U17 m c r = U16 m c r :=
  StableHlo.after_of_writes_sub hostOps5 _ hostOps5_writes h

/-! The end-node positions, the start-node positions, the edge lengths, the edge counts, the two time levels and
    the mask are written once, by the first stretch. -/
theorem p5_main_v9 : U5 m c main_v9 = V1 m c main_v9 :=
  (U5_of m c main_v9 (by decide)).trans <|
  (V4_of m c main_v9 (by decide)).trans <|
  (V3_of m c main_v9 (by decide)).trans <|
  (V2_of m c main_v9 (by decide))
theorem p8_main_v9 : U8 m c main_v9 = V1 m c main_v9 :=
  (U8_of m c main_v9 (by decide)).trans <|
  (U7_of m c main_v9 (by decide)).trans <|
  (U6_of m c main_v9 (by decide)).trans <|
  (U5_of m c main_v9 (by decide)).trans <|
  (V4_of m c main_v9 (by decide)).trans <|
  (V3_of m c main_v9 (by decide)).trans <|
  (V2_of m c main_v9 (by decide))
theorem p12_main_v9 : U12 m c main_v9 = V1 m c main_v9 :=
  (U12_of m c main_v9 (by decide)).trans <|
  (U11_of m c main_v9 (by decide)).trans <|
  (U10_of m c main_v9 (by decide)).trans <|
  (U9_of m c main_v9 (by decide)).trans <|
  (U8_of m c main_v9 (by decide)).trans <|
  (U7_of m c main_v9 (by decide)).trans <|
  (U6_of m c main_v9 (by decide)).trans <|
  (U5_of m c main_v9 (by decide)).trans <|
  (V4_of m c main_v9 (by decide)).trans <|
  (V3_of m c main_v9 (by decide)).trans <|
  (V2_of m c main_v9 (by decide))
theorem p2_main_v7 : V2 m c main_v7 = V1 m c main_v7 :=
  (V2_of m c main_v7 (by decide))
theorem p9_main_v7 : U9 m c main_v7 = V1 m c main_v7 :=
  (U9_of m c main_v7 (by decide)).trans <|
  (U8_of m c main_v7 (by decide)).trans <|
  (U7_of m c main_v7 (by decide)).trans <|
  (U6_of m c main_v7 (by decide)).trans <|
  (U5_of m c main_v7 (by decide)).trans <|
  (V4_of m c main_v7 (by decide)).trans <|
  (V3_of m c main_v7 (by decide)).trans <|
  (V2_of m c main_v7 (by decide))
theorem p2_main_v3 : V2 m c main_v3 = V1 m c main_v3 :=
  (V2_of m c main_v3 (by decide))
theorem p14_main_v3 : U14 m c main_v3 = V1 m c main_v3 :=
  (U14_of m c main_v3 (by decide)).trans <|
  (U13_of m c main_v3 (by decide)).trans <|
  (U12_of m c main_v3 (by decide)).trans <|
  (U11_of m c main_v3 (by decide)).trans <|
  (U10_of m c main_v3 (by decide)).trans <|
  (U9_of m c main_v3 (by decide)).trans <|
  (U8_of m c main_v3 (by decide)).trans <|
  (U7_of m c main_v3 (by decide)).trans <|
  (U6_of m c main_v3 (by decide)).trans <|
  (U5_of m c main_v3 (by decide)).trans <|
  (V4_of m c main_v3 (by decide)).trans <|
  (V3_of m c main_v3 (by decide)).trans <|
  (V2_of m c main_v3 (by decide))
theorem p3_main_v4 : V3 m c main_v4 = V1 m c main_v4 :=
  (V3_of m c main_v4 (by decide)).trans <|
  (V2_of m c main_v4 (by decide))
theorem p10_main_v4 : U10 m c main_v4 = V1 m c main_v4 :=
  (U10_of m c main_v4 (by decide)).trans <|
  (U9_of m c main_v4 (by decide)).trans <|
  (U8_of m c main_v4 (by decide)).trans <|
  (U7_of m c main_v4 (by decide)).trans <|
  (U6_of m c main_v4 (by decide)).trans <|
  (U5_of m c main_v4 (by decide)).trans <|
  (V4_of m c main_v4 (by decide)).trans <|
  (V3_of m c main_v4 (by decide)).trans <|
  (V2_of m c main_v4 (by decide))
theorem p5_main_v13 : U5 m c main_v13 = V1 m c main_v13 :=
  (U5_of m c main_v13 (by decide)).trans <|
  (V4_of m c main_v13 (by decide)).trans <|
  (V3_of m c main_v13 (by decide)).trans <|
  (V2_of m c main_v13 (by decide))
theorem p12_main_v13 : U12 m c main_v13 = V1 m c main_v13 :=
  (U12_of m c main_v13 (by decide)).trans <|
  (U11_of m c main_v13 (by decide)).trans <|
  (U10_of m c main_v13 (by decide)).trans <|
  (U9_of m c main_v13 (by decide)).trans <|
  (U8_of m c main_v13 (by decide)).trans <|
  (U7_of m c main_v13 (by decide)).trans <|
  (U6_of m c main_v13 (by decide)).trans <|
  (U5_of m c main_v13 (by decide)).trans <|
  (V4_of m c main_v13 (by decide)).trans <|
  (V3_of m c main_v13 (by decide)).trans <|
  (V2_of m c main_v13 (by decide))
theorem p14_main_v1 : U14 m c main_v1 = V1 m c main_v1 :=
  (U14_of m c main_v1 (by decide)).trans <|
  (U13_of m c main_v1 (by decide)).trans <|
  (U12_of m c main_v1 (by decide)).trans <|
  (U11_of m c main_v1 (by decide)).trans <|
  (U10_of m c main_v1 (by decide)).trans <|
  (U9_of m c main_v1 (by decide)).trans <|
  (U8_of m c main_v1 (by decide)).trans <|
  (U7_of m c main_v1 (by decide)).trans <|
  (U6_of m c main_v1 (by decide)).trans <|
  (U5_of m c main_v1 (by decide)).trans <|
  (V4_of m c main_v1 (by decide)).trans <|
  (V3_of m c main_v1 (by decide)).trans <|
  (V2_of m c main_v1 (by decide))
theorem p14_main_v5 : U14 m c main_v5 = V1 m c main_v5 :=
  (U14_of m c main_v5 (by decide)).trans <|
  (U13_of m c main_v5 (by decide)).trans <|
  (U12_of m c main_v5 (by decide)).trans <|
  (U11_of m c main_v5 (by decide)).trans <|
  (U10_of m c main_v5 (by decide)).trans <|
  (U9_of m c main_v5 (by decide)).trans <|
  (U8_of m c main_v5 (by decide)).trans <|
  (U7_of m c main_v5 (by decide)).trans <|
  (U6_of m c main_v5 (by decide)).trans <|
  (U5_of m c main_v5 (by decide)).trans <|
  (V4_of m c main_v5 (by decide)).trans <|
  (V3_of m c main_v5 (by decide)).trans <|
  (V2_of m c main_v5 (by decide))
theorem p3_main_v14 : V3 m c main_v14 = V2 m c main_v14 :=
  (V3_of m c main_v14 (by decide))
theorem p9_main_v27 : U9 m c main_v27 = U8 m c main_v27 :=
  (U9_of m c main_v27 (by decide))
theorem p14_main_v27 : U14 m c main_v27 = U8 m c main_v27 :=
  (U14_of m c main_v27 (by decide)).trans <|
  (U13_of m c main_v27 (by decide)).trans <|
  (U12_of m c main_v27 (by decide)).trans <|
  (U11_of m c main_v27 (by decide)).trans <|
  (U10_of m c main_v27 (by decide)).trans <|
  (U9_of m c main_v27 (by decide))
theorem p10_main_v28 : U10 m c main_v28 = U9 m c main_v28 :=
  (U10_of m c main_v28 (by decide))

end Cert.Bridge

end
-- ==== Proof.BridgeCast.lean ====
/-
  A typed reference carries contents between a tensor value's type and its buffer's type; the two are the
  same type, so carrying there and back, or either way at a buffer of the program, changes nothing.
-/
import proofs.«402448_j34849364639903_1_alg».proof.Proof.KI.Chain

noncomputable section

namespace Cert.Bridge

open Idealize.ShloMosaic Idealize.ShloMosaic.TcCoe
open Cert.KernelIdeal Cert.KernelIdeal.Reg
open Cert.KernelIdeal.Facts₀

variable {F : FTy → Type} [FloatOps F] [Named F]

/-- Contents carried to a typed reference's buffer and back are the contents. -/
theorem ofBuf_toBuf {T : BufTy} (r : Ref sig .tc) (h h' : r.ty = T) (d d' : r.space ≠ .host)
    (u u' : r.isScoped = false) (v : T.Contents (Elt F)) :
    (StableHlo.TRef.of r h d u).ofBuf ((StableHlo.TRef.of r h' d' u').toBuf v) = v := by
  subst h; rfl

/-! At the buffers the four takes read and write. -/
theorem ofBuf_main_v9 (h : (main_v9 : Ref sig .tc).ty = (⟨S8000000, .i32⟩ : BufTy)) (d u) (v : (main_v9 : Ref sig .tc).ty.Contents (Elt F)) :
    (StableHlo.TRef.of main_v9 h d u : StableHlo.TRef sig ⟨S8000000, .i32⟩).ofBuf v = v := rfl
theorem ofBuf_main_v7 (h : (main_v7 : Ref sig .tc).ty = (⟨S8000000, .i32⟩ : BufTy)) (d u) (v : (main_v7 : Ref sig .tc).ty.Contents (Elt F)) :
    (StableHlo.TRef.of main_v7 h d u : StableHlo.TRef sig ⟨S8000000, .i32⟩).ofBuf v = v := rfl
theorem ofBuf_main_v3 (h : (main_v3 : Ref sig .tc).ty = (⟨S4000000, .f32⟩ : BufTy)) (d u) (v : (main_v3 : Ref sig .tc).ty.Contents (Elt F)) :
    (StableHlo.TRef.of main_v3 h d u : StableHlo.TRef sig ⟨S4000000, .f32⟩).ofBuf v = v := rfl
theorem ofBuf_main_v27 (h : (main_v27 : Ref sig .tc).ty = (⟨S4000000, .f32⟩ : BufTy)) (d u) (v : (main_v27 : Ref sig .tc).ty.Contents (Elt F)) :
    (StableHlo.TRef.of main_v27 h d u : StableHlo.TRef sig ⟨S4000000, .f32⟩).ofBuf v = v := rfl
theorem toBuf_main_v14 (h : (main_v14 : Ref sig .tc).ty = (⟨S8000000, .f32⟩ : BufTy)) (d u) (v : (⟨S8000000, .f32⟩ : BufTy).Contents (Elt F)) :
    (StableHlo.TRef.of main_v14 h d u : StableHlo.TRef sig ⟨S8000000, .f32⟩).toBuf v = v := rfl
theorem toBuf_main_v15 (h : (main_v15 : Ref sig .tc).ty = (⟨S8000000, .f32⟩ : BufTy)) (d u) (v : (⟨S8000000, .f32⟩ : BufTy).Contents (Elt F)) :
    (StableHlo.TRef.of main_v15 h d u : StableHlo.TRef sig ⟨S8000000, .f32⟩).toBuf v = v := rfl
theorem toBuf_main_v28 (h : (main_v28 : Ref sig .tc).ty = (⟨S8000000, .f32⟩ : BufTy)) (d u) (v : (⟨S8000000, .f32⟩ : BufTy).Contents (Elt F)) :
    (StableHlo.TRef.of main_v28 h d u : StableHlo.TRef sig ⟨S8000000, .f32⟩).toBuf v = v := rfl
theorem toBuf_main_v29 (h : (main_v29 : Ref sig .tc).ty = (⟨S8000000, .f32⟩ : BufTy)) (d u) (v : (⟨S8000000, .f32⟩ : BufTy).Contents (Elt F)) :
    (StableHlo.TRef.of main_v29 h d u : StableHlo.TRef sig ⟨S8000000, .f32⟩).toBuf v = v := rfl

end Cert.Bridge

end
-- ==== Proof.BridgeRead1.lean ====
/-
  The first spatial derivative in the kernel program, read off stretch by stretch: the two takes of the later
  time level at the end and start positions, the three edge arrays laid out in rows of 128, the region's
  quotient of the difference, the sum at the end positions, the node arrays in rows of 128, the region's
  quotient by the count at least one, and the result laid out flat again.
-/
import proofs.«402448_j34849364639903_1_alg».proof.Proof.BridgeDefs
import proofs.«402448_j34849364639903_1_alg».proof.Proof.BridgeFrame
import proofs.«402448_j34849364639903_1_alg».proof.Proof.BridgeCast

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

/-! What each stretch writes, over any contents `W` of the arrays before it. -/

set_option maxHeartbeats 4000000 in
set_option maxRecDepth 4000 in
theorem w_main_v14 (W : Valuation τ sig (Elt F)) :
    StableHlo.after hostOps0_1 W (Proc.devRef .tc main_v14) = takeK (W main_v3) (W main_v9) := by
  after_results_simp
  simp only [ofBuf_toBuf, ofBuf_main_v9, ofBuf_main_v3, toBuf_main_v14]
  rfl
set_option maxHeartbeats 4000000 in
set_option maxRecDepth 4000 in
theorem w_main_v15 (W : Valuation τ sig (Elt F)) :
    StableHlo.after hostOps0_2 W (Proc.devRef .tc main_v15) = takeK (W main_v3) (W main_v7) := by
  after_results_simp
  simp only [ofBuf_toBuf, ofBuf_main_v7, ofBuf_main_v3, toBuf_main_v15]
  rfl
theorem w_main_v16 (W : Valuation τ sig (Elt F)) :
    StableHlo.after hostOps0_3 W (Proc.devRef .tc main_v16) = shapeCast S62500x128 (W main_v14) Facts₀.shapeCasts_S8000000_S62500x128 := by
  after_results
  rfl
theorem w_main_v17 (W : Valuation τ sig (Elt F)) :
    StableHlo.after hostOps0_3 W (Proc.devRef .tc main_v17) = shapeCast S62500x128 (W main_v15) Facts₀.shapeCasts_S8000000_S62500x128 := by
  after_results
  rfl
theorem w_main_v18 (W : Valuation τ sig (Elt F)) :
    StableHlo.after hostOps0_3 W (Proc.devRef .tc main_v18) = shapeCast S62500x128 (W main_v4) Facts₀.shapeCasts_S8000000_S62500x128 := by
  after_results
  rfl
theorem w_main_v24 (W : Valuation τ sig (Elt F)) :
    StableHlo.after hostOps1 W (Proc.devRef .tc main_v24) = shapeCast S31250x128 (sumAt (W main_v9) (shapeCast S8000000 (W main_v19) Facts₀.shapeCasts_S62500x128_S8000000)) Facts₀.shapeCasts_S4000000_S31250x128 := by
  after_results
  rfl
theorem w_main_v25 (W : Valuation τ sig (Elt F)) :
    StableHlo.after hostOps1 W (Proc.devRef .tc main_v25) = shapeCast S31250x128 (W main_v13) Facts₀.shapeCasts_S4000000_S31250x128 := by
  after_results
  rfl
theorem w_main_v27 (W : Valuation τ sig (Elt F)) :
    StableHlo.after hostOps2 W (Proc.devRef .tc main_v27) = shapeCast S4000000 (W main_v26) Facts₀.shapeCasts_S31250x128_S4000000 := by
  after_results
  rfl

variable (m : (ℓ : Loc nD τ sig) → Buf (Elt F) ℓ) (c : Dev nD)

/-- Region 0's result: the quotient of the difference of the two takes by the lengths, in rows of 128. -/
theorem o5_eq : o5 m c = ediffA (shapeCast S62500x128 (takeK (V1 m c main_v3) (V1 m c main_v9)) Facts₀.shapeCasts_S8000000_S62500x128)
    (shapeCast S62500x128 (takeK (V1 m c main_v3) (V1 m c main_v7)) Facts₀.shapeCasts_S8000000_S62500x128) (shapeCast S62500x128 (V1 m c main_v4) Facts₀.shapeCasts_S8000000_S62500x128) := by
  unfold o5
  rw [show V4 m c main_v16 = _ from w_main_v16 (V3 m c), show V4 m c main_v17 = _ from w_main_v17 (V3 m c),
    show V4 m c main_v18 = _ from w_main_v18 (V3 m c), p3_main_v14, show V2 m c main_v14 = _ from w_main_v14 (V1 m c),
    show V3 m c main_v15 = _ from w_main_v15 (V2 m c), p2_main_v3, p2_main_v7, p3_main_v4]

/-- The first derivative array is the spatial derivative of the later time level. -/
theorem du_eq : U8 m c main_v27 = sdK (V1 m c main_v9) (V1 m c main_v7) (V1 m c main_v4) (V1 m c main_v13) (V1 m c main_v3) := by
  rw [show U8 m c main_v27 = _ from w_main_v27 (U7 m c), U7_self]
  unfold o7
  rw [show U6 m c main_v24 = _ from w_main_v24 (U5 m c), show U6 m c main_v25 = _ from w_main_v25 (U5 m c),
    U5_self, p5_main_v9, p5_main_v13, o5_eq]
  rfl

end Cert.Bridge

end
-- ==== Proof.BridgeRead2.lean ====
/-
  The second spatial derivative in the kernel program, read off stretch by stretch in the same order as the
  first, with the first derivative array in place of the later time level.
-/
import proofs.«402448_j34849364639903_1_alg».proof.Proof.BridgeDefs
import proofs.«402448_j34849364639903_1_alg».proof.Proof.BridgeFrame
import proofs.«402448_j34849364639903_1_alg».proof.Proof.BridgeCast

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

/-! What each stretch writes, over any contents `W` of the arrays before it. -/

set_option maxHeartbeats 4000000 in
set_option maxRecDepth 4000 in
theorem w_main_v28 (W : Valuation τ sig (Elt F)) :
    StableHlo.after hostOps2_1 W (Proc.devRef .tc main_v28) = takeK (W main_v27) (W main_v9) := by
  after_results_simp
  simp only [ofBuf_toBuf, ofBuf_main_v9, ofBuf_main_v27, toBuf_main_v28]
  rfl
set_option maxHeartbeats 4000000 in
set_option maxRecDepth 4000 in
theorem w_main_v29 (W : Valuation τ sig (Elt F)) :
    StableHlo.after hostOps2_2 W (Proc.devRef .tc main_v29) = takeK (W main_v27) (W main_v7) := by
  after_results_simp
  simp only [ofBuf_toBuf, ofBuf_main_v7, ofBuf_main_v27, toBuf_main_v29]
  rfl
theorem w_main_v30 (W : Valuation τ sig (Elt F)) :
    StableHlo.after hostOps2_3 W (Proc.devRef .tc main_v30) = shapeCast S62500x128 (W main_v28) Facts₀.shapeCasts_S8000000_S62500x128 := by
  after_results
  rfl
theorem w_main_v31 (W : Valuation τ sig (Elt F)) :
    StableHlo.after hostOps2_3 W (Proc.devRef .tc main_v31) = shapeCast S62500x128 (W main_v29) Facts₀.shapeCasts_S8000000_S62500x128 := by
  after_results
  rfl
theorem w_main_v32 (W : Valuation τ sig (Elt F)) :
    StableHlo.after hostOps2_3 W (Proc.devRef .tc main_v32) = shapeCast S62500x128 (W main_v4) Facts₀.shapeCasts_S8000000_S62500x128 := by
  after_results
  rfl
theorem w_main_v38 (W : Valuation τ sig (Elt F)) :
    StableHlo.after hostOps3 W (Proc.devRef .tc main_v38) = shapeCast S31250x128 (sumAt (W main_v9) (shapeCast S8000000 (W main_v33) Facts₀.shapeCasts_S62500x128_S8000000)) Facts₀.shapeCasts_S4000000_S31250x128 := by
  after_results
  rfl
theorem w_main_v39 (W : Valuation τ sig (Elt F)) :
    StableHlo.after hostOps3 W (Proc.devRef .tc main_v39) = shapeCast S31250x128 (W main_v13) Facts₀.shapeCasts_S4000000_S31250x128 := by
  after_results
  rfl
theorem w_main_v41 (W : Valuation τ sig (Elt F)) :
    StableHlo.after hostOps4 W (Proc.devRef .tc main_v41) = shapeCast S4000000 (W main_v40) Facts₀.shapeCasts_S31250x128_S4000000 := by
  after_results
  rfl

variable (m : (ℓ : Loc nD τ sig) → Buf (Elt F) ℓ) (c : Dev nD)

/-- Region 2's result: the quotient of the difference of the two takes of the first derivative by the lengths. -/
theorem o12_eq : o12 m c = ediffA (shapeCast S62500x128 (takeK (U8 m c main_v27) (V1 m c main_v9)) Facts₀.shapeCasts_S8000000_S62500x128)
    (shapeCast S62500x128 (takeK (U8 m c main_v27) (V1 m c main_v7)) Facts₀.shapeCasts_S8000000_S62500x128) (shapeCast S62500x128 (V1 m c main_v4) Facts₀.shapeCasts_S8000000_S62500x128) := by
  unfold o12
  rw [show U11 m c main_v30 = _ from w_main_v30 (U10 m c), show U11 m c main_v31 = _ from w_main_v31 (U10 m c),
    show U11 m c main_v32 = _ from w_main_v32 (U10 m c), p10_main_v28, show U9 m c main_v28 = _ from w_main_v28 (U8 m c),
    show U10 m c main_v29 = _ from w_main_v29 (U9 m c), p9_main_v27, p9_main_v7, p8_main_v9, p10_main_v4]

/-- The second derivative array, before it is laid out in rows again, is the spatial derivative of the first. -/
theorem d2u_eq : shapeCast S4000000 (U14 m c main_v40) Facts₀.shapeCasts_S31250x128_S4000000 = sdK (V1 m c main_v9) (V1 m c main_v7) (V1 m c main_v4) (V1 m c main_v13) (U8 m c main_v27) := by
  rw [U14_self]
  unfold o14
  rw [show U13 m c main_v38 = _ from w_main_v38 (U12 m c), show U13 m c main_v39 = _ from w_main_v39 (U12 m c),
    U12_self, p12_main_v9, p12_main_v13, o12_eq]
  rfl

end Cert.Bridge

end
-- ==== Proof.BridgeRead3.lean ====
/-
  The kernel program's result array: the last region's weighted combination of the two time levels, the first
  and the second spatial derivative and the mask, each laid out in rows of 128, laid out flat again.
-/
import proofs.«402448_j34849364639903_1_alg».proof.Proof.BridgeRead1
import proofs.«402448_j34849364639903_1_alg».proof.Proof.BridgeRead2

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

/-! What the last two stretches write, over any contents `W` of the arrays before them. -/

theorem w_main_v42 (W : Valuation τ sig (Elt F)) :
    StableHlo.after hostOps4 W (Proc.devRef .tc main_v42) = shapeCast S31250x128 (W main_v1) Facts₀.shapeCasts_S4000000_S31250x128 := by
  after_results
  rfl
theorem w_main_v43 (W : Valuation τ sig (Elt F)) :
    StableHlo.after hostOps4 W (Proc.devRef .tc main_v43) = shapeCast S31250x128 (W main_v3) Facts₀.shapeCasts_S4000000_S31250x128 := by
  after_results
  rfl
theorem w_main_v44 (W : Valuation τ sig (Elt F)) :
    StableHlo.after hostOps4 W (Proc.devRef .tc main_v44) = shapeCast S31250x128 (W main_v27) Facts₀.shapeCasts_S4000000_S31250x128 := by
  after_results
  rfl
theorem w_main_v45 (W : Valuation τ sig (Elt F)) :
    StableHlo.after hostOps4 W (Proc.devRef .tc main_v45) = shapeCast S31250x128 (shapeCast S4000000 (W main_v40) Facts₀.shapeCasts_S31250x128_S4000000) Facts₀.shapeCasts_S4000000_S31250x128 := by
  after_results
  rfl
theorem w_main_v46 (W : Valuation τ sig (Elt F)) :
    StableHlo.after hostOps4 W (Proc.devRef .tc main_v46) = shapeCast S31250x128 (W main_v5) Facts₀.shapeCasts_S4000000_S31250x128 := by
  after_results
  rfl
theorem w_main_v48 (W : Valuation τ sig (Elt F)) :
    StableHlo.after hostOps5 W (Proc.devRef .tc main_v48) = shapeCast S4000000 (W main_v47) Facts₀.shapeCasts_S31250x128_S4000000 := by
  after_results
  rfl

variable (m : (ℓ : Loc nD τ sig) → Buf (Elt F) ℓ) (c : Dev nD)

/-- The program's result is the loss of the arrays the first stretch made. -/
theorem kernel_eq : U17 m c main_v48
    = lossK (V1 m c main_v9) (V1 m c main_v7) (V1 m c main_v4) (V1 m c main_v13) (V1 m c main_v1) (V1 m c main_v3) (V1 m c main_v5) := by
  rw [show U17 m c main_v48 = _ from w_main_v48 (U16 m c), U16_self]
  unfold o16
  rw [show U15 m c main_v42 = _ from w_main_v42 (U14 m c), show U15 m c main_v43 = _ from w_main_v43 (U14 m c),
    show U15 m c main_v44 = _ from w_main_v44 (U14 m c), show U15 m c main_v45 = _ from w_main_v45 (U14 m c),
    show U15 m c main_v46 = _ from w_main_v46 (U14 m c), p14_main_v1, p14_main_v3, p14_main_v27, p14_main_v5,
    d2u_eq, du_eq]
  rfl

end Cert.Bridge

end
-- ==== Proof.BridgeLayout.lean ====
/-
  Laying an array out in rows of 128 and flat again changes no entry, so the three entrywise region results,
  computed on the laid-out arrays and laid out flat again, are the same entrywise functions of the flat arrays.
-/
import proofs.«402448_j34849364639903_1_alg».proof.Proof.BridgeDefs
import Idealize.ShloMosaic.Lib.Pipeline.Value

noncomputable section

namespace Cert.Bridge

open Idealize.ShloMosaic Idealize.ShloMosaic.TcCoe
open Cert.KernelIdeal Cert.KernelIdeal.Reg
open Cert.KernelIdeal.Facts₀

variable {F : FTy → Type} [FloatOps F] [Named F]

/-- The quotient of a difference, computed in rows of 128, read flat. -/
theorem sc_ediff (a b l : FVec F S8000000 .f32) :
    shapeCast S8000000 (ediffA (shapeCast S62500x128 (a) Facts₀.shapeCasts_S8000000_S62500x128) (shapeCast S62500x128 (b) Facts₀.shapeCasts_S8000000_S62500x128) (shapeCast S62500x128 (l) Facts₀.shapeCasts_S8000000_S62500x128)) Facts₀.shapeCasts_S62500x128_S8000000
      = fun j => FloatOps.divf (FloatOps.subf (a j) (b j)) (l j) := by
  funext j
  show FloatOps.divf (FloatOps.subf (a _) (b _)) (l _) = _
  simp only [Shape.reshapeEquiv_reshapeEquiv, Shape.reshapeEquiv_self]

/-- The quotient by a maximum with one, computed in rows of 128, read flat. -/
theorem sc_fin (s n : FVec F S4000000 .f32) :
    shapeCast S4000000 (finA (shapeCast S31250x128 (s) Facts₀.shapeCasts_S4000000_S31250x128) (shapeCast S31250x128 (n) Facts₀.shapeCasts_S4000000_S31250x128)) Facts₀.shapeCasts_S31250x128_S4000000
      = fun j => FloatOps.divf (s j) (FloatOps.maximumf (n j) (Scalar.ofBits .f32 0x3F800000#32)) := by
  funext j
  show FloatOps.divf (s _) (FloatOps.maximumf (n _) _) = _
  simp only [Shape.reshapeEquiv_reshapeEquiv, Shape.reshapeEquiv_self]

/-- The weighted combination times the mask, computed in rows of 128, read flat. -/
theorem sc_comb (k : F .f32) (u u1 du d2u mk : FVec F S4000000 .f32) :
    shapeCast S4000000 (combA k (shapeCast S31250x128 (u) Facts₀.shapeCasts_S4000000_S31250x128) (shapeCast S31250x128 (u1) Facts₀.shapeCasts_S4000000_S31250x128) (shapeCast S31250x128 (du) Facts₀.shapeCasts_S4000000_S31250x128) (shapeCast S31250x128 (d2u) Facts₀.shapeCasts_S4000000_S31250x128) (shapeCast S31250x128 (mk) Facts₀.shapeCasts_S4000000_S31250x128)) Facts₀.shapeCasts_S31250x128_S4000000
      = fun j => FloatOps.mulf
          (FloatOps.subf (FloatOps.addf (FloatOps.mulf (FloatOps.subf (u j) (u1 j)) k) (FloatOps.mulf (du j) (u1 j)))
            (FloatOps.mulf (Scalar.ofBits .f32 0x3C23D70A#32) (d2u j)))
          (mk j) := by
  funext j
  show FloatOps.mulf
          (FloatOps.subf (FloatOps.addf (FloatOps.mulf (FloatOps.subf (u _) (u1 _)) k) (FloatOps.mulf (du _) (u1 _)))
            (FloatOps.mulf _ (d2u _)))
          (mk _) = _
  simp only [Shape.reshapeEquiv_reshapeEquiv, Shape.reshapeEquiv_self]

end Cert.Bridge

end
-- ==== Proof.TakeLemma.lean ====
/-
  The take: reading a rank-one table at an array of positions, as printed (wrap a negative position by the
  table's length, lay the positions as a column, gather, and keep the gathered value where the column is in
  range, a fixed pattern elsewhere). When every position is already in [0, N) the wrap is the identity, the
  range mask is all ones and the result is the gather at the positions themselves.
-/
import proofs.«402448_j34849364639903_1_alg».proof.KernelIdeal
import Idealize.ShloMosaic.Lib.StableHlo.Predicate
import Idealize.ShloMosaic.Lib.ValueIdx
import Idealize.ShloMosaic.PureOps.Reduce
import Idealize.ShloMosaic.Lib.Affine

noncomputable section

namespace Cert.TakeLemma

open Idealize.ShloMosaic Cert.KernelIdeal
open Cert.KernelIdeal.Facts₀

variable {F : FTy → Type} [FloatOps F] [Named F] [Cert.KernelIdeal.Facts₀]

/-- Every position is in the table: 0 ≤ idx e < 4000000, read signed. -/
def InRange (idx : IVec S8000000 32) : Prop := ∀ e, 0 ≤ (idx e).toInt ∧ (idx e).toInt < 4000000

/-- The wrap of a negative position, as printed. -/
abbrev wrap (idx : IVec S8000000 32) : IVec S8000000 32 :=
  select (cmpi .slt idx (broadcastInDim S8000000 ![] bcast_S_S8000000 (constantI S_ 32 0#32)))
    (addi idx (broadcastInDim S8000000 ![] bcast_S_S8000000 (constantI S_ 32 4000000#32))) idx

/-- The positions as a column. -/
abbrev col (idx : IVec S8000000 32) : IVec S8000000x1 32 :=
  broadcastInDim S8000000x1 ![0] bcast_S8000000_S8000000x1_0 idx

/-- The range mask of a column of positions, as printed. -/
abbrev mask (c : IVec S8000000x1 32) : IVec S8000000 1 :=
  Host.reduce IntOp.andi
    (andi (cmpi .sge c (broadcastInDim S8000000x1 ![] bcast_S_S8000000x1 (constantI S_ 32 0#32)))
      (cmpi .sle c (broadcastInDim S8000000x1 ![0, 1] bcast_S1x1_S8000000x1_0_1
        (broadcastInDim S1x1 ![1] bcast_S1_S1x1_1 (constantI S1 32 3999999#32)))))
    (constantI S_ 1 1#1) reducesTo_S8000000x1_S8000000_d1 h_S_

/-- The whole take, as printed. -/
abbrev take (x : FVec F S4000000 .f32) (idx : IVec S8000000 32) : FVec F S8000000 .f32 :=
  select (mask (col (wrap idx)))
    (Host.gather gather_S4000000_S8000000x1_S8000000_n_0_n_n_0_1_1 x (col (wrap idx)))
    (broadcastInDim S8000000 ![] bcast_S_S8000000 (constant (F := F) S_ .f32 0x7FC00000#32))

/-- A position in range is not wrapped. -/
theorem wrap_eq (idx : IVec S8000000 32) (h : InRange idx) : wrap idx = idx := by
  funext e
  have hneg : ¬ IntOp.cmpi .slt (idx e) 0#32 = 1#1 := by
    rw [IntOp.cmpi_slt, show (0#32 : BitVec 32).toInt = 0 from by decide]
    exact not_lt.mpr (h e).1
  simp only [select, cmpi, addi, broadcastInDim, constantI, Scalar.select]
  exact if_neg hneg

/-- A left fold by and over ones, from one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a (List.mem_cons_self ..), show IntOp.andi 1#1 1#1 = 1#1 from by decide]
    exact foldl_andi_ones f l fun n hn => hl n (List.mem_cons_of_mem _ hn)

/-- The range mask of a column of in-range positions is all ones. -/
theorem mask_eq (idx : IVec S8000000 32) (h : InRange idx) : mask (col idx) = fun _ => 1#1 := by
  funext j
  show Host.reduce IntOp.andi _ _ reducesTo_S8000000x1_S8000000_d1 h_S_ j = 1#1
  rw [Host.reduce_eq_foldl]
  refine foldl_andi_ones _ _ fun k _ => ?_
  simp only [andi, cmpi, IntOp.andi_eq_one]
  constructor
  · simp only [broadcastInDim, constantI]
    rw [IntOp.cmpi_sge, show (0#32 : BitVec 32).toInt = 0 from by decide]
    exact (h _).1
  · simp only [broadcastInDim, constantI]
    rw [IntOp.cmpi_sle, show (3999999#32 : BitVec 32).toInt = 3999999 from by decide]
    exact Int.lt_add_one_iff.mp (h _).2

/-- In range, the take is the gather at the positions themselves. -/
theorem take_eq (x : FVec F S4000000 .f32) (idx : IVec S8000000 32) (h : InRange idx) :
    take x idx = Host.gather gather_S4000000_S8000000x1_S8000000_n_0_n_n_0_1_1 x (col idx) := by
  show select (mask (col (wrap idx))) (Host.gather gather_S4000000_S8000000x1_S8000000_n_0_n_n_0_1_1 x (col (wrap idx))) _ = _
  rw [wrap_eq idx h, mask_eq idx h]
  funext e
  simp only [select, Scalar.select]
  exact if_pos rfl

/-- The same with every printed operation spelled out. -/
theorem take_eq' (x : FVec F S4000000 .f32) (idx : IVec S8000000 32) (h : InRange idx) :
    select
      (Host.reduce IntOp.andi
        (andi
          (cmpi .sge
            (broadcastInDim S8000000x1 ![0] bcast_S8000000_S8000000x1_0
              (select (cmpi .slt idx (broadcastInDim S8000000 ![] bcast_S_S8000000 (constantI S_ 32 0#32)))
                (addi idx (broadcastInDim S8000000 ![] bcast_S_S8000000 (constantI S_ 32 4000000#32))) idx))
            (broadcastInDim S8000000x1 ![] bcast_S_S8000000x1 (constantI S_ 32 0#32)))
          (cmpi .sle
            (broadcastInDim S8000000x1 ![0] bcast_S8000000_S8000000x1_0
              (select (cmpi .slt idx (broadcastInDim S8000000 ![] bcast_S_S8000000 (constantI S_ 32 0#32)))
                (addi idx (broadcastInDim S8000000 ![] bcast_S_S8000000 (constantI S_ 32 4000000#32))) idx))
            (broadcastInDim S8000000x1 ![0, 1] bcast_S1x1_S8000000x1_0_1
              (broadcastInDim S1x1 ![1] bcast_S1_S1x1_1 (constantI S1 32 3999999#32)))))
        (constantI S_ 1 1#1) reducesTo_S8000000x1_S8000000_d1 h_S_)
      (Host.gather gather_S4000000_S8000000x1_S8000000_n_0_n_n_0_1_1 x
        (broadcastInDim S8000000x1 ![0] bcast_S8000000_S8000000x1_0
          (select (cmpi .slt idx (broadcastInDim S8000000 ![] bcast_S_S8000000 (constantI S_ 32 0#32)))
            (addi idx (broadcastInDim S8000000 ![] bcast_S_S8000000 (constantI S_ 32 4000000#32))) idx)))
      (broadcastInDim S8000000 ![] bcast_S_S8000000 (constant (F := F) S_ .f32 0x7FC00000#32))
    = Host.gather gather_S4000000_S8000000x1_S8000000_n_0_n_n_0_1_1 x
        (broadcastInDim S8000000x1 ![0] bcast_S8000000_S8000000x1_0 idx) :=
  take_eq x idx h

end Cert.TakeLemma

end
-- ==== Proof.BridgeMath.lean ====
/-
  The kernel program's loss and the reference program's, at the ideal instance, when every edge position is a
  node: the take is then the plain gather the reference does (a position in range is not moved, and is inside
  the table), a quotient computed by a region is the host's quotient, and the scale constant of the time
  difference is the exact reciprocal of the time step, so scaling by it is dividing by the step.
-/
import proofs.«402448_j34849364639903_1_alg».proof.Proof.BridgeDefs
import proofs.«402448_j34849364639903_1_alg».proof.Proof.BridgeLayout
import proofs.«402448_j34849364639903_1_alg».proof.Proof.TakeLemma
import proofs.«402448_j34849364639903_1_alg».proof.Proof.ConstLemmas
import proofs.«402448_j34849364639903_1_alg».proof.Proof.Gen.ReferenceIdeal.Read
import Idealize.ShloMosaic.PureOps.Ideal

noncomputable section

namespace Cert.Bridge

open Idealize.ShloMosaic Idealize.ShloMosaic.TcCoe
open Cert.KernelIdeal Cert.KernelIdeal.Reg
open Cert.KernelIdeal.Facts₀

variable {F : FTy → Type} [FloatOps F] [Named F]

open Cert.ReferenceIdeal.Read Cert.TakeLemma

/-- The reference's read of a table at positions: the gather at the moved positions laid as a column. -/
def gatW (v : FVec Ideal S4000000 .f32) (idx : IVec S8000000 32) : FVec Ideal S8000000 .f32 :=
  Host.gather gather_S4000000_S8000000x1_S8000000_n_0_n_n_0_1_1 v (col (wrap idx))

/-- With the positions in range the program's take is the reference's read. -/
theorem takeK_eq (v : FVec Ideal S4000000 .f32) (idx : IVec S8000000 32) (h : InRange idx) :
    takeK v idx = gatW v idx := by
  have e : takeK v idx = take v idx := rfl
  rw [e, take_eq v idx h]
  unfold gatW
  rw [wrap_eq idx h]

/-- The spatial derivative as the reference computes it. -/
def sdR (dst src : IVec S8000000 32) (len : FVec Ideal S8000000 .f32) (cnt v : FVec Ideal S4000000 .f32) :
    FVec Ideal S4000000 .f32 :=
  Host.divf (sumAt dst (Host.divf (subf (gatW v dst) (gatW v src)) len))
    (maximumf cnt (broadcastInDim S4000000 ![] bcast_S_S4000000 (constant (F := Ideal) S_ .f32 0x3F800000#32)))

/-- With the positions in range the two spatial derivatives agree. -/
theorem sdK_eq {dst src : IVec S8000000 32} (hd : InRange dst) (hs : InRange src)
    (len : FVec Ideal S8000000 .f32) (cnt v : FVec Ideal S4000000 .f32) :
    sdK dst src len cnt v = sdR dst src len cnt v := by
  unfold sdK
  rw [sc_ediff, sc_fin, takeK_eq v dst hd, takeK_eq v src hs]
  rfl

section
variable (x0 x1 : (⟨S4000000x2, .f32⟩ : BufTy).Contents (Elt Ideal)) (x2 : (⟨S2x8000000, .i32⟩ : BufTy).Contents (Elt Ideal))
  (x3 : (⟨S8000000x1, .f32⟩ : BufTy).Contents (Elt Ideal)) (x4 : (⟨S4000000x1, .f32⟩ : BufTy).Contents (Elt Ideal))

/-- The reference's first derivative is the spatial derivative of the later time level, -/
theorem ref_du : val_main_v37 (F := Ideal) x1 x2 x3
    = sdR (val_main_v11 x2) (val_main_v9 x2) (val_main_v0 x3) (val_main_v34 x2) (val_main_v4 x1) := rfl

/-- and its second derivative is the spatial derivative of the first. -/
theorem ref_d2u : val_main_v67 (F := Ideal) x1 x2 x3
    = sdR (val_main_v11 x2) (val_main_v9 x2) (val_main_v0 x3) (val_main_v34 x2) (val_main_v37 x1 x2 x3) := rfl

/-- Scaling by the named constant is dividing by the time step. -/
theorem scale_eq (x : EReal) (y : EReal) (hy : y = Ideal.ofBits .f32 0x3C23D70A#32) :
    FloatOps.mulf (F := Ideal) (φ := .f32) x (kdt (F := Ideal)) = FloatOps.hostDivf (F := Ideal) (φ := .f32) x y := by
  subst hy
  show x * Named.named (F := Ideal) κ "inv_dt" (φ := .f32) 0x42C80000#32 = Ideal.div x (Ideal.ofBits .f32 0x3C23D70A#32)
  rw [Cert.ConstLemmas.inv_dt, Cert.ConstLemmas.div_dt]

/-- The kernel program's loss is the reference program's result when every edge position is a node. -/
theorem loss_eq (hx2 : ∀ i : S2x8000000.Idx, 0 ≤ (x2 i).toInt ∧ (x2 i).toInt < 4000000) :
    lossK (val_main_v11 x2) (val_main_v9 x2) (val_main_v0 x3) (val_main_v34 x2) (val_main_v2 x0) (val_main_v4 x1) (val_main_v73 x4)
      = val_main_v74 (F := Ideal) x0 x1 x2 x3 x4 := by
  have hd : InRange (val_main_v11 x2) := fun e => hx2 _
  have hs : InRange (val_main_v9 x2) := fun e => hx2 _
  unfold lossK
  rw [sc_comb, sdK_eq hd hs, sdK_eq hd hs, ← ref_du, ← ref_d2u]
  funext j
  rw [val_main_v74_apply, val_main_v72_apply, val_main_v69_apply, val_main_v71_apply, val_main_v68_apply,
    val_main_v7_apply, val_main_v5_apply]
  rw [scale_eq _ (val_main_v6 (F := Ideal) j) rfl]
  rfl
end

end Cert.Bridge

end
-- ==== Proof.BridgeResult.lean ====
/-
  The bridge: with every edge position a node, the kernel program's result array, read off its stretches and
  regions as the loss of the arrays its first stretch makes, is the reference program's result on the same
  five arguments.
-/
import proofs.«402448_j34849364639903_1_alg».proof.Proof.BridgeRead0
import proofs.«402448_j34849364639903_1_alg».proof.Proof.BridgeRead3
import proofs.«402448_j34849364639903_1_alg».proof.Proof.BridgeMath

noncomputable section

namespace Cert.Bridge

open Idealize.ShloMosaic Idealize.ShloMosaic.TcCoe
open Cert.KernelIdeal Cert.KernelIdeal.Gen Cert.KernelIdeal.Reg
open Cert.KernelIdeal.Facts₀

variable {F : FTy → Type} [FloatOps F] [Named F]

open Cert.ReferenceIdeal.Read

theorem result_eq (m : (ℓ : Loc nD τ sig) → Buf (Elt Ideal) ℓ) (c : Dev nD)
    (hidx : ∀ i : S2x8000000.Idx, 0 ≤ (m ((c.tc : Thread nD τ).loc main_arg2) i).toInt
      ∧ (m ((c.tc : Thread nD τ).loc main_arg2) i).toInt < 4000000) :
    U17 (F := Ideal) m c main_v48 = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [kernel_eq, v1_main_v9, v1_main_v7, v1_main_v4, v1_main_v13, v1_main_v1, v1_main_v3, v1_main_v5]
  exact loss_eq _ _ _ _ _ hidx

end Cert.Bridge

end
-- ==== Proof.lean ====
/-
  The certificate. The kernel computes a graph loss over 4,000,000 nodes and 8,000,000 edges: with u = x_t[:, 0],
  u₁ = x_t1[:, 0], l = edge_attr[:, 0] and (src, dst) the rows of edge_index, the spatial derivative of a node field v is
  D v = S((v[dst] − v[src]) / l) / max(S(1), 1), where S is the segment sum over dst; the loss is
  ((u − u₁)·k + D u₁ · u₁ − 0.01 · D (D u₁)) · mask, with k the kernel's named constant 1/f32(0.01). The five entrywise
  passes are Pallas kernels over the arrays laid out in rows of 128 and cut into row blocks whose last block overhangs the
  array; the gathers and segment sums are host operations. The reference computes the same on the host, dividing by
  f32(0.01) where the kernel multiplies by k.

  Frames: each program's run is @main's seventeen items chained — twelve host stretches and five kernel regions, each
  region entered from and left at the buffers' contents in closed form (the region's result array at the entrywise
  function of its operand arrays: the blocks' payloads are computed entry by entry, so what lies past an array's end in a
  staging buffer never reaches the array). Values: the kernel's result array, read off the last valuation, is the
  reference's term of the same arguments once every index lies in [0, 4000000) — then jnp.take's fill never binds —, and
  x · (536870912 / 5368709) is x / f32(0.01) on every extended real.
-/
import proofs.«402448_j34849364639903_1_alg».proof.Defs
import proofs.«402448_j34849364639903_1_alg».proof.Proof.Gen.Kernel
import proofs.«402448_j34849364639903_1_alg».proof.Proof.Gen.KernelIdeal
import proofs.«402448_j34849364639903_1_alg».proof.Proof.Gen.ReferenceIdeal
import proofs.«402448_j34849364639903_1_alg».proof.Proof.Gen.Pre_finite_inputs
import proofs.«402448_j34849364639903_1_alg».proof.Proof.K.Frame
import proofs.«402448_j34849364639903_1_alg».proof.Proof.KI.Frame
import proofs.«402448_j34849364639903_1_alg».proof.Proof.RefRun
import proofs.«402448_j34849364639903_1_alg».proof.Proof.ConstLemmas
import proofs.«402448_j34849364639903_1_alg».proof.Proof.PreIdx
import proofs.«402448_j34849364639903_1_alg».proof.Proof.BridgeResult

noncomputable section

namespace Cert.Proof

open Idealize.ShloMosaic Idealize.ShloMosaic.TcCoe Idealize.SL.Sem

/-- The word-level kernel runs to the end, faults nowhere and leaves its arguments as launched. -/
theorem frame_k : Cert.frame_Kernel :=
  fun m ρ _ => Cert.Kernel.Reg.frame_main (F := Bits) m ρ

/-- So does the idealized kernel, -/
theorem frame_ki : Cert.frame_KernelIdeal :=
  fun m ρ _ => Cert.KernelIdeal.Reg.frame_main (F := Ideal) m ρ

/-- and the idealized reference: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories that agree on the arguments both idealized programs end with one result: the kernel's last valuation at
    its result buffer, which is the reference's term of the arguments when the indices are in range. -/
theorem algebraic : Cert.algebraic_KernelIdeal_ReferenceIdeal := by
  intro m ρ m' ρ' hpre hagree
  refine ⟨fun c => Cert.KernelIdeal.Reg.U17 (F := Ideal) m c Cert.KernelIdeal.main_v48, Cert.KernelIdeal.Reg.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq, (hagree c).1, (hagree c).2.1, (hagree c).2.2.1, (hagree c).2.2.2.1, (hagree c).2.2.2.2]
  exact (Cert.Bridge.result_eq m c (Cert.PreIdx.idx_of_pre m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, Cert.ConstLemmas.preserves, algebraic⟩

end Cert.Proof

end
